-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x128 : Shape := ⟨2, ![2000000, 128]⟩
abbrev S2000000 : Shape := ⟨1, ![2000000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2000000x128 .f32) (main_arg1 : IVec S2000000 32) (main_arg2 : FVec F S128x64 .f32) (main_arg3 : FVec F S64 .f32) (main_arg4 : FVec F S64x1 .f32) (main_arg5 : FVec F S1 .f32) : IVec S_ 1 :=
  let main_v0 : FVec F S2000000x128 .f32 := Host.absf main_arg0
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S2000000x128 : Shape := ⟨2, ![2000000, 128]⟩
abbrev S2000000 : Shape := ⟨1, ![2000000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2000000x1 : Shape := ⟨2, ![2000000, 1]⟩
abbrev S2x256x128 : Shape := ⟨3, ![2, 256, 128]⟩
abbrev S2x1x256 : Shape := ⟨3, ![2, 1, 256]⟩
abbrev S8000x128 : Shape := ⟨2, ![8000, 128]⟩
abbrev S8000x1 : Shape := ⟨2, ![8000, 1]⟩
abbrev S1x256x128 : Shape := ⟨3, ![1, 256, 128]⟩
abbrev S1x1x256 : Shape := ⟨3, ![1, 1, 256]⟩
abbrev S256x128 : Shape := ⟨2, ![256, 128]⟩
abbrev S1x256 : Shape := ⟨2, ![1, 256]⟩
abbrev S8000 : Shape := ⟨1, ![8000]⟩
abbrev S8000x256 : Shape := ⟨2, ![8000, 256]⟩
abbrev S256 : Shape := ⟨1, ![256]⟩
abbrev S_ : Shape := ⟨0, ![]⟩
abbrev S256x1 : Shape := ⟨2, ![256, 1]⟩
abbrev S1x64 : Shape := ⟨2, ![1, 64]⟩
abbrev S1x1 : Shape := ⟨2, ![1, 1]⟩
abbrev S256x64 : Shape := ⟨2, ![256, 64]⟩

abbrev nBuf : Space → Nat
  | .hbm => 17
  | .vmem => 17
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S2000000x1, .i32⟩
  | .hbm, ⟨7, _⟩ => ⟨S2x256x128, .f32⟩
  | .hbm, ⟨8, _⟩ => ⟨S2x1x256, .f32⟩
  | .hbm, ⟨9, _⟩ => ⟨S_, .f32⟩
  | .hbm, ⟨10, _⟩ => ⟨S256x128, .f32⟩
  | .hbm, ⟨11, _⟩ => ⟨S_, .f32⟩
  | .hbm, ⟨12, _⟩ => ⟨S1x256, .f32⟩
  | .hbm, ⟨13, _⟩ => ⟨S256x1, .f32⟩
  | .hbm, ⟨14, _⟩ => ⟨S1x64, .f32⟩
  | .hbm, ⟨15, _⟩ => ⟨S1x1, .f32⟩
  | .hbm, ⟨16, _⟩ => ⟨S256x1, .f32⟩
  | .local _ .vmem, ⟨0, _⟩ => ⟨S8000x128, .f32⟩
  | .local _ .vmem, ⟨1, _⟩ => ⟨S8000x128, .f32⟩
  | .local _ .vmem, ⟨2, _⟩ => ⟨S8000x1, .i32⟩
  | .local _ .vmem, ⟨3, _⟩ => ⟨S8000x1, .i32⟩
  | .local _ .vmem, ⟨4, _⟩ => ⟨S1x256x128, .f32⟩
  | .local _ .vmem, ⟨5, _⟩ => ⟨S1x256x128, .f32⟩
  | .local _ .vmem, ⟨6, _⟩ => ⟨S1x1x256, .f32⟩
  | .local _ .vmem, ⟨7, _⟩ => ⟨S1x1x256, .f32⟩
  | .local _ .vmem, ⟨8, _⟩ => ⟨S256x128, .f32⟩
  | .local _ .vmem, ⟨9, _⟩ => ⟨S1x256, .f32⟩
  | .local _ .vmem, ⟨10, _⟩ => ⟨S256x128, .f32⟩
  | .local _ .vmem, ⟨11, _⟩ => ⟨S256x1, .f32⟩
  | .local _ .vmem, ⟨12, _⟩ => ⟨S128x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S256x1, .f32⟩
  | _, _ => ⟨S2000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v29 : BitVec 1 := Scalar.cmpi .eq arg1 c124_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  shapeCasts_S2000000_S2000000x1 : S2000000.ShapeCasts S2000000x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S8000x128_S8000x128_0_0 : ∀ a, (![0, 0] : Fin 2 → Nat) a + S8000x128.size a ≤ S8000x128.size a
  h_S8000x128 : 0 < S8000x128.numel
  inb_S8000x1_S8000x1_0_0 : ∀ a, (![0, 0] : Fin 2 → Nat) a + S8000x1.size a ≤ S8000x1.size a
  h_S8000x1 : 0 < S8000x1.numel
  shapeCasts_S8000x1_S8000 : S8000x1.ShapeCasts S8000
  iota_S8000x256_d1_w32 : S8000x256.Iotas .tc 32 [1]
  shapeCasts_S8000_S8000x1 : S8000.ShapeCasts S8000x1
  broadcasts_S8000x1_S8000x256 : S8000x1.Broadcasts S8000x256
  natLt_1_32 : 1 < 32
  bitsLt_bf16_f32 : FTy.bits .bf16 < FTy.bits .f32
  reduces_S8000x256_S256 : S8000x256.Reduces [0] S256
  shapeCasts_S256_S1x256 : S256.ShapeCasts S1x256
  shapeCasts_S256x128_S1x256x128 : S256x128.ShapeCasts S1x256x128
  inb_S1x256x128_S1x256x128_0_0_0 : ∀ a, (![0, 0, 0] : Fin 3 → Nat) a + S1x256x128.size a ≤ S1x256x128.size a
  h_S1x256x128 : 0 < S1x256x128.numel
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S2x256x128_S256x128_d0 : S2x256x128.ReducesTo [0] S256x128
  h_S_ : 0 < S_.numel
  reducesTo_S2x1x256_S1x256_d0 : S2x1x256.ReducesTo [0] S1x256
  shapeCasts_S1x256_S256x1 : S1x256.ShapeCasts S256x1
  shapeCasts_S64_S1x64 : S64.ShapeCasts S1x64
  shapeCasts_S1_S1x1 : S1.ShapeCasts S1x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  dot_S8000x256_S8000x128_S256x128_0_0_1_1_n_n_wf : DotDims.WF S8000x256 S8000x128 S256x128 [0] [0] [1] [1] [] []
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S2000000x128.size a
  hwx0_0 : ∀ i : grid0.Coords, EltTy.bits .f32 = 32 ∨ (Rect.block (s := S2000000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S2000000x1.size a
  hwx0_1 : ∀ i : grid0.Coords, EltTy.bits .i32 = 32 ∨ (Rect.block (s := S2000000x1) S8000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S2x256x128.size a
  hwx0_2 : ∀ i : grid0.Coords, EltTy.bits .f32 = 32 ∨ (Rect.block (s := S2x256x128) S1x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S256x128.size a
  hwx1_0 : ∀ i : grid1.Coords, EltTy.bits .f32 = 32 ∨ (Rect.block (s := S256x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .f32 = 32 ∨ (Rect.block (s := S256x1) S256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S256x1.size a
  hwx1_6 : ∀ i : grid1.Coords, EltTy.bits .f32 = 32 ∨ (Rect.block (s := S256x1) S256x1.size (cc1_transform_6 i) (hinb1_6 i)).WholeWords (EltTy.packing .f32)

variable [Facts₀]

def dot_S8000x256_S8000x128_S256x128_0_0_1_1_n_n : DotDims S8000x256 S8000x128 S256x128 where
  lhsContracting := [0]
  rhsContracting := [0]
  lhsNonContracting := [1]
  rhsNonContracting := [1]
  lhsBatch := []
  rhsBatch := []
  wf := dot_S8000x256_S8000x128_S256x128_0_0_1_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x256x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v2) S256x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S256x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2000000x128 : Shape := ⟨2, ![2000000, 128]⟩
abbrev S2000000 : Shape := ⟨1, ![2000000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S256x128 : Shape := ⟨2, ![256, 128]⟩
abbrev S2000000x1 : Shape := ⟨2, ![2000000, 1]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S_, .f32⟩
  | .hbm, ⟨7, _⟩ => ⟨S256x128, .f32⟩
  | .hbm, ⟨8, _⟩ => ⟨S2000000x1, .i32⟩
  | .hbm, ⟨9, _⟩ => ⟨S256x128, .f32⟩
  | .hbm, ⟨10, _⟩ => ⟨S_, .f32⟩
  | .hbm, ⟨11, _⟩ => ⟨S2000000, .f32⟩
  | .hbm, ⟨12, _⟩ => ⟨S_, .f32⟩
  | .hbm, ⟨13, _⟩ => ⟨S256, .f32⟩
  | .hbm, ⟨14, _⟩ => ⟨S2000000x1, .i32⟩
  | .hbm, ⟨15, _⟩ => ⟨S256, .f32⟩
  | .hbm, ⟨16, _⟩ => ⟨S256x1, .f32⟩
  | .hbm, ⟨17, _⟩ => ⟨S256x128, .f32⟩
  | .hbm, ⟨18, _⟩ => ⟨S256x128, .f32⟩
  | .hbm, ⟨19, _⟩ => ⟨S256x64, .f32⟩
  | .hbm, ⟨20, _⟩ => ⟨S1x64, .f32⟩
  | .hbm, ⟨21, _⟩ => ⟨S256x64, .f32⟩
  | .hbm, ⟨22, _⟩ => ⟨S256x64, .f32⟩
  | .hbm, ⟨23, _⟩ => ⟨S_, .f32⟩
  | .hbm, ⟨24, _⟩ => ⟨S256x64, .f32⟩
  | .hbm, ⟨25, _⟩ => ⟨S256x64, .f32⟩
  | .hbm, ⟨26, _⟩ => ⟨S256x1, .f32⟩
  | .hbm, ⟨27, _⟩ => ⟨S1x1, .f32⟩
  | .hbm, ⟨28, _⟩ => ⟨S256x1, .f32⟩
  | .hbm, ⟨29, _⟩ => ⟨S256x1, .f32⟩
  | _, _ => ⟨S2000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S256x128 : S_.BroadcastsInDim S256x128 (![] : Fin 0 → Fin S256x128.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S256x128_S2000000x1_S2000000x128_1_0_0_1_wf : ScatterDims.WF S256x128 S2000000x1 S2000000x128 [1] [0] [0] 1
  scatter_S256_S2000000x1_S2000000_n_0_0_1_wf : ScatterDims.WF S256 S2000000x1 S2000000 [] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []

variable [Facts₀]

def scatter_S256x128_S2000000x1_S2000000x128_1_0_0_1 : ScatterDims S256x128 S2000000x1 S2000000x128 where
  updateWindowDims := [1]
  insertedWindowDims := [0]
  scatterDimsToOperandDims := [0]
  indexVectorDim := 1
  wf := scatter_S256x128_S2000000x1_S2000000x128_1_0_0_1_wf
def scatter_S256_S2000000x1_S2000000_n_0_0_1 : ScatterDims S256 S2000000x1 S2000000 where
  updateWindowDims := []
  insertedWindowDims := [0]
  scatterDimsToOperandDims := [0]
  indexVectorDim := 1
  wf := scatter_S256_S2000000x1_S2000000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.K.SegAcc.lean ====
/-
  The first launch: the segment sums and counts, accumulated tile by tile.

  The grid is 2 × 125. Point `t = 125·p + j` sees rows `8000·t … 8000·t + 7999` of the feature array and of the
  segment words. Two scratch buffers persist between points: a 256 × 128 accumulator of sums and a 1 × 256
  accumulator of counts. At `j = 0` both are reset to zero; at every point the tile's one-hot matrix (row's word
  = column number) is contracted with the tile's features and added to the sums, and its column sums are added to
  the counts; at `j = 124` the two accumulators are copied to block `p` of the two results.
  `accAt` names what the two scratch buffers hold after each point, by recursion on the point.
-/
import proofs.«403711_j17686675324958_1_alg».proof.Proof.Gen.Kernel.Launch
import proofs.«403711_j17686675324958_1_alg».proof.Proof.Gen.Kernel.Skeleton
import proofs.«403711_j17686675324958_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-! ## The tiles -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 8000 feature rows of point `t`. -/
abbrev xrows (c : Dev nD) (t : Fin cfg0.N) : Vec F S8000x128 .f32 := iblk0 V c 0 t
/-- The 8000 segment words of point `t`. -/
abbrev segids (c : Dev nD) (t : Fin cfg0.N) : Vec F S8000x1 .i32 := iblk0 V c 1 t

/-! ## The accumulators -/

/-- What the sums scratch and the counts scratch hold after point `n`: at a point whose second coordinate is zero
    (`n` a multiple of 125) the tile's contribution over zero, elsewhere over what the point before left. -/
def accAt (c : Dev nD) : (n : ℕ) → n < cfg0.N → Vec F S256x128 .f32 × Vec F S1x256 .f32
  | 0, hn => (k0_pay4 (xrows V c ⟨0, hn⟩) (segids V c ⟨0, hn⟩) k0_pay1, k0_pay5 (segids V c ⟨0, hn⟩) k0_pay2)
  | n + 1, hn =>
    if (n + 1) % 125 = 0 then
      (k0_pay4 (xrows V c ⟨n + 1, hn⟩) (segids V c ⟨n + 1, hn⟩) k0_pay1, k0_pay5 (segids V c ⟨n + 1, hn⟩) k0_pay2)
    else
      (k0_pay4 (xrows V c ⟨n + 1, hn⟩) (segids V c ⟨n + 1, hn⟩) (accAt c n (Nat.lt_of_succ_lt hn)).1,
        k0_pay5 (segids V c ⟨n + 1, hn⟩) (accAt c n (Nat.lt_of_succ_lt hn)).2)

/-- At a reset point the accumulators hold the tile's contribution over zero. -/
theorem accAt_reset (c : Dev nD) (t : Fin cfg0.N) (h : t.val % 125 = 0) :
    accAt V c t.val t.isLt = (k0_pay4 (xrows V c t) (segids V c t) k0_pay1, k0_pay5 (segids V c t) k0_pay2) := by
  obtain ⟨n, hn⟩ := t
  cases n with
  | zero => rfl
  | succ n => exact (if_pos h).trans rfl

/-- At any other point they hold the tile's contribution over what the point before left. -/
theorem accAt_step (c : Dev nD) (t : Fin cfg0.N) (h : ¬t.val % 125 = 0) :
    accAt V c t.val t.isLt
      = (k0_pay4 (xrows V c t) (segids V c t) (accAt V c (t.val - 1) (Nat.lt_of_le_of_lt (Nat.sub_le _ _) t.isLt)).1,
         k0_pay5 (segids V c t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The two components apart, at a reset point -/
theorem sums_reset (c : Dev nD) (t : Fin cfg0.N) (h : t.val % 125 = 0) :
    (accAt V c t.val t.isLt).1 = k0_pay4 (xrows V c t) (segids V c t) k0_pay1 := congrArg Prod.fst (accAt_reset V c t h)
theorem cnts_reset (c : Dev nD) (t : Fin cfg0.N) (h : t.val % 125 = 0) :
    (accAt V c t.val t.isLt).2 = k0_pay5 (segids V c t) k0_pay2 := congrArg Prod.snd (accAt_reset V c t h)
/-- and at any other point. -/
theorem sums_step (c : Dev nD) (t : Fin cfg0.N) (h : ¬t.val % 125 = 0) :
    (accAt V c t.val t.isLt).1
      = k0_pay4 (xrows V c t) (segids V c t) (accAt V c (t.val - 1) (Nat.lt_of_le_of_lt (Nat.sub_le _ _) t.isLt)).1 :=
  congrArg Prod.fst (accAt_step V c t h)
theorem cnts_step (c : Dev nD) (t : Fin cfg0.N) (h : ¬t.val % 125 = 0) :
    (accAt V c t.val t.isLt).2
      = k0_pay5 (segids V c t) (accAt V c (t.val - 1) (Nat.lt_of_le_of_lt (Nat.sub_le _ _) t.isLt)).2 :=
  congrArg Prod.snd (accAt_step V c t h)

/-! ## The invariant between points -/

/-- The two scratch operands, whole. -/
abbrev sumsM : Memref sig .tc .vmem S256x128 .f32 := Memref.whole cc0_scratch0
abbrev cntsM : Memref sig .tc .vmem S1x256 .f32 := Memref.whole cc0_scratch1

/-- The second launch's seven staging buffers, which this launch never touches: each whole at some contents. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f))

/-- The class invariant with the two scratch operands as owned memrefs at some contents. -/
theorem PhiA0_eq (c : Dev nD) :
    (Pipeline.ΦA spec0 c : sProp 𝕄)
      = iprop(((∃ d, owns (c : Thread nD τ) sumsM fullShare d) ∗ (∃ d, owns (c : Thread nD τ) cntsM fullShare d) ∗ otherScoped c)
          ∗ (∃ r, prngReg c r)) := by
  unfold Pipeline.ΦA otherScoped; rw [scopedRest0_eq]; simp only [sumsM, cntsM, owns_whole]; try rfl

/-- The invariant before position `n`: before the first point every scoped buffer at anything; afterwards the two
    scratch operands at what the point before left (`accAt`), the other scoped buffers at anything, the generator
    register at some state. -/
def PhiS (c : Dev nD) : (n : ℕ) → n ≤ cfg0.N → sProp 𝕄
  | 0, _ => Pipeline.ΦA spec0 c
  | n + 1, hn => iprop((owns (c : Thread nD τ) sumsM fullShare (accAt V c n hn).1 ∗ owns (c : Thread nD τ) cntsM fullShare (accAt V c n hn).2 ∗ otherScoped c)
      ∗ (∃ r, prngReg c r))

/-! ## The proof data -/

/-- The proof data of the first launch on core `c`: the arrays as found; after the body each input's buffer at its
    block, the sums' result buffer at the sums accumulator re-laid as one block, the counts' at the counts
    accumulator re-laid (read only at the points that write them back); the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (accAt V c t.val t.isLt).1
    | ⟨3, _⟩ => k0_pay7 (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (accAt V c t.val t.isLt).1 := by dsimp only [dat0]
theorem after0_3 (c : Dev nD) (t : Fin cfg0.N) : (dat0 V c).after 3 t = k0_pay7 (accAt V c t.val t.isLt).2 := by dsimp only [dat0]

/-! ## The two conditionals over the grid -/

/-- The first conditional's condition (the second grid coordinate is zero), as the body computes it. -/
abbrev condReset (i : grid0.Coords) : Prop :=
  (Scalar.cmpi .ne (Scalar.extui (Scalar.cmpi .eq (BitVec.ofNat 32 (i 1).val) 0#32)) 0#32) = 1#1
/-- It holds exactly at the points that are multiples of 125. -/
theorem hcondReset : ∀ t : Fin cfg0.N, condReset (grid0.coords t) ↔ t.val % 125 = 0 :=
  (by decide +kernel : ∀ t : Fin grid0.N, condReset (grid0.coords t) ↔ t.val % 125 = 0)

/-- The second conditional's condition (the second grid coordinate is 124). -/
abbrev condCopy (i : grid0.Coords) : Prop := k0_cond2 i = 1#1
/-- It holds exactly at the points ≡ 124 (mod 125). -/
theorem hcondCopy : ∀ t : Fin cfg0.N, condCopy (grid0.coords t) ↔ t.val % 125 = 124 :=
  (by decide +kernel : ∀ t : Fin grid0.N, condCopy (grid0.coords t) ↔ t.val % 125 = 124)

/-- The two inputs are stored into at no point; the two results only at the points ≡ 124 (mod 125), and only there
    are they written back. -/
theorem liveAt0 : ∀ t : Fin cfg0.N, cfg0.idle 0 (grid0.coords t) = false := by decide +kernel
theorem liveAt1 : ∀ t : Fin cfg0.N, cfg0.idle 1 (grid0.coords t) = false := by decide +kernel
theorem idleAt2 : ∀ t : Fin cfg0.N, ¬t.val % 125 = 124 → cfg0.idle 2 (grid0.coords t) = true := by decide +kernel
theorem idleAt3 : ∀ t : Fin cfg0.N, ¬t.val % 125 = 124 → cfg0.idle 3 (grid0.coords t) = true := by decide +kernel
theorem liveAt2 : ∀ t : Fin cfg0.N, t.val % 125 = 124 → cfg0.idle 2 (grid0.coords t) = false := by decide +kernel
theorem liveAt3 : ∀ t : Fin cfg0.N, t.val % 125 = 124 → cfg0.idle 3 (grid0.coords t) = false := by decide +kernel
theorem noFlush2 (t : Fin cfg0.N) (h : ¬t.val % 125 = 124) : (cfg0.win 2).flush t = false :=
  Bool.eq_false_iff.mpr fun hf => h ((flush0_2 t).mp hf)
theorem noFlush3 (t : Fin cfg0.N) (h : ¬t.val % 125 = 124) : (cfg0.win 3).flush t = false :=
  Bool.eq_false_iff.mpr fun hf => h ((flush0_3 t).mp hf)

/-! ## Whole-buffer loads and stores

Every load and store of the body goes through the whole-shape rectangle at zero offsets. -/

theorem hz2 : (![0, 0] : Fin 2 → Nat) = fun _ => 0 := funext fun a => by fin_cases a <;> rfl
theorem hz3 : (![0, 0, 0] : Fin 3 → Nat) = fun _ => 0 := funext fun a => by fin_cases a <;> rfl

section Whole
variable {S : Shape} {e : EltTy}

/-- A load of a whole buffer held at contents `X` reads `X`. -/
theorem readAt_whole (m : Memref sig .tc .vmem S e) (hm : m.IsWhole) {off : Fin S.rank → Nat} (h : off = fun _ => 0)
    (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

/-- A buffer whose last store was a whole-shape store of `w` reads `w`, whatever it held and whatever was stored before. -/
theorem read_writes_whole (m : Memref sig .tc .vmem S e) (f : m.view.ty.Contents (Elt F)) {off : Fin S.rank → Nat} (h : off = fun _ => 0)
    (inb : ∀ a, off a + S.size a ≤ S.size a) (w : S.Idx → Elt F e) (L : List (View.Piece (Elt F) S e)) :
    m.view.read (Elt F) (m.view.writes (Elt F) f ((⟨Rect.unit off S.size inb, w⟩ : View.Piece (Elt F) S e) :: L)) = w :=
  (View.read_writes_eq_canon _ _ _ (fun y => ⟨_, List.mem_cons_self, View.mem_set_unit_zero h inb y⟩)).trans
    (View.canon_cons_unit_zero h inb w L)

end Whole

/-! ## The body on whole memrefs, case by case

Three cases meet the grid: the reset points (first conditional taken, second not), the copy points (second taken,
first not) and the others (neither). In each the features' and the words' buffers are handed back as found, and
the two accumulators end at the tile's contribution over what the case starts them from. -/

set_option maxHeartbeats 1000000 in
/-- At a reset point: both accumulators, whatever they held, end at the tile's contribution over zero; the results'
    buffers are not touched. -/
theorem run_reset (c : Dev nD) (i : grid0.Coords)
    (arg2 : Memref sig .tc .vmem S8000x128 .f32) (harg2 : arg2.IsWhole) (arg3 : Memref sig .tc .vmem S8000x1 .i32) (harg3 : arg3.IsWhole)
    (arg4 : Memref sig .tc .vmem S1x256x128 .f32) (harg4 : arg4.IsWhole) (arg5 : Memref sig .tc .vmem S1x1x256 .f32) (harg5 : arg5.IsWhole)
    (arg6 : Memref sig .tc .vmem S256x128 .f32) (harg6 : arg6.IsWhole) (arg7 : Memref sig .tc .vmem S1x256 .f32) (harg7 : arg7.IsWhole)
    (hc0 : condReset i) (hc1 : ¬condCopy i)
    (x : Vec F S8000x128 .f32) (b : Vec F S8000x1 .i32)
    (E : Set ℕ) (K : PUnit → sProp 𝕄) :
    iprop(owns (c : Thread nD τ) arg2 fullShare x ∗ owns (c : Thread nD τ) arg3 fullShare b
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare b
            ∗ owns (c : Thread nD τ) arg6 fullShare (k0_pay4 x b k0_pay1) ∗ owns (c : Thread nD τ) arg7 fullShare (k0_pay5 b k0_pay2)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%ds, %fs, -, HS⟩, ⟨%dn, %fn, -, HN⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HS]
  · iexists _; isplitr
    swap; · iexact HS
    ipureintro
    -- the sums: zero stored, read back, the tile's contribution added and stored
    sl_unfold_words
    rw [read_writes_whole arg6 _ hz2, readAt_whole arg2 harg2 hz2, readAt_whole arg3 harg3 hz2,
      View.readCov_unit_zero (S := S256x128) _ hz2]
  iexists _; isplitr
  swap; · iexact HN
  ipureintro
  -- the counts likewise
  sl_unfold_words
  rw [read_writes_whole arg7 _ hz2, readAt_whole arg3 harg3 hz2, View.readCov_unit_zero (S := S1x256) _ hz2]

set_option maxHeartbeats 1000000 in
/-- At a point that neither resets nor copies: the accumulators at `s`, `n` end at the tile's contribution over
    them; the results' buffers are not touched. -/
theorem run_mid (c : Dev nD) (i : grid0.Coords)
    (arg2 : Memref sig .tc .vmem S8000x128 .f32) (harg2 : arg2.IsWhole) (arg3 : Memref sig .tc .vmem S8000x1 .i32) (harg3 : arg3.IsWhole)
    (arg4 : Memref sig .tc .vmem S1x256x128 .f32) (harg4 : arg4.IsWhole) (arg5 : Memref sig .tc .vmem S1x1x256 .f32) (harg5 : arg5.IsWhole)
    (arg6 : Memref sig .tc .vmem S256x128 .f32) (harg6 : arg6.IsWhole) (arg7 : Memref sig .tc .vmem S1x256 .f32) (harg7 : arg7.IsWhole)
    (hc0 : ¬condReset i) (hc1 : ¬condCopy i)
    (x : Vec F S8000x128 .f32) (b : Vec F S8000x1 .i32) (s : Vec F S256x128 .f32) (n : Vec F S1x256 .f32)
    (E : Set ℕ) (K : PUnit → sProp 𝕄) :
    iprop(owns (c : Thread nD τ) arg2 fullShare x ∗ owns (c : Thread nD τ) arg3 fullShare b
        ∗ owns (c : Thread nD τ) arg6 fullShare s ∗ owns (c : Thread nD τ) arg7 fullShare n
        ∗ (iprop(owns (c : Thread nD τ) arg2 fullShare x ∗ owns (c : Thread nD τ) arg3 fullShare b
            ∗ owns (c : Thread nD τ) arg6 fullShare (k0_pay4 x b s) ∗ owns (c : Thread nD τ) arg7 fullShare (k0_pay5 b n)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%fs, %hfs, HS⟩, ⟨%fn, %hfn, HN⟩, Hk⟩
  obtain rfl := harg2.eq_unread hf0; obtain rfl := harg3.eq_unread hf1
  obtain rfl := harg6.eq_unread hfs; obtain rfl := harg7.eq_unread hfn
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HS]
  · iexists _; isplitr
    swap; · iexact HS
    ipureintro
    rw [read_writes_whole arg6 _ hz2, readAt_whole arg2 harg2 hz2, readAt_whole arg3 harg3 hz2, readAt_whole arg6 harg6 hz2]
  iexists _; isplitr
  swap; · iexact HN
  ipureintro
  rw [read_writes_whole arg7 _ hz2, readAt_whole arg3 harg3 hz2, readAt_whole arg7 harg7 hz2]

set_option maxHeartbeats 1000000 in
/-- At a copy point: the accumulators as at the other points, and the two results' buffers, whatever they held, end
    at the new accumulators re-laid. -/
theorem run_copy (c : Dev nD) (i : grid0.Coords)
    (arg2 : Memref sig .tc .vmem S8000x128 .f32) (harg2 : arg2.IsWhole) (arg3 : Memref sig .tc .vmem S8000x1 .i32) (harg3 : arg3.IsWhole)
    (arg4 : Memref sig .tc .vmem S1x256x128 .f32) (harg4 : arg4.IsWhole) (arg5 : Memref sig .tc .vmem S1x1x256 .f32) (harg5 : arg5.IsWhole)
    (arg6 : Memref sig .tc .vmem S256x128 .f32) (harg6 : arg6.IsWhole) (arg7 : Memref sig .tc .vmem S1x256 .f32) (harg7 : arg7.IsWhole)
    (hc0 : ¬condReset i) (hc1 : condCopy i)
    (x : Vec F S8000x128 .f32) (b : Vec F S8000x1 .i32) (s : Vec F S256x128 .f32) (n : Vec F S1x256 .f32)
    (E : Set ℕ) (K : PUnit → sProp 𝕄) :
    iprop(owns (c : Thread nD τ) arg2 fullShare x ∗ owns (c : Thread nD τ) arg3 fullShare b
        ∗ (∃ d, owns (c : Thread nD τ) arg4 fullShare d) ∗ (∃ d, owns (c : Thread nD τ) arg5 fullShare d)
        ∗ owns (c : Thread nD τ) arg6 fullShare s ∗ owns (c : Thread nD τ) arg7 fullShare n
        ∗ (iprop(owns (c : Thread nD τ) arg2 fullShare x ∗ owns (c : Thread nD τ) arg3 fullShare b
            ∗ owns (c : Thread nD τ) arg4 fullShare (k0_pay6 (k0_pay4 x b s)) ∗ owns (c : Thread nD τ) arg5 fullShare (k0_pay7 (k0_pay5 b n))
            ∗ owns (c : Thread nD τ) arg6 fullShare (k0_pay4 x b s) ∗ owns (c : Thread nD τ) arg7 fullShare (k0_pay5 b n)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%d2, %f2, -, H2⟩, ⟨%d3, %f3, -, H3⟩, ⟨%fs, %hfs, HS⟩, ⟨%fn, %hfn, HN⟩, Hk⟩
  obtain rfl := harg2.eq_unread hf0; obtain rfl := harg3.eq_unread hf1
  obtain rfl := harg6.eq_unread hfs; obtain rfl := harg7.eq_unread hfn
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    -- the sums' result: the accumulator just stored, read back and re-laid
    sl_unfold_words
    rw [read_writes_whole arg4 _ hz3, View.readCov_unit_zero (S := S256x128) _ hz2, readAt_whole arg2 harg2 hz2,
      readAt_whole arg3 harg3 hz2, readAt_whole arg6 harg6 hz2]
  isplitl [H3]
  · iexists _; isplitr
    swap; · iexact H3
    ipureintro
    sl_unfold_words
    rw [read_writes_whole arg5 _ hz3, View.readCov_unit_zero (S := S1x256) _ hz2, readAt_whole arg3 harg3 hz2,
      readAt_whole arg7 harg7 hz2]
  isplitl [HS]
  · iexists _; isplitr
    swap; · iexact HS
    ipureintro
    sl_unfold_words
    rw [read_writes_whole arg6 _ hz2, readAt_whole arg2 harg2 hz2, readAt_whole arg3 harg3 hz2, readAt_whole arg6 harg6 hz2]
  iexists _; isplitr
  swap; · iexact HN
  ipureintro
  sl_unfold_words
  rw [read_writes_whole arg7 _ hz2, readAt_whole arg3 harg3 hz2, readAt_whole arg7 harg7 hz2]

/-! ## The body at a point of the grid -/

/-- Each window's current staging memref at point `t`, and its wholeness. -/
abbrev ms0 (t : Fin cfg0.N) : Memref sig .tc .vmem S8000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8000x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x256 .f32 := win0_3.stage (cfg0.slots t 3)
abbrev hs3 (t : Fin cfg0.N) : (ms3 t).IsWhole := hstage0_3 ((cfg0.slots t 3).cast nbuf0_3)

/-- Each input's current staging buffer holds its block at every point: the body leaves the block in place, and
    a point that does not fetch has the block index of the point before. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The invariant after point `n`. -/
theorem PhiS_succ (c : Dev nD) (n : ℕ) (hn : n < cfg0.N) :
    PhiS V c (n + 1) hn = iprop((owns (c : Thread nD τ) sumsM fullShare (accAt V c n hn).1 ∗ owns (c : Thread nD τ) cntsM fullShare (accAt V c n hn).2 ∗ otherScoped c)
      ∗ (∃ r, prngReg c r)) := rfl

/-- The invariant before a point that is not the first: the accumulators at what the point before left. -/
theorem PhiS_pos (c : Dev nD) (n : ℕ) (h : n ≤ cfg0.N) (hz : n ≠ 0) :
    PhiS V c n h = iprop((owns (c : Thread nD τ) sumsM fullShare (accAt V c (n - 1) (by omega)).1 ∗ owns (c : Thread nD τ) cntsM fullShare (accAt V c (n - 1) (by omega)).2 ∗ otherScoped c)
      ∗ (∃ r, prngReg c r)) := by
  cases n with
  | zero => exact absurd rfl hz
  | succ n => rfl

/-- At any position the invariant gives the accumulators at SOME contents: before the first point that is what it
    says, afterwards the named contents are forgotten. -/
theorem PhiS_any (c : Dev nD) (n : ℕ) (h : n ≤ cfg0.N) :
    PhiS V c n h ⊢ iprop(((∃ d, owns (c : Thread nD τ) sumsM fullShare d) ∗ (∃ d, owns (c : Thread nD τ) cntsM fullShare d) ∗ otherScoped c)
      ∗ (∃ r, prngReg c r)) := by
  cases n with
  | zero => exact Entails.of_eq ((show PhiS V c 0 h = Pipeline.ΦA spec0 c from rfl).trans (PhiA0_eq c))
  | succ n =>
    rw [PhiS_succ]
    iintro ⟨⟨HS, HC, Ho⟩, Hg⟩
    isplitr [Hg]
    · isplitl [HS]; · iexists _; iexact HS
      isplitl [HC]; · iexists _; iexact HC
      iexact Ho
    iexact Hg

/-- The invariant at a point's start, restated at the point's number. -/
theorem PhiS_castSucc (c : Dev nD) (t : Fin cfg0.N) :
    (dat0 V c).Φ t.castSucc = PhiS V c t.val (Nat.le_of_lt t.isLt) := rfl

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The inputs' buffers are handed back at their blocks. -/
theorem leaves0_0 (c : Dev nD) (t : Fin cfg0.N) :
    (dat0 V c).leavesExact 0 t = owns (c : Thread nD τ) (ms0 t) fullShare (iblk0 V c 0 t) := by
  rw [show (dat0 V c).leavesExact 0 t = owns (c : Thread nD τ) (ms0 t) fullShare ((dat0 V c).after 0 t) from by
    unfold Dat.leavesExact; rw [liveAt0 t], after0_0]
theorem leaves0_1 (c : Dev nD) (t : Fin cfg0.N) :
    (dat0 V c).leavesExact 1 t = owns (c : Thread nD τ) (ms1 t) fullShare (iblk0 V c 1 t) := by
  rw [show (dat0 V c).leavesExact 1 t = owns (c : Thread nD τ) (ms1 t) fullShare ((dat0 V c).after 1 t) from by
    unfold Dat.leavesExact; rw [liveAt1 t], after0_1]
/-- At a copy point the results' buffers are handed back at the accumulators re-laid. -/
theorem leaves0_2 (c : Dev nD) (t : Fin cfg0.N) (h : t.val % 125 = 124) :
    (dat0 V c).leavesExact 2 t = owns (c : Thread nD τ) (ms2 t) fullShare (k0_pay6 (accAt V c t.val t.isLt).1) := by
  rw [show (dat0 V c).leavesExact 2 t = owns (c : Thread nD τ) (ms2 t) fullShare ((dat0 V c).after 2 t) from by
    unfold Dat.leavesExact; rw [liveAt2 t h], after0_2]
theorem leaves0_3 (c : Dev nD) (t : Fin cfg0.N) (h : t.val % 125 = 124) :
    (dat0 V c).leavesExact 3 t = owns (c : Thread nD τ) (ms3 t) fullShare (k0_pay7 (accAt V c t.val t.isLt).2) := by
  rw [show (dat0 V c).leavesExact 3 t = owns (c : Thread nD τ) (ms3 t) fullShare ((dat0 V c).after 3 t) from by
    unfold Dat.leavesExact; rw [liveAt3 t h], after0_3]

set_option maxHeartbeats 4000000 in
/-- The body at any point. The inputs' memrefs hold their blocks; the point's number mod 125 says which case it
    is in. At a reset point the accumulators are taken at anything and come back at the tile's contribution over zero
    (`accAt_reset`); elsewhere they are taken at what the point before left and come back at the tile's contribution
    over that (`accAt_step`). Away from the copy points the results' buffers are handed back untouched; at a copy point
    they come back at the new accumulators re-laid. The other scoped buffers, the generator register and what the core
    owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ, leaves0_0, leaves0_1, PhiS_castSucc]
  by_cases h0 : t.val % 125 = 0
  · have h1 : ¬t.val % 125 = 124 := by omega
    rw [Dat.leavesExact_idle (dat0 V c) 2 t (idleAt2 t h1) (noFlush2 t h1),
      Dat.leavesExact_idle (dat0 V c) 3 t (idleAt3 t h1) (noFlush3 t h1), sums_reset V c t h0, cnts_reset V c t h0]
    refine (sep_mono (PhiS_any V c _ _) .rfl).trans ?_
    iintro ⟨⟨⟨HS, HC, Ho⟩, Hg⟩, Hw, ⟨%d0, H0⟩, ⟨%d1, H1⟩, H2, H3⟩
    iapply (run_reset c (grid0.coords t) (ms0 t) (hs0 t) (ms1 t) (hs1 t) (ms2 t) (hs2 t) (ms3 t) (hs3 t)
      sumsM (Memref.isWhole_whole _) cntsM (Memref.isWhole_whole _)
      ((hcondReset t).mpr h0) (fun h => h1 ((hcondCopy t).mp h)) (iblk0 V c 0 t) (iblk0 V c 1 t) Set.univ _)
    isplitl [H0]; · iexact H0
    isplitl [H1]; · iexact H1
    isplitl [HS]; · iexact HS
    isplitl [HC]; · iexact HC
    iintro ⟨H0, H1, HS, HC⟩
    isplitl [HS HC Ho Hg]
    · isplitr [Hg]
      · isplitl [HS]; · iexact HS
        isplitl [HC]; · iexact HC
        iexact Ho
      iexact Hg
    isplitl [Hw]; · iexact Hw
    isplitl [H0]; · iexact H0
    isplitl [H1]; · iexact H1
    isplitl [H2]; · iexact H2
    iexact H3
  · have hz : t.val ≠ 0 := fun hz => h0 (by rw [hz])
    rw [sums_step V c t h0, cnts_step V c t h0, PhiS_pos V c _ _ hz]
    by_cases h1 : t.val % 125 = 124
    · rw [leaves0_2 V c t h1, leaves0_3 V c t h1, sums_step V c t h0, cnts_step V c t h0]
      iintro ⟨⟨⟨HS, HC, Ho⟩, Hg⟩, Hw, ⟨%d0, H0⟩, ⟨%d1, H1⟩, ⟨%d2, H2⟩, ⟨%d3, H3⟩⟩
      iapply (run_copy c (grid0.coords t) (ms0 t) (hs0 t) (ms1 t) (hs1 t) (ms2 t) (hs2 t) (ms3 t) (hs3 t)
        sumsM (Memref.isWhole_whole _) cntsM (Memref.isWhole_whole _)
        (fun h => h0 ((hcondReset t).mp h)) ((hcondCopy t).mpr h1) (iblk0 V c 0 t) (iblk0 V c 1 t)
        (accAt V c (t.val - 1) (Nat.lt_of_le_of_lt (Nat.sub_le _ _) t.isLt)).1
        (accAt V c (t.val - 1) (Nat.lt_of_le_of_lt (Nat.sub_le _ _) t.isLt)).2 Set.univ _)
      isplitl [H0]; · iexact H0
      isplitl [H1]; · iexact H1
      isplitl [H2]; · iexists _; iexact H2
      isplitl [H3]; · iexists _; iexact H3
      isplitl [HS]; · iexact HS
      isplitl [HC]; · iexact HC
      iintro ⟨H0, H1, H2, H3, HS, HC⟩
      isplitl [HS HC Ho Hg]
      · isplitr [Hg]
        · isplitl [HS]; · iexact HS
          isplitl [HC]; · iexact HC
          iexact Ho
        iexact Hg
      isplitl [Hw]; · iexact Hw
      isplitl [H0]; · iexact H0
      isplitl [H1]; · iexact H1
      isplitl [H2]; · iexact H2
      iexact H3
    · rw [Dat.leavesExact_idle (dat0 V c) 2 t (idleAt2 t h1) (noFlush2 t h1),
        Dat.leavesExact_idle (dat0 V c) 3 t (idleAt3 t h1) (noFlush3 t h1)]
      iintro ⟨⟨⟨HS, HC, Ho⟩, Hg⟩, Hw, ⟨%d0, H0⟩, ⟨%d1, H1⟩, H2, H3⟩
      iapply (run_mid c (grid0.coords t) (ms0 t) (hs0 t) (ms1 t) (hs1 t) (ms2 t) (hs2 t) (ms3 t) (hs3 t)
        sumsM (Memref.isWhole_whole _) cntsM (Memref.isWhole_whole _)
        (fun h => h0 ((hcondReset t).mp h)) (fun h => h1 ((hcondCopy t).mp h)) (iblk0 V c 0 t) (iblk0 V c 1 t)
        (accAt V c (t.val - 1) (Nat.lt_of_le_of_lt (Nat.sub_le _ _) t.isLt)).1
        (accAt V c (t.val - 1) (Nat.lt_of_le_of_lt (Nat.sub_le _ _) t.isLt)).2 Set.univ _)
      isplitl [H0]; · iexact H0
      isplitl [H1]; · iexact H1
      isplitl [HS]; · iexact HS
      isplitl [HC]; · iexact HC
      iintro ⟨H0, H1, HS, HC⟩
      isplitl [HS HC Ho Hg]
      · isplitr [Hg]
        · isplitl [HS]; · iexact HS
          isplitl [HC]; · iexact HC
          iexact Ho
        iexact Hg
      isplitl [Hw]; · iexact Hw
      isplitl [H0]; · iexact H0
      isplitl [H1]; · iexact H1
      isplitl [H2]; · iexact H2
      iexact H3

/-! ## The body obligation and the invariant's two ends -/

/-- The body at every point: from the invariant, the inputs' buffers at their blocks and the results' buffers at
    anything, to the invariant at the next point and the buffers at what `dat0` names. -/
theorem body_obligation0 (c : Dev nD) : BodyObligation (dat0 (F := F) V c) (defs₀ (F := F)) Variants.none () Set.univ := by
  intro t
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl]
  exact Entails.of_eq rfl

/-- After the last point the invariant gives the class invariant back: the accumulators' contents are forgotten. -/
theorem hout0 (c : Dev nD) : (dat0 V c).Φ (Fin.last cfg0.N) ⊢ Pipeline.ΦA spec0 c := by
  rw [PhiA0_eq, show (dat0 V c).Φ (Fin.last cfg0.N) = PhiS V c (Fin.last cfg0.N).val (Nat.le_of_lt_succ (Fin.last cfg0.N).isLt) from rfl]
  exact PhiS_any V c _ _

end Cert.Kernel.Hand

end
-- ==== Proof.K.Head.lean ====
/-
  The second launch: the head, one grid point.

  Its six inputs are whole arrays — the 256 × 128 segment sums, the 256 × 1 segment counts, the two weight
  matrices and the two biases re-laid as rows — and its one result is the 256 × 1 output. The body loads all six
  whole, forms `relu ((sums / counts) · W1 + b1) · W2 + b2` and stores it whole.
-/
import proofs.«403711_j17686675324958_1_alg».proof.Proof.Gen.Kernel.Launch
import proofs.«403711_j17686675324958_1_alg».proof.Proof.Gen.Kernel.Skeleton
import proofs.«403711_j17686675324958_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-- Window `w`'s block at the one point, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The six inputs at the point, at their literal types. -/
abbrev hSums (c : Dev nD) (t : Fin cfg1.N) : Vec F S256x128 .f32 := iblk1 V c 0 t
abbrev hCnts (c : Dev nD) (t : Fin cfg1.N) : Vec F S256x1 .f32 := iblk1 V c 1 t
abbrev hW1 (c : Dev nD) (t : Fin cfg1.N) : Vec F S128x64 .f32 := iblk1 V c 2 t
abbrev hB1 (c : Dev nD) (t : Fin cfg1.N) : Vec F S1x64 .f32 := iblk1 V c 3 t
abbrev hW2 (c : Dev nD) (t : Fin cfg1.N) : Vec F S64x1 .f32 := iblk1 V c 4 t
abbrev hB2 (c : Dev nD) (t : Fin cfg1.N) : Vec F S1x1 .f32 := iblk1 V c 5 t

/-- The proof data of the second launch on core `c`: the arrays as found; after the body each input's buffer at its
    block and the result's at the head of the six inputs; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (hSums V c t) (hCnts V c t) (hW1 V c t) (hB1 V c t) (hW2 V c t) (hB2 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) :
    (dat1 V c).after 6 t = k1_pay1 (hSums V c t) (hCnts V c t) (hW1 V c t) (hB1 V c t) (hW2 V c t) (hB2 V c t) := by
  dsimp only [dat1]

/-- What the body leaves in an input window's buffer: the block it found there. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-- Each input window is whole, uncut and never idle, and the body leaves its block in place; so at the point its
    staging buffer holds what a fetch puts there, which is the block of the array as the launch found it. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-- The zero offsets of a rank-two rectangle are the constant function. -/
theorem head_off0 : (![0, 0] : Fin 2 → ℕ) = fun _ => 0 := funext fun a => by fin_cases a <;> rfl

/-- The whole 256 × 1 rectangle: the one store's. -/
abbrev headRect : Rect S256x1 := Rect.unit (s := S256x1) ![0, 0] S256x1.size inb_S256x1_S256x1_0_0

/-- One store through the whole rectangle covers the buffer. -/
theorem head_cover (p : Vec F S256x1 .f32) (y : S256x1.Idx) :
    ∃ pc ∈ ([⟨headRect, p⟩] : List (View.Piece (Elt F) S256x1 .f32)), y ∈ pc.1.set :=
  View.cover_of_tiled [⟨headRect, p⟩] S256x1.size (by rfl) y

set_option maxHeartbeats 1000000 in
/-- The head on whole memrefs: the six inputs at read contents `x0 … x5`, the result's at anything. It runs to the
    continuation holding the inputs as they were and the result's buffer at the head of the six. -/
theorem sound_kernel1 (c : Dev nD) (E : Set ℕ) (i : grid1.Coords)
    (a0 : Memref sig .tc .vmem S256x128 .f32) (h0 : a0.IsWhole) (a1 : Memref sig .tc .vmem S256x1 .f32) (h1 : a1.IsWhole)
    (a2 : Memref sig .tc .vmem S128x64 .f32) (h2 : a2.IsWhole) (a3 : Memref sig .tc .vmem S1x64 .f32) (h3 : a3.IsWhole)
    (a4 : Memref sig .tc .vmem S64x1 .f32) (h4 : a4.IsWhole) (a5 : Memref sig .tc .vmem S1x1 .f32) (h5 : a5.IsWhole)
    (a6 : Memref sig .tc .vmem S256x1 .f32) (h6 : a6.IsWhole)
    (x0 : Vec F S256x128 .f32) (x1 : Vec F S256x1 .f32) (x2 : Vec F S128x64 .f32) (x3 : Vec F S1x64 .f32)
    (x4 : Vec F S64x1 .f32) (x5 : Vec F S1x1 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (k1_pay1 x0 x1 x2 x3 x4 x5)) -∗ K ⟨⟩))
      ⊢ wp frame (wpE (defs₀ (F := F)) Variants.none c none) E (cc1__head_kernel i a0 h0 a1 h1 a2 h2 a3 h3 a4 h4 a5 h5 a6 h6) K := by
  simp only [cc1__head_kernel_eq_skeleton]; unfold cc1__head_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- one covering store leaves its payload; each of the payload's loads, through the whole rectangle, reads the buffer
  rw [View.read_writes_eq_canon _ _ _ (head_cover _), View.canon_unit_zero head_off0]
  simp only [View.readAt_eq_ld, View.ld_unit_zero (S := S256x128) head_off0, View.ld_unit_zero (S := S256x1) head_off0,
    View.ld_unit_zero (S := S128x64) head_off0, View.ld_unit_zero (S := S1x64) head_off0,
    View.ld_unit_zero (S := S64x1) head_off0, View.ld_unit_zero (S := S1x1) head_off0]

/-! ## The body obligation at the point -/

/-- What the body is called with at point `t`: the invariant, the core's dues, and the seven windows' current staging
    buffers, each input's at what the pipeline put there and the result's at anything, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at the point: the six inputs' buffers hold their blocks, so the kernel's triple applies; the invariant
    and the core's dues are the same before and after and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (hSums V c t) (hCnts V c t) (hW1 V c t) (hB1 V c t) (hW2 V c t) (hB2 V c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the one point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Launch.lean ====
/-
  The run of the whole program: reshape the segment words into a column, the first launch (sums and counts per
  core half), add the two halves on the host and re-lay the counts and the biases, the second launch (the head).

  Between two items every unscoped buffer is held at named contents: the launch memory, then each host stretch
  applied, then each launch's result arrays at what its write-backs leave (`Dat.arrAt` at the last point) and every
  other buffer as it was. The frame is the generated conditional frame at these contents; the value claim reads the
  last contents at the result array as well.
-/
import proofs.«403711_j17686675324958_1_alg».proof.Proof.K.SegAcc
import proofs.«403711_j17686675324958_1_alg».proof.Proof.K.Head
import proofs.«403711_j17686675324958_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at the segment boundaries -/

/-- What the first launch is entered from, read at the TensorCore's references. -/
abbrev ent0 : (c : Dev nD) → (b : Ref sig .tc) → Buf (Elt F) ((c : Thread nD τ).loc b) := fun c b => Gen.V1 m c b

/-- What the first launch leaves: its arrays at the folded write-backs, every other buffer as entered. -/
def exit0 (c : Dev nD) : Valuation τ sig (Elt F) :=
  Pipeline.withArrays spec0 c (Gen.V1 m c) fun w => (dat0 (ent0 m) c).arrAt w cfg0.N

/-- The unknowns of the conditional frame after the first launch only. -/
def outsA : Gen.Outs (F := F) := fun _ r c => exit0 m c r

/-- What the second launch is entered from. -/
abbrev ent1 : (c : Dev nD) → (b : Ref sig .tc) → Buf (Elt F) ((c : Thread nD τ).loc b) := fun c b => Gen.V3 m (outsA m) c b

/-- What the second launch leaves. -/
def exit1 (c : Dev nD) : Valuation τ sig (Elt F) :=
  Pipeline.withArrays spec1 c (Gen.V3 m (outsA m) c) fun w => (dat1 (ent1 m) c).arrAt w cfg1.N

/-- The unknowns of the conditional frame: after the first launch its exit contents, after the second its. -/
def outs : Gen.Outs (F := F) := fun J r c => if J = 2 then exit0 m c r else exit1 m c r

theorem outs_sums (c : Dev nD) : outs m 2 main_v1_0 c = (dat0 (ent0 m) c).arrAt 2 cfg0.N := by
  unfold outs; rw [if_pos rfl]
  exact Pipeline.withArrays_arr spec0 launch0.win.arr_inj c _ _ 2
theorem outs_cnts (c : Dev nD) : outs m 2 main_v1_1 c = (dat0 (ent0 m) c).arrAt 3 cfg0.N := by
  unfold outs; rw [if_pos rfl]
  exact Pipeline.withArrays_arr spec0 launch0.win.arr_inj c _ _ 3
theorem outs_out (c : Dev nD) : outs m 4 main_v7 c = (dat1 (ent1 m) c).arrAt 6 cfg1.N := by
  unfold outs; rw [if_neg (by decide)]
  exact Pipeline.withArrays_arr spec1 launch1.win.arr_inj c _ _ 6
/-- The second launch's entry contents do not depend on what is chosen for after it. -/
theorem V3_outs (c : Dev nD) : Gen.V3 m (outs m) c = Gen.V3 m (outsA m) c := by
  rfl

/-! ## The proof data family and what rides beside the buffers -/

def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c

/-- No core owes another anything: no level is assigned. -/
abbrev L : GSem nD τ sig → Finset Unit := fun _ => ∅
abbrev lv : GSem nD τ sig → Unit → ℕ := fun _ _ => 0
/-- Beside the buffers: the generator register at some state, and the core owing nothing. -/
abbrev Rr (c : Dev nD) : sProp 𝕄 := iprop((∃ r, prngReg c r) ∗ ∃ W, owes (c : Thread nD τ) (0 : CellTallies nD τ sig Unit) W)
abbrev E : Fin 3 → Dev nD → sProp 𝕄 := fun _ c => Rr c

/-! ## The launches as segments -/

/-- At the first launch's exit each of its arrays holds what the write-backs leave: an input's array is as entered,
    which no launch may change; a result's array is the unknown chosen for it. -/
theorem hF0 (c : Dev nD) : ∀ w : Fin cfg0.W, (dat0 (ent0 m) c).arrAt w cfg0.N = Gen.V2 m (outs m) c (Pipeline.arrRef spec0 w)
  | ⟨0, _⟩ => ((dat0 (ent0 m) c).arrAt_in 0 rfl _).trans ((A_eq0 (ent0 m) c 0).trans (Gen.V2_of m (outs m) c main_arg0 (by decide)).symm)
  | ⟨1, _⟩ => ((dat0 (ent0 m) c).arrAt_in 1 rfl _).trans ((A_eq0 (ent0 m) c 1).trans (Gen.V2_of m (outs m) c main_v0 (by decide)).symm)
  | ⟨2, _⟩ => (outs_sums m c).symm.trans (by
      show _ = Function.update (Function.update (Gen.V1 m c) main_v1_0 (outs m 2 main_v1_0 c)) main_v1_1 (outs m 2 main_v1_1 c) main_v1_0
      rw [Function.update_of_ne (StableHlo.devRef_ne_of_ne (by decide)), Function.update_self])
  | ⟨3, _⟩ => (outs_cnts m c).symm.trans (by
      show _ = Function.update (Function.update (Gen.V1 m c) main_v1_0 (outs m 2 main_v1_0 c)) main_v1_1 (outs m 2 main_v1_1 c) main_v1_1
      rw [Function.update_self])

/-- Every buffer that is no array of the first launch is as entered. -/
theorem hrest0 (c : Dev nD) (b : Ref sig .tc) (hb : b ∉ Finset.univ.image (Pipeline.arrRef spec0)) :
    Gen.V2 m (outs m) c b = Gen.V1 m c b :=
  Gen.V2_of m (outs m) c b (by
    intro h
    simp only [List.mem_cons, List.mem_nil_iff, or_false] at h
    rcases h with rfl | rfl
    · exact hb (Finset.mem_image.mpr ⟨2, Finset.mem_univ _, rfl⟩)
    · exact hb (Finset.mem_image.mpr ⟨3, Finset.mem_univ _, rfl⟩))

set_option backward.isDefEq.respectTransparency.types false in
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (ent0 m) c)
    unfold Pipeline.ΦA
    iintro ⟨Hp, -, Hr⟩
    isplitl [Hr]; · iexact Hr
    iexact Hp
  hout c := by
    rw [Pipeline.ownSems0_none]
    refine BIBase.Entails.trans (hout0 (ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
theorem hpre0 (c : Dev nD) : iprop(StableHlo.held (c : Thread nD τ) (Pipeline.ucRefs τ sig) (Gen.V1 m c) ∗ E (F := F) 0 c) ⊢ (reg0 m).pre c := by
  exact .rfl
theorem hpost0 (c : Dev nD) : (reg0 m).post c ⊢ iprop(StableHlo.held (c : Thread nD τ) (Pipeline.ucRefs τ sig) (Gen.V2 m (outs m) c) ∗ E (F := F) 1 c) := by
  exact .rfl
/-- A buffer the second launch may not change holds at its exit what the launch was entered from. -/
theorem V4_in (c : Dev nD) (r : Ref sig .tc) (h : r ∉ ([main_v7] : List (Ref sig .tc))) :
    Gen.V4 m (outs m) c r = Gen.V3 m (outsA m) c r :=
  (Gen.V4_of m (outs m) c r h).trans (congrFun (V3_outs m c) (Proc.devRef .tc r))

/-- At the second launch's exit each of its arrays holds what the write-backs leave: the six inputs' arrays as
    entered, the result's array the unknown chosen for it. -/
theorem hF1 (c : Dev nD) : ∀ w : Fin cfg1.W, (dat1 (ent1 m) c).arrAt w cfg1.N = Gen.V4 m (outs m) c (Pipeline.arrRef spec1 w)
  | ⟨0, _⟩ => ((dat1 (ent1 m) c).arrAt_in 0 rfl _).trans ((A_eq1 (ent1 m) c 0).trans (V4_in m c main_v2 (by decide)).symm)
  | ⟨1, _⟩ => ((dat1 (ent1 m) c).arrAt_in 1 rfl _).trans ((A_eq1 (ent1 m) c 1).trans (V4_in m c main_v4 (by decide)).symm)
  | ⟨2, _⟩ => ((dat1 (ent1 m) c).arrAt_in 2 rfl _).trans ((A_eq1 (ent1 m) c 2).trans (V4_in m c main_arg2 (by decide)).symm)
  | ⟨3, _⟩ => ((dat1 (ent1 m) c).arrAt_in 3 rfl _).trans ((A_eq1 (ent1 m) c 3).trans (V4_in m c main_v5 (by decide)).symm)
  | ⟨4, _⟩ => ((dat1 (ent1 m) c).arrAt_in 4 rfl _).trans ((A_eq1 (ent1 m) c 4).trans (V4_in m c main_arg4 (by decide)).symm)
  | ⟨5, _⟩ => ((dat1 (ent1 m) c).arrAt_in 5 rfl _).trans ((A_eq1 (ent1 m) c 5).trans (V4_in m c main_v6 (by decide)).symm)
  | ⟨6, _⟩ => (outs_out m c).symm.trans (by
      show _ = Function.update (Gen.V3 m (outs m) c) main_v7 (outs m 4 main_v7 c) main_v7
      rw [Function.update_self])

/-- Every buffer that is no array of the second launch is as entered. -/
theorem hrest1 (c : Dev nD) (b : Ref sig .tc) (hb : b ∉ Finset.univ.image (Pipeline.arrRef spec1)) :
    Gen.V4 m (outs m) c b = Gen.V3 m (outsA m) c b :=
  V4_in m c b (by
    intro h
    simp only [List.mem_cons, List.mem_nil_iff, or_false] at h
    subst h
    exact hb (Finset.mem_image.mpr ⟨6, Finset.mem_univ _, rfl⟩))

set_option backward.isDefEq.respectTransparency.types false in
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (Gen.V3 m (outs m) c) ∗ Rr c)
  post c := iprop(StableHlo.held (c : Thread nD τ) (Pipeline.ucRefs τ sig) (Gen.V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none, V3_outs m c]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (ent1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
theorem hpre1 (c : Dev nD) : iprop(StableHlo.held (c : Thread nD τ) (Pipeline.ucRefs τ sig) (Gen.V3 m (outs m) c) ∗ E (F := F) 1 c) ⊢ (reg1 m).pre c := by
  exact .rfl
theorem hpost1 (c : Dev nD) : (reg1 m).post c ⊢ iprop(StableHlo.held (c : Thread nD τ) (Pipeline.ucRefs τ sig) (Gen.V4 m (outs m) c) ∗ E (F := F) 2 c) := by
  exact .rfl

/-! ## The frame and the value run -/

/-- The launch element: the staging cells' and the launch tokens' of both launches. -/
abbrev u₀ : UR sig nD τ := initOf (Pipeline.cells cfgs cellOf_inj) (Pipeline.launchToks cfgs cellOf_inj)

/-- Owning the launch element is owning it as the staging cells' ghost state; no core gets a ghost resource beside. -/
theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu
  imodintro
  isplitl [Hu]
  · rw [← ownU_emb₁]; iexact Hu
  rw [BI.bigSep_emp_const]
  iempintro

/-- What the launch deals a core makes what rides beside its buffers: the generator register (at its launch state)
    and the core owing nothing are kept; the unscoped semaphores, the launch credit are let go. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (BI.emp : sProp 𝕄)) c)) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]
  · iexists _; iexact Hp
  iexists ∅; iexact HO

/-- At the end the register is let go: the core owes nothing. -/
theorem hE2 (c : Dev nD) : E (F := F) 2 c ⊢ (iprop(∃ W, owes (c : Thread nD τ) (0 : CellTallies nD τ sig Unit) W) : sProp 𝕄) := by
  iintro ⟨-, HO⟩
  iexact HO

/-- The launch makes the first thread state on every core by itself: the unscoped buffers are held at the launch
    memory; the register and the core owing nothing ride beside, the rest of what is dealt is let go. -/
theorem hinit (ρ : Dev nD → PrngReg) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (fun _ : Dev nD => (BI.emp : sProp 𝕄)) c)) ∗ levAts L lv)
      ⊢ (|={Set.univ}=> bigSep Finset.univ fun c : Dev nD =>
          iprop(StableHlo.held (c : Thread nD τ) (Pipeline.ucRefs τ sig) (Gen.V0 m c) ∗ E (F := F) 0 c) : sProp 𝕄) := by
  refine Pipeline.initEach L lv fun c => ?_
  rw [show unscopedBufs c (fun b => m ((c : Thread nD τ).loc b)) = StableHlo.held (c : Thread nD τ) (Pipeline.ucRefs τ sig) (Gen.V0 m c)
    from Pipeline.unscopedBufs_held c (Gen.V0 m c)]
  iintro ⟨⟨Hh, -, HO, -, Hp, -⟩, -⟩
  imodintro
  isplitl [Hh]
  · iexact Hh
  isplitl [Hp]
  · iexists _; iexact Hp
  iexists ∅; iexact HO

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution terminates, nothing faulting, the six argument arrays unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () Variants.none L lv (fun _ _ => rfl) ρ (outs m) (pdats m) 0 (fun _ => BI.emp) u₀ hu₀ E (hE0 ρ) hE2
    (reg0 m) (hpre0 m) (hpost0 m) (reg1 m) (hpre1 m) (hpost1 m)

set_option backward.isDefEq.respectTransparency.types false in
/-- The same run read at the result array too: it ends at the last boundary's contents. -/
theorem run_value (ρ : Dev nD → PrngReg) :
    θ_run defs (onTc (τ := τ) (main (F := F))) ⟨m, fun _ => 0, ρ⟩ (fun r => ∀ c : Dev nD,
      r.2.mem ((c.tc : Thread nD τ).loc main_v7) = Gen.V4 m (outs m) c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m))
    (fun c Q => by
      rewrite [main_chain c, Pipeline.Seg.run_eq_chain,
        show (Gen.segs m (outs m) Variants.none L lv E () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    0 (fun _ _ => rfl) (fun _ => BI.emp) u₀ hu₀
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V4 m (outs m) c))
    (hch := fun c => ⟨.rfl, hpre0 m c, hpost0 m c, hpre1 m c, (hpost1 m c).trans (sep_mono .rfl (hE2 c))⟩)
    (hinit := hinit m ρ)
    (QY := fun c s => s.mem ((c.tc : Thread nD τ).loc main_v7) = Gen.V4 m (outs m) c main_v7
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  -- the end: every unscoped buffer read off the last contents, the result array's among them
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨h (Proc.devRef .tc main_v7) (mem_uc main_v7 (by decide)),
      (h (Proc.devRef .tc main_arg0) (mem_uc main_arg0 (by decide))).trans (Gen.V4_main_arg0 m (outs m) c),
      (h (Proc.devRef .tc main_arg1) (mem_uc main_arg1 (by decide))).trans (Gen.V4_main_arg1 m (outs m) c),
      (h (Proc.devRef .tc main_arg2) (mem_uc main_arg2 (by decide))).trans (Gen.V4_main_arg2 m (outs m) c),
      (h (Proc.devRef .tc main_arg3) (mem_uc main_arg3 (by decide))).trans (Gen.V4_main_arg3 m (outs m) c),
      (h (Proc.devRef .tc main_arg4) (mem_uc main_arg4 (by decide))).trans (Gen.V4_main_arg4 m (outs m) c),
      (h (Proc.devRef .tc main_arg5) (mem_uc main_arg5 (by decide))).trans (Gen.V4_main_arg5 m (outs m) c)⟩
  · iexact HSI

end Cert.Kernel.Hand

end
-- ==== Proof.KI.SegAcc.lean ====
/-
  The first launch: the segment sums and counts, accumulated tile by tile.

  The grid is 2 × 125. Point `t = 125·p + j` sees rows `8000·t … 8000·t + 7999` of the feature array and of the
  segment words. Two scratch buffers persist between points: a 256 × 128 accumulator of sums and a 1 × 256
  accumulator of counts. At `j = 0` both are reset to zero; at every point the tile's one-hot matrix (row's word
  = column number) is contracted with the tile's features and added to the sums, and its column sums are added to
  the counts; at `j = 124` the two accumulators are copied to block `p` of the two results.
  `accAt` names what the two scratch buffers hold after each point, by recursion on the point.
-/
import proofs.«403711_j17686675324958_1_alg».proof.Proof.Gen.KernelIdeal.Launch
import proofs.«403711_j17686675324958_1_alg».proof.Proof.Gen.KernelIdeal.Skeleton
import proofs.«403711_j17686675324958_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-! ## The tiles -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 8000 feature rows of point `t`. -/
abbrev xrows (c : Dev nD) (t : Fin cfg0.N) : Vec F S8000x128 .f32 := iblk0 V c 0 t
/-- The 8000 segment words of point `t`. -/
abbrev segids (c : Dev nD) (t : Fin cfg0.N) : Vec F S8000x1 .i32 := iblk0 V c 1 t

/-! ## The accumulators -/

/-- What the sums scratch and the counts scratch hold after point `n`: at a point whose second coordinate is zero
    (`n` a multiple of 125) the tile's contribution over zero, elsewhere over what the point before left. -/
def accAt (c : Dev nD) : (n : ℕ) → n < cfg0.N → Vec F S256x128 .f32 × Vec F S1x256 .f32
  | 0, hn => (k0_pay4 (xrows V c ⟨0, hn⟩) (segids V c ⟨0, hn⟩) k0_pay1, k0_pay5 (segids V c ⟨0, hn⟩) k0_pay2)
  | n + 1, hn =>
    if (n + 1) % 125 = 0 then
      (k0_pay4 (xrows V c ⟨n + 1, hn⟩) (segids V c ⟨n + 1, hn⟩) k0_pay1, k0_pay5 (segids V c ⟨n + 1, hn⟩) k0_pay2)
    else
      (k0_pay4 (xrows V c ⟨n + 1, hn⟩) (segids V c ⟨n + 1, hn⟩) (accAt c n (Nat.lt_of_succ_lt hn)).1,
        k0_pay5 (segids V c ⟨n + 1, hn⟩) (accAt c n (Nat.lt_of_succ_lt hn)).2)

/-- At a reset point the accumulators hold the tile's contribution over zero. -/
theorem accAt_reset (c : Dev nD) (t : Fin cfg0.N) (h : t.val % 125 = 0) :
    accAt V c t.val t.isLt = (k0_pay4 (xrows V c t) (segids V c t) k0_pay1, k0_pay5 (segids V c t) k0_pay2) := by
  obtain ⟨n, hn⟩ := t
  cases n with
  | zero => rfl
  | succ n => exact (if_pos h).trans rfl

/-- At any other point they hold the tile's contribution over what the point before left. -/
theorem accAt_step (c : Dev nD) (t : Fin cfg0.N) (h : ¬t.val % 125 = 0) :
    accAt V c t.val t.isLt
      = (k0_pay4 (xrows V c t) (segids V c t) (accAt V c (t.val - 1) (Nat.lt_of_le_of_lt (Nat.sub_le _ _) t.isLt)).1,
         k0_pay5 (segids V c t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The two components apart, at a reset point -/
theorem sums_reset (c : Dev nD) (t : Fin cfg0.N) (h : t.val % 125 = 0) :
    (accAt V c t.val t.isLt).1 = k0_pay4 (xrows V c t) (segids V c t) k0_pay1 := congrArg Prod.fst (accAt_reset V c t h)
theorem cnts_reset (c : Dev nD) (t : Fin cfg0.N) (h : t.val % 125 = 0) :
    (accAt V c t.val t.isLt).2 = k0_pay5 (segids V c t) k0_pay2 := congrArg Prod.snd (accAt_reset V c t h)
/-- and at any other point. -/
theorem sums_step (c : Dev nD) (t : Fin cfg0.N) (h : ¬t.val % 125 = 0) :
    (accAt V c t.val t.isLt).1
      = k0_pay4 (xrows V c t) (segids V c t) (accAt V c (t.val - 1) (Nat.lt_of_le_of_lt (Nat.sub_le _ _) t.isLt)).1 :=
  congrArg Prod.fst (accAt_step V c t h)
theorem cnts_step (c : Dev nD) (t : Fin cfg0.N) (h : ¬t.val % 125 = 0) :
    (accAt V c t.val t.isLt).2
      = k0_pay5 (segids V c t) (accAt V c (t.val - 1) (Nat.lt_of_le_of_lt (Nat.sub_le _ _) t.isLt)).2 :=
  congrArg Prod.snd (accAt_step V c t h)

/-! ## The invariant between points -/

/-- The two scratch operands, whole. -/
abbrev sumsM : Memref sig .tc .vmem S256x128 .f32 := Memref.whole cc0_scratch0
abbrev cntsM : Memref sig .tc .vmem S1x256 .f32 := Memref.whole cc0_scratch1

/-- The second launch's seven staging buffers, which this launch never touches: each whole at some contents. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f))

/-- The class invariant with the two scratch operands as owned memrefs at some contents. -/
theorem PhiA0_eq (c : Dev nD) :
    (Pipeline.ΦA spec0 c : sProp 𝕄)
      = iprop(((∃ d, owns (c : Thread nD τ) sumsM fullShare d) ∗ (∃ d, owns (c : Thread nD τ) cntsM fullShare d) ∗ otherScoped c)
          ∗ (∃ r, prngReg c r)) := by
  unfold Pipeline.ΦA otherScoped; rw [scopedRest0_eq]; simp only [sumsM, cntsM, owns_whole]; try rfl

/-- The invariant before position `n`: before the first point every scoped buffer at anything; afterwards the two
    scratch operands at what the point before left (`accAt`), the other scoped buffers at anything, the generator
    register at some state. -/
def PhiS (c : Dev nD) : (n : ℕ) → n ≤ cfg0.N → sProp 𝕄
  | 0, _ => Pipeline.ΦA spec0 c
  | n + 1, hn => iprop((owns (c : Thread nD τ) sumsM fullShare (accAt V c n hn).1 ∗ owns (c : Thread nD τ) cntsM fullShare (accAt V c n hn).2 ∗ otherScoped c)
      ∗ (∃ r, prngReg c r))

/-! ## The proof data -/

/-- The proof data of the first launch on core `c`: the arrays as found; after the body each input's buffer at its
    block, the sums' result buffer at the sums accumulator re-laid as one block, the counts' at the counts
    accumulator re-laid (read only at the points that write them back); the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (accAt V c t.val t.isLt).1
    | ⟨3, _⟩ => k0_pay7 (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (accAt V c t.val t.isLt).1 := by dsimp only [dat0]
theorem after0_3 (c : Dev nD) (t : Fin cfg0.N) : (dat0 V c).after 3 t = k0_pay7 (accAt V c t.val t.isLt).2 := by dsimp only [dat0]

/-! ## The two conditionals over the grid -/

/-- The first conditional's condition (the second grid coordinate is zero), as the body computes it. -/
abbrev condReset (i : grid0.Coords) : Prop :=
  (Scalar.cmpi .ne (Scalar.extui (Scalar.cmpi .eq (BitVec.ofNat 32 (i 1).val) 0#32)) 0#32) = 1#1
/-- It holds exactly at the points that are multiples of 125. -/
theorem hcondReset : ∀ t : Fin cfg0.N, condReset (grid0.coords t) ↔ t.val % 125 = 0 :=
  (by decide +kernel : ∀ t : Fin grid0.N, condReset (grid0.coords t) ↔ t.val % 125 = 0)

/-- The second conditional's condition (the second grid coordinate is 124). -/
abbrev condCopy (i : grid0.Coords) : Prop := k0_cond2 i = 1#1
/-- It holds exactly at the points ≡ 124 (mod 125). -/
theorem hcondCopy : ∀ t : Fin cfg0.N, condCopy (grid0.coords t) ↔ t.val % 125 = 124 :=
  (by decide +kernel : ∀ t : Fin grid0.N, condCopy (grid0.coords t) ↔ t.val % 125 = 124)

/-- The two inputs are stored into at no point; the two results only at the points ≡ 124 (mod 125), and only there
    are they written back. -/
theorem liveAt0 : ∀ t : Fin cfg0.N, cfg0.idle 0 (grid0.coords t) = false := by decide +kernel
theorem liveAt1 : ∀ t : Fin cfg0.N, cfg0.idle 1 (grid0.coords t) = false := by decide +kernel
theorem idleAt2 : ∀ t : Fin cfg0.N, ¬t.val % 125 = 124 → cfg0.idle 2 (grid0.coords t) = true := by decide +kernel
theorem idleAt3 : ∀ t : Fin cfg0.N, ¬t.val % 125 = 124 → cfg0.idle 3 (grid0.coords t) = true := by decide +kernel
theorem liveAt2 : ∀ t : Fin cfg0.N, t.val % 125 = 124 → cfg0.idle 2 (grid0.coords t) = false := by decide +kernel
theorem liveAt3 : ∀ t : Fin cfg0.N, t.val % 125 = 124 → cfg0.idle 3 (grid0.coords t) = false := by decide +kernel
theorem noFlush2 (t : Fin cfg0.N) (h : ¬t.val % 125 = 124) : (cfg0.win 2).flush t = false :=
  Bool.eq_false_iff.mpr fun hf => h ((flush0_2 t).mp hf)
theorem noFlush3 (t : Fin cfg0.N) (h : ¬t.val % 125 = 124) : (cfg0.win 3).flush t = false :=
  Bool.eq_false_iff.mpr fun hf => h ((flush0_3 t).mp hf)

/-! ## Whole-buffer loads and stores

Every load and store of the body goes through the whole-shape rectangle at zero offsets. -/

theorem hz2 : (![0, 0] : Fin 2 → Nat) = fun _ => 0 := funext fun a => by fin_cases a <;> rfl
theorem hz3 : (![0, 0, 0] : Fin 3 → Nat) = fun _ => 0 := funext fun a => by fin_cases a <;> rfl

section Whole
variable {S : Shape} {e : EltTy}

/-- A load of a whole buffer held at contents `X` reads `X`. -/
theorem readAt_whole (m : Memref sig .tc .vmem S e) (hm : m.IsWhole) {off : Fin S.rank → Nat} (h : off = fun _ => 0)
    (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

/-- A buffer whose last store was a whole-shape store of `w` reads `w`, whatever it held and whatever was stored before. -/
theorem read_writes_whole (m : Memref sig .tc .vmem S e) (f : m.view.ty.Contents (Elt F)) {off : Fin S.rank → Nat} (h : off = fun _ => 0)
    (inb : ∀ a, off a + S.size a ≤ S.size a) (w : S.Idx → Elt F e) (L : List (View.Piece (Elt F) S e)) :
    m.view.read (Elt F) (m.view.writes (Elt F) f ((⟨Rect.unit off S.size inb, w⟩ : View.Piece (Elt F) S e) :: L)) = w :=
  (View.read_writes_eq_canon _ _ _ (fun y => ⟨_, List.mem_cons_self, View.mem_set_unit_zero h inb y⟩)).trans
    (View.canon_cons_unit_zero h inb w L)

end Whole

/-! ## The body on whole memrefs, case by case

Three cases meet the grid: the reset points (first conditional taken, second not), the copy points (second taken,
first not) and the others (neither). In each the features' and the words' buffers are handed back as found, and
the two accumulators end at the tile's contribution over what the case starts them from. -/

set_option maxHeartbeats 1000000 in
/-- At a reset point: both accumulators, whatever they held, end at the tile's contribution over zero; the results'
    buffers are not touched. -/
theorem run_reset (c : Dev nD) (i : grid0.Coords)
    (arg2 : Memref sig .tc .vmem S8000x128 .f32) (harg2 : arg2.IsWhole) (arg3 : Memref sig .tc .vmem S8000x1 .i32) (harg3 : arg3.IsWhole)
    (arg4 : Memref sig .tc .vmem S1x256x128 .f32) (harg4 : arg4.IsWhole) (arg5 : Memref sig .tc .vmem S1x1x256 .f32) (harg5 : arg5.IsWhole)
    (arg6 : Memref sig .tc .vmem S256x128 .f32) (harg6 : arg6.IsWhole) (arg7 : Memref sig .tc .vmem S1x256 .f32) (harg7 : arg7.IsWhole)
    (hc0 : condReset i) (hc1 : ¬condCopy i)
    (x : Vec F S8000x128 .f32) (b : Vec F S8000x1 .i32)
    (E : Set ℕ) (K : PUnit → sProp 𝕄) :
    iprop(owns (c : Thread nD τ) arg2 fullShare x ∗ owns (c : Thread nD τ) arg3 fullShare b
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare b
            ∗ owns (c : Thread nD τ) arg6 fullShare (k0_pay4 x b k0_pay1) ∗ owns (c : Thread nD τ) arg7 fullShare (k0_pay5 b k0_pay2)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%ds, %fs, -, HS⟩, ⟨%dn, %fn, -, HN⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HS]
  · iexists _; isplitr
    swap; · iexact HS
    ipureintro
    -- the sums: zero stored, read back, the tile's contribution added and stored
    sl_unfold_words
    rw [read_writes_whole arg6 _ hz2, readAt_whole arg2 harg2 hz2, readAt_whole arg3 harg3 hz2,
      View.readCov_unit_zero (S := S256x128) _ hz2]
  iexists _; isplitr
  swap; · iexact HN
  ipureintro
  -- the counts likewise
  sl_unfold_words
  rw [read_writes_whole arg7 _ hz2, readAt_whole arg3 harg3 hz2, View.readCov_unit_zero (S := S1x256) _ hz2]

set_option maxHeartbeats 1000000 in
/-- At a point that neither resets nor copies: the accumulators at `s`, `n` end at the tile's contribution over
    them; the results' buffers are not touched. -/
theorem run_mid (c : Dev nD) (i : grid0.Coords)
    (arg2 : Memref sig .tc .vmem S8000x128 .f32) (harg2 : arg2.IsWhole) (arg3 : Memref sig .tc .vmem S8000x1 .i32) (harg3 : arg3.IsWhole)
    (arg4 : Memref sig .tc .vmem S1x256x128 .f32) (harg4 : arg4.IsWhole) (arg5 : Memref sig .tc .vmem S1x1x256 .f32) (harg5 : arg5.IsWhole)
    (arg6 : Memref sig .tc .vmem S256x128 .f32) (harg6 : arg6.IsWhole) (arg7 : Memref sig .tc .vmem S1x256 .f32) (harg7 : arg7.IsWhole)
    (hc0 : ¬condReset i) (hc1 : ¬condCopy i)
    (x : Vec F S8000x128 .f32) (b : Vec F S8000x1 .i32) (s : Vec F S256x128 .f32) (n : Vec F S1x256 .f32)
    (E : Set ℕ) (K : PUnit → sProp 𝕄) :
    iprop(owns (c : Thread nD τ) arg2 fullShare x ∗ owns (c : Thread nD τ) arg3 fullShare b
        ∗ owns (c : Thread nD τ) arg6 fullShare s ∗ owns (c : Thread nD τ) arg7 fullShare n
        ∗ (iprop(owns (c : Thread nD τ) arg2 fullShare x ∗ owns (c : Thread nD τ) arg3 fullShare b
            ∗ owns (c : Thread nD τ) arg6 fullShare (k0_pay4 x b s) ∗ owns (c : Thread nD τ) arg7 fullShare (k0_pay5 b n)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%fs, %hfs, HS⟩, ⟨%fn, %hfn, HN⟩, Hk⟩
  obtain rfl := harg2.eq_unread hf0; obtain rfl := harg3.eq_unread hf1
  obtain rfl := harg6.eq_unread hfs; obtain rfl := harg7.eq_unread hfn
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HS]
  · iexists _; isplitr
    swap; · iexact HS
    ipureintro
    rw [read_writes_whole arg6 _ hz2, readAt_whole arg2 harg2 hz2, readAt_whole arg3 harg3 hz2, readAt_whole arg6 harg6 hz2]
  iexists _; isplitr
  swap; · iexact HN
  ipureintro
  rw [read_writes_whole arg7 _ hz2, readAt_whole arg3 harg3 hz2, readAt_whole arg7 harg7 hz2]

set_option maxHeartbeats 1000000 in
/-- At a copy point: the accumulators as at the other points, and the two results' buffers, whatever they held, end
    at the new accumulators re-laid. -/
theorem run_copy (c : Dev nD) (i : grid0.Coords)
    (arg2 : Memref sig .tc .vmem S8000x128 .f32) (harg2 : arg2.IsWhole) (arg3 : Memref sig .tc .vmem S8000x1 .i32) (harg3 : arg3.IsWhole)
    (arg4 : Memref sig .tc .vmem S1x256x128 .f32) (harg4 : arg4.IsWhole) (arg5 : Memref sig .tc .vmem S1x1x256 .f32) (harg5 : arg5.IsWhole)
    (arg6 : Memref sig .tc .vmem S256x128 .f32) (harg6 : arg6.IsWhole) (arg7 : Memref sig .tc .vmem S1x256 .f32) (harg7 : arg7.IsWhole)
    (hc0 : ¬condReset i) (hc1 : condCopy i)
    (x : Vec F S8000x128 .f32) (b : Vec F S8000x1 .i32) (s : Vec F S256x128 .f32) (n : Vec F S1x256 .f32)
    (E : Set ℕ) (K : PUnit → sProp 𝕄) :
    iprop(owns (c : Thread nD τ) arg2 fullShare x ∗ owns (c : Thread nD τ) arg3 fullShare b
        ∗ (∃ d, owns (c : Thread nD τ) arg4 fullShare d) ∗ (∃ d, owns (c : Thread nD τ) arg5 fullShare d)
        ∗ owns (c : Thread nD τ) arg6 fullShare s ∗ owns (c : Thread nD τ) arg7 fullShare n
        ∗ (iprop(owns (c : Thread nD τ) arg2 fullShare x ∗ owns (c : Thread nD τ) arg3 fullShare b
            ∗ owns (c : Thread nD τ) arg4 fullShare (k0_pay6 (k0_pay4 x b s)) ∗ owns (c : Thread nD τ) arg5 fullShare (k0_pay7 (k0_pay5 b n))
            ∗ owns (c : Thread nD τ) arg6 fullShare (k0_pay4 x b s) ∗ owns (c : Thread nD τ) arg7 fullShare (k0_pay5 b n)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%d2, %f2, -, H2⟩, ⟨%d3, %f3, -, H3⟩, ⟨%fs, %hfs, HS⟩, ⟨%fn, %hfn, HN⟩, Hk⟩
  obtain rfl := harg2.eq_unread hf0; obtain rfl := harg3.eq_unread hf1
  obtain rfl := harg6.eq_unread hfs; obtain rfl := harg7.eq_unread hfn
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    -- the sums' result: the accumulator just stored, read back and re-laid
    sl_unfold_words
    rw [read_writes_whole arg4 _ hz3, View.readCov_unit_zero (S := S256x128) _ hz2, readAt_whole arg2 harg2 hz2,
      readAt_whole arg3 harg3 hz2, readAt_whole arg6 harg6 hz2]
  isplitl [H3]
  · iexists _; isplitr
    swap; · iexact H3
    ipureintro
    sl_unfold_words
    rw [read_writes_whole arg5 _ hz3, View.readCov_unit_zero (S := S1x256) _ hz2, readAt_whole arg3 harg3 hz2,
      readAt_whole arg7 harg7 hz2]
  isplitl [HS]
  · iexists _; isplitr
    swap; · iexact HS
    ipureintro
    sl_unfold_words
    rw [read_writes_whole arg6 _ hz2, readAt_whole arg2 harg2 hz2, readAt_whole arg3 harg3 hz2, readAt_whole arg6 harg6 hz2]
  iexists _; isplitr
  swap; · iexact HN
  ipureintro
  sl_unfold_words
  rw [read_writes_whole arg7 _ hz2, readAt_whole arg3 harg3 hz2, readAt_whole arg7 harg7 hz2]

/-! ## The body at a point of the grid -/

/-- Each window's current staging memref at point `t`, and its wholeness. -/
abbrev ms0 (t : Fin cfg0.N) : Memref sig .tc .vmem S8000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8000x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x256 .f32 := win0_3.stage (cfg0.slots t 3)
abbrev hs3 (t : Fin cfg0.N) : (ms3 t).IsWhole := hstage0_3 ((cfg0.slots t 3).cast nbuf0_3)

/-- Each input's current staging buffer holds its block at every point: the body leaves the block in place, and
    a point that does not fetch has the block index of the point before. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The invariant after point `n`. -/
theorem PhiS_succ (c : Dev nD) (n : ℕ) (hn : n < cfg0.N) :
    PhiS V c (n + 1) hn = iprop((owns (c : Thread nD τ) sumsM fullShare (accAt V c n hn).1 ∗ owns (c : Thread nD τ) cntsM fullShare (accAt V c n hn).2 ∗ otherScoped c)
      ∗ (∃ r, prngReg c r)) := rfl

/-- The invariant before a point that is not the first: the accumulators at what the point before left. -/
theorem PhiS_pos (c : Dev nD) (n : ℕ) (h : n ≤ cfg0.N) (hz : n ≠ 0) :
    PhiS V c n h = iprop((owns (c : Thread nD τ) sumsM fullShare (accAt V c (n - 1) (by omega)).1 ∗ owns (c : Thread nD τ) cntsM fullShare (accAt V c (n - 1) (by omega)).2 ∗ otherScoped c)
      ∗ (∃ r, prngReg c r)) := by
  cases n with
  | zero => exact absurd rfl hz
  | succ n => rfl

/-- At any position the invariant gives the accumulators at SOME contents: before the first point that is what it
    says, afterwards the named contents are forgotten. -/
theorem PhiS_any (c : Dev nD) (n : ℕ) (h : n ≤ cfg0.N) :
    PhiS V c n h ⊢ iprop(((∃ d, owns (c : Thread nD τ) sumsM fullShare d) ∗ (∃ d, owns (c : Thread nD τ) cntsM fullShare d) ∗ otherScoped c)
      ∗ (∃ r, prngReg c r)) := by
  cases n with
  | zero => exact Entails.of_eq ((show PhiS V c 0 h = Pipeline.ΦA spec0 c from rfl).trans (PhiA0_eq c))
  | succ n =>
    rw [PhiS_succ]
    iintro ⟨⟨HS, HC, Ho⟩, Hg⟩
    isplitr [Hg]
    · isplitl [HS]; · iexists _; iexact HS
      isplitl [HC]; · iexists _; iexact HC
      iexact Ho
    iexact Hg

/-- The invariant at a point's start, restated at the point's number. -/
theorem PhiS_castSucc (c : Dev nD) (t : Fin cfg0.N) :
    (dat0 V c).Φ t.castSucc = PhiS V c t.val (Nat.le_of_lt t.isLt) := rfl

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The inputs' buffers are handed back at their blocks. -/
theorem leaves0_0 (c : Dev nD) (t : Fin cfg0.N) :
    (dat0 V c).leavesExact 0 t = owns (c : Thread nD τ) (ms0 t) fullShare (iblk0 V c 0 t) := by
  rw [show (dat0 V c).leavesExact 0 t = owns (c : Thread nD τ) (ms0 t) fullShare ((dat0 V c).after 0 t) from by
    unfold Dat.leavesExact; rw [liveAt0 t], after0_0]
theorem leaves0_1 (c : Dev nD) (t : Fin cfg0.N) :
    (dat0 V c).leavesExact 1 t = owns (c : Thread nD τ) (ms1 t) fullShare (iblk0 V c 1 t) := by
  rw [show (dat0 V c).leavesExact 1 t = owns (c : Thread nD τ) (ms1 t) fullShare ((dat0 V c).after 1 t) from by
    unfold Dat.leavesExact; rw [liveAt1 t], after0_1]
/-- At a copy point the results' buffers are handed back at the accumulators re-laid. -/
theorem leaves0_2 (c : Dev nD) (t : Fin cfg0.N) (h : t.val % 125 = 124) :
    (dat0 V c).leavesExact 2 t = owns (c : Thread nD τ) (ms2 t) fullShare (k0_pay6 (accAt V c t.val t.isLt).1) := by
  rw [show (dat0 V c).leavesExact 2 t = owns (c : Thread nD τ) (ms2 t) fullShare ((dat0 V c).after 2 t) from by
    unfold Dat.leavesExact; rw [liveAt2 t h], after0_2]
theorem leaves0_3 (c : Dev nD) (t : Fin cfg0.N) (h : t.val % 125 = 124) :
    (dat0 V c).leavesExact 3 t = owns (c : Thread nD τ) (ms3 t) fullShare (k0_pay7 (accAt V c t.val t.isLt).2) := by
  rw [show (dat0 V c).leavesExact 3 t = owns (c : Thread nD τ) (ms3 t) fullShare ((dat0 V c).after 3 t) from by
    unfold Dat.leavesExact; rw [liveAt3 t h], after0_3]

set_option maxHeartbeats 4000000 in
/-- The body at any point. The inputs' memrefs hold their blocks; the point's number mod 125 says which case it
    is in. At a reset point the accumulators are taken at anything and come back at the tile's contribution over zero
    (`accAt_reset`); elsewhere they are taken at what the point before left and come back at the tile's contribution
    over that (`accAt_step`). Away from the copy points the results' buffers are handed back untouched; at a copy point
    they come back at the new accumulators re-laid. The other scoped buffers, the generator register and what the core
    owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ, leaves0_0, leaves0_1, PhiS_castSucc]
  by_cases h0 : t.val % 125 = 0
  · have h1 : ¬t.val % 125 = 124 := by omega
    rw [Dat.leavesExact_idle (dat0 V c) 2 t (idleAt2 t h1) (noFlush2 t h1),
      Dat.leavesExact_idle (dat0 V c) 3 t (idleAt3 t h1) (noFlush3 t h1), sums_reset V c t h0, cnts_reset V c t h0]
    refine (sep_mono (PhiS_any V c _ _) .rfl).trans ?_
    iintro ⟨⟨⟨HS, HC, Ho⟩, Hg⟩, Hw, ⟨%d0, H0⟩, ⟨%d1, H1⟩, H2, H3⟩
    iapply (run_reset c (grid0.coords t) (ms0 t) (hs0 t) (ms1 t) (hs1 t) (ms2 t) (hs2 t) (ms3 t) (hs3 t)
      sumsM (Memref.isWhole_whole _) cntsM (Memref.isWhole_whole _)
      ((hcondReset t).mpr h0) (fun h => h1 ((hcondCopy t).mp h)) (iblk0 V c 0 t) (iblk0 V c 1 t) Set.univ _)
    isplitl [H0]; · iexact H0
    isplitl [H1]; · iexact H1
    isplitl [HS]; · iexact HS
    isplitl [HC]; · iexact HC
    iintro ⟨H0, H1, HS, HC⟩
    isplitl [HS HC Ho Hg]
    · isplitr [Hg]
      · isplitl [HS]; · iexact HS
        isplitl [HC]; · iexact HC
        iexact Ho
      iexact Hg
    isplitl [Hw]; · iexact Hw
    isplitl [H0]; · iexact H0
    isplitl [H1]; · iexact H1
    isplitl [H2]; · iexact H2
    iexact H3
  · have hz : t.val ≠ 0 := fun hz => h0 (by rw [hz])
    rw [sums_step V c t h0, cnts_step V c t h0, PhiS_pos V c _ _ hz]
    by_cases h1 : t.val % 125 = 124
    · rw [leaves0_2 V c t h1, leaves0_3 V c t h1, sums_step V c t h0, cnts_step V c t h0]
      iintro ⟨⟨⟨HS, HC, Ho⟩, Hg⟩, Hw, ⟨%d0, H0⟩, ⟨%d1, H1⟩, ⟨%d2, H2⟩, ⟨%d3, H3⟩⟩
      iapply (run_copy c (grid0.coords t) (ms0 t) (hs0 t) (ms1 t) (hs1 t) (ms2 t) (hs2 t) (ms3 t) (hs3 t)
        sumsM (Memref.isWhole_whole _) cntsM (Memref.isWhole_whole _)
        (fun h => h0 ((hcondReset t).mp h)) ((hcondCopy t).mpr h1) (iblk0 V c 0 t) (iblk0 V c 1 t)
        (accAt V c (t.val - 1) (Nat.lt_of_le_of_lt (Nat.sub_le _ _) t.isLt)).1
        (accAt V c (t.val - 1) (Nat.lt_of_le_of_lt (Nat.sub_le _ _) t.isLt)).2 Set.univ _)
      isplitl [H0]; · iexact H0
      isplitl [H1]; · iexact H1
      isplitl [H2]; · iexists _; iexact H2
      isplitl [H3]; · iexists _; iexact H3
      isplitl [HS]; · iexact HS
      isplitl [HC]; · iexact HC
      iintro ⟨H0, H1, H2, H3, HS, HC⟩
      isplitl [HS HC Ho Hg]
      · isplitr [Hg]
        · isplitl [HS]; · iexact HS
          isplitl [HC]; · iexact HC
          iexact Ho
        iexact Hg
      isplitl [Hw]; · iexact Hw
      isplitl [H0]; · iexact H0
      isplitl [H1]; · iexact H1
      isplitl [H2]; · iexact H2
      iexact H3
    · rw [Dat.leavesExact_idle (dat0 V c) 2 t (idleAt2 t h1) (noFlush2 t h1),
        Dat.leavesExact_idle (dat0 V c) 3 t (idleAt3 t h1) (noFlush3 t h1)]
      iintro ⟨⟨⟨HS, HC, Ho⟩, Hg⟩, Hw, ⟨%d0, H0⟩, ⟨%d1, H1⟩, H2, H3⟩
      iapply (run_mid c (grid0.coords t) (ms0 t) (hs0 t) (ms1 t) (hs1 t) (ms2 t) (hs2 t) (ms3 t) (hs3 t)
        sumsM (Memref.isWhole_whole _) cntsM (Memref.isWhole_whole _)
        (fun h => h0 ((hcondReset t).mp h)) (fun h => h1 ((hcondCopy t).mp h)) (iblk0 V c 0 t) (iblk0 V c 1 t)
        (accAt V c (t.val - 1) (Nat.lt_of_le_of_lt (Nat.sub_le _ _) t.isLt)).1
        (accAt V c (t.val - 1) (Nat.lt_of_le_of_lt (Nat.sub_le _ _) t.isLt)).2 Set.univ _)
      isplitl [H0]; · iexact H0
      isplitl [H1]; · iexact H1
      isplitl [HS]; · iexact HS
      isplitl [HC]; · iexact HC
      iintro ⟨H0, H1, HS, HC⟩
      isplitl [HS HC Ho Hg]
      · isplitr [Hg]
        · isplitl [HS]; · iexact HS
          isplitl [HC]; · iexact HC
          iexact Ho
        iexact Hg
      isplitl [Hw]; · iexact Hw
      isplitl [H0]; · iexact H0
      isplitl [H1]; · iexact H1
      isplitl [H2]; · iexact H2
      iexact H3

/-! ## The body obligation and the invariant's two ends -/

/-- The body at every point: from the invariant, the inputs' buffers at their blocks and the results' buffers at
    anything, to the invariant at the next point and the buffers at what `dat0` names. -/
theorem body_obligation0 (c : Dev nD) : BodyObligation (dat0 (F := F) V c) (defs₀ (F := F)) Variants.none () Set.univ := by
  intro t
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl]
  exact Entails.of_eq rfl

/-- After the last point the invariant gives the class invariant back: the accumulators' contents are forgotten. -/
theorem hout0 (c : Dev nD) : (dat0 V c).Φ (Fin.last cfg0.N) ⊢ Pipeline.ΦA spec0 c := by
  rw [PhiA0_eq, show (dat0 V c).Φ (Fin.last cfg0.N) = PhiS V c (Fin.last cfg0.N).val (Nat.le_of_lt_succ (Fin.last cfg0.N).isLt) from rfl]
  exact PhiS_any V c _ _

end Cert.KernelIdeal.Hand

end
-- ==== Proof.KI.Head.lean ====
/-
  The second launch: the head, one grid point.

  Its six inputs are whole arrays — the 256 × 128 segment sums, the 256 × 1 segment counts, the two weight
  matrices and the two biases re-laid as rows — and its one result is the 256 × 1 output. The body loads all six
  whole, forms `relu ((sums / counts) · W1 + b1) · W2 + b2` and stores it whole.
-/
import proofs.«403711_j17686675324958_1_alg».proof.Proof.Gen.KernelIdeal.Launch
import proofs.«403711_j17686675324958_1_alg».proof.Proof.Gen.KernelIdeal.Skeleton
import proofs.«403711_j17686675324958_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the launch is entered
variable (V : (c : Dev nD) → (b : Ref sig .tc) → Buf (Elt F) ((c : Thread nD τ).loc b))

/-- Window `w`'s block at the one point, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The six inputs at the point, at their literal types. -/
abbrev hSums (c : Dev nD) (t : Fin cfg1.N) : Vec F S256x128 .f32 := iblk1 V c 0 t
abbrev hCnts (c : Dev nD) (t : Fin cfg1.N) : Vec F S256x1 .f32 := iblk1 V c 1 t
abbrev hW1 (c : Dev nD) (t : Fin cfg1.N) : Vec F S128x64 .f32 := iblk1 V c 2 t
abbrev hB1 (c : Dev nD) (t : Fin cfg1.N) : Vec F S1x64 .f32 := iblk1 V c 3 t
abbrev hW2 (c : Dev nD) (t : Fin cfg1.N) : Vec F S64x1 .f32 := iblk1 V c 4 t
abbrev hB2 (c : Dev nD) (t : Fin cfg1.N) : Vec F S1x1 .f32 := iblk1 V c 5 t

/-- The proof data of the second launch on core `c`: the arrays as found; after the body each input's buffer at its
    block and the result's at the head of the six inputs; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (hSums V c t) (hCnts V c t) (hW1 V c t) (hB1 V c t) (hW2 V c t) (hB2 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) :
    (dat1 V c).after 6 t = k1_pay1 (hSums V c t) (hCnts V c t) (hW1 V c t) (hB1 V c t) (hW2 V c t) (hB2 V c t) := by
  dsimp only [dat1]

/-- What the body leaves in an input window's buffer: the block it found there. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-- Each input window is whole, uncut and never idle, and the body leaves its block in place; so at the point its
    staging buffer holds what a fetch puts there, which is the block of the array as the launch found it. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-- The zero offsets of a rank-two rectangle are the constant function. -/
theorem head_off0 : (![0, 0] : Fin 2 → ℕ) = fun _ => 0 := funext fun a => by fin_cases a <;> rfl

/-- The whole 256 × 1 rectangle: the one store's. -/
abbrev headRect : Rect S256x1 := Rect.unit (s := S256x1) ![0, 0] S256x1.size inb_S256x1_S256x1_0_0

/-- One store through the whole rectangle covers the buffer. -/
theorem head_cover (p : Vec F S256x1 .f32) (y : S256x1.Idx) :
    ∃ pc ∈ ([⟨headRect, p⟩] : List (View.Piece (Elt F) S256x1 .f32)), y ∈ pc.1.set :=
  View.cover_of_tiled [⟨headRect, p⟩] S256x1.size (by rfl) y

set_option maxHeartbeats 1000000 in
/-- The head on whole memrefs: the six inputs at read contents `x0 … x5`, the result's at anything. It runs to the
    continuation holding the inputs as they were and the result's buffer at the head of the six. -/
theorem sound_kernel1 (c : Dev nD) (E : Set ℕ) (i : grid1.Coords)
    (a0 : Memref sig .tc .vmem S256x128 .f32) (h0 : a0.IsWhole) (a1 : Memref sig .tc .vmem S256x1 .f32) (h1 : a1.IsWhole)
    (a2 : Memref sig .tc .vmem S128x64 .f32) (h2 : a2.IsWhole) (a3 : Memref sig .tc .vmem S1x64 .f32) (h3 : a3.IsWhole)
    (a4 : Memref sig .tc .vmem S64x1 .f32) (h4 : a4.IsWhole) (a5 : Memref sig .tc .vmem S1x1 .f32) (h5 : a5.IsWhole)
    (a6 : Memref sig .tc .vmem S256x1 .f32) (h6 : a6.IsWhole)
    (x0 : Vec F S256x128 .f32) (x1 : Vec F S256x1 .f32) (x2 : Vec F S128x64 .f32) (x3 : Vec F S1x64 .f32)
    (x4 : Vec F S64x1 .f32) (x5 : Vec F S1x1 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (k1_pay1 x0 x1 x2 x3 x4 x5)) -∗ K ⟨⟩))
      ⊢ wp frame (wpE (defs₀ (F := F)) Variants.none c none) E (cc1__head_kernel i a0 h0 a1 h1 a2 h2 a3 h3 a4 h4 a5 h5 a6 h6) K := by
  simp only [cc1__head_kernel_eq_skeleton]; unfold cc1__head_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- one covering store leaves its payload; each of the payload's loads, through the whole rectangle, reads the buffer
  rw [View.read_writes_eq_canon _ _ _ (head_cover _), View.canon_unit_zero head_off0]
  simp only [View.readAt_eq_ld, View.ld_unit_zero (S := S256x128) head_off0, View.ld_unit_zero (S := S256x1) head_off0,
    View.ld_unit_zero (S := S128x64) head_off0, View.ld_unit_zero (S := S1x64) head_off0,
    View.ld_unit_zero (S := S64x1) head_off0, View.ld_unit_zero (S := S1x1) head_off0]

/-! ## The body obligation at the point -/

/-- What the body is called with at point `t`: the invariant, the core's dues, and the seven windows' current staging
    buffers, each input's at what the pipeline put there and the result's at anything, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at the point: the six inputs' buffers hold their blocks, so the kernel's triple applies; the invariant
    and the core's dues are the same before and after and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (hSums V c t) (hCnts V c t) (hW1 V c t) (hB1 V c t) (hW2 V c t) (hB2 V c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at the one point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Launch.lean ====
/-
  The run of the whole program: reshape the segment words into a column, the first launch (sums and counts per
  core half), add the two halves on the host and re-lay the counts and the biases, the second launch (the head).

  Between two items every unscoped buffer is held at named contents: the launch memory, then each host stretch
  applied, then each launch's result arrays at what its write-backs leave (`Dat.arrAt` at the last point) and every
  other buffer as it was. The frame is the generated conditional frame at these contents; the value claim reads the
  last contents at the result array as well.
-/
import proofs.«403711_j17686675324958_1_alg».proof.Proof.KI.SegAcc
import proofs.«403711_j17686675324958_1_alg».proof.Proof.KI.Head
import proofs.«403711_j17686675324958_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at the segment boundaries -/

/-- What the first launch is entered from, read at the TensorCore's references. -/
abbrev ent0 : (c : Dev nD) → (b : Ref sig .tc) → Buf (Elt F) ((c : Thread nD τ).loc b) := fun c b => Gen.V1 m c b

/-- What the first launch leaves: its arrays at the folded write-backs, every other buffer as entered. -/
def exit0 (c : Dev nD) : Valuation τ sig (Elt F) :=
  Pipeline.withArrays spec0 c (Gen.V1 m c) fun w => (dat0 (ent0 m) c).arrAt w cfg0.N

/-- The unknowns of the conditional frame after the first launch only. -/
def outsA : Gen.Outs (F := F) := fun _ r c => exit0 m c r

/-- What the second launch is entered from. -/
abbrev ent1 : (c : Dev nD) → (b : Ref sig .tc) → Buf (Elt F) ((c : Thread nD τ).loc b) := fun c b => Gen.V3 m (outsA m) c b

/-- What the second launch leaves. -/
def exit1 (c : Dev nD) : Valuation τ sig (Elt F) :=
  Pipeline.withArrays spec1 c (Gen.V3 m (outsA m) c) fun w => (dat1 (ent1 m) c).arrAt w cfg1.N

/-- The unknowns of the conditional frame: after the first launch its exit contents, after the second its. -/
def outs : Gen.Outs (F := F) := fun J r c => if J = 2 then exit0 m c r else exit1 m c r

theorem outs_sums (c : Dev nD) : outs m 2 main_v1_0 c = (dat0 (ent0 m) c).arrAt 2 cfg0.N := by
  unfold outs; rw [if_pos rfl]
  exact Pipeline.withArrays_arr spec0 launch0.win.arr_inj c _ _ 2
theorem outs_cnts (c : Dev nD) : outs m 2 main_v1_1 c = (dat0 (ent0 m) c).arrAt 3 cfg0.N := by
  unfold outs; rw [if_pos rfl]
  exact Pipeline.withArrays_arr spec0 launch0.win.arr_inj c _ _ 3
theorem outs_out (c : Dev nD) : outs m 4 main_v7 c = (dat1 (ent1 m) c).arrAt 6 cfg1.N := by
  unfold outs; rw [if_neg (by decide)]
  exact Pipeline.withArrays_arr spec1 launch1.win.arr_inj c _ _ 6
/-- The second launch's entry contents do not depend on what is chosen for after it. -/
theorem V3_outs (c : Dev nD) : Gen.V3 m (outs m) c = Gen.V3 m (outsA m) c := by
  rfl

/-! ## The proof data family and what rides beside the buffers -/

def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c

/-- No core owes another anything: no level is assigned. -/
abbrev L : GSem nD τ sig → Finset Unit := fun _ => ∅
abbrev lv : GSem nD τ sig → Unit → ℕ := fun _ _ => 0
/-- Beside the buffers: the generator register at some state, and the core owing nothing. -/
abbrev Rr (c : Dev nD) : sProp 𝕄 := iprop((∃ r, prngReg c r) ∗ ∃ W, owes (c : Thread nD τ) (0 : CellTallies nD τ sig Unit) W)
abbrev E : Fin 3 → Dev nD → sProp 𝕄 := fun _ c => Rr c

/-! ## The launches as segments -/

/-- At the first launch's exit each of its arrays holds what the write-backs leave: an input's array is as entered,
    which no launch may change; a result's array is the unknown chosen for it. -/
theorem hF0 (c : Dev nD) : ∀ w : Fin cfg0.W, (dat0 (ent0 m) c).arrAt w cfg0.N = Gen.V2 m (outs m) c (Pipeline.arrRef spec0 w)
  | ⟨0, _⟩ => ((dat0 (ent0 m) c).arrAt_in 0 rfl _).trans ((A_eq0 (ent0 m) c 0).trans (Gen.V2_of m (outs m) c main_arg0 (by decide)).symm)
  | ⟨1, _⟩ => ((dat0 (ent0 m) c).arrAt_in 1 rfl _).trans ((A_eq0 (ent0 m) c 1).trans (Gen.V2_of m (outs m) c main_v0 (by decide)).symm)
  | ⟨2, _⟩ => (outs_sums m c).symm.trans (by
      show _ = Function.update (Function.update (Gen.V1 m c) main_v1_0 (outs m 2 main_v1_0 c)) main_v1_1 (outs m 2 main_v1_1 c) main_v1_0
      rw [Function.update_of_ne (StableHlo.devRef_ne_of_ne (by decide)), Function.update_self])
  | ⟨3, _⟩ => (outs_cnts m c).symm.trans (by
      show _ = Function.update (Function.update (Gen.V1 m c) main_v1_0 (outs m 2 main_v1_0 c)) main_v1_1 (outs m 2 main_v1_1 c) main_v1_1
      rw [Function.update_self])

/-- Every buffer that is no array of the first launch is as entered. -/
theorem hrest0 (c : Dev nD) (b : Ref sig .tc) (hb : b ∉ Finset.univ.image (Pipeline.arrRef spec0)) :
    Gen.V2 m (outs m) c b = Gen.V1 m c b :=
  Gen.V2_of m (outs m) c b (by
    intro h
    simp only [List.mem_cons, List.mem_nil_iff, or_false] at h
    rcases h with rfl | rfl
    · exact hb (Finset.mem_image.mpr ⟨2, Finset.mem_univ _, rfl⟩)
    · exact hb (Finset.mem_image.mpr ⟨3, Finset.mem_univ _, rfl⟩))

set_option backward.isDefEq.respectTransparency.types false in
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (ent0 m) c)
    unfold Pipeline.ΦA
    iintro ⟨Hp, -, Hr⟩
    isplitl [Hr]; · iexact Hr
    iexact Hp
  hout c := by
    rw [Pipeline.ownSems0_none]
    refine BIBase.Entails.trans (hout0 (ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
theorem hpre0 (c : Dev nD) : iprop(StableHlo.held (c : Thread nD τ) (Pipeline.ucRefs τ sig) (Gen.V1 m c) ∗ E (F := F) 0 c) ⊢ (reg0 m).pre c := by
  exact .rfl
theorem hpost0 (c : Dev nD) : (reg0 m).post c ⊢ iprop(StableHlo.held (c : Thread nD τ) (Pipeline.ucRefs τ sig) (Gen.V2 m (outs m) c) ∗ E (F := F) 1 c) := by
  exact .rfl
/-- A buffer the second launch may not change holds at its exit what the launch was entered from. -/
theorem V4_in (c : Dev nD) (r : Ref sig .tc) (h : r ∉ ([main_v7] : List (Ref sig .tc))) :
    Gen.V4 m (outs m) c r = Gen.V3 m (outsA m) c r :=
  (Gen.V4_of m (outs m) c r h).trans (congrFun (V3_outs m c) (Proc.devRef .tc r))

/-- At the second launch's exit each of its arrays holds what the write-backs leave: the six inputs' arrays as
    entered, the result's array the unknown chosen for it. -/
theorem hF1 (c : Dev nD) : ∀ w : Fin cfg1.W, (dat1 (ent1 m) c).arrAt w cfg1.N = Gen.V4 m (outs m) c (Pipeline.arrRef spec1 w)
  | ⟨0, _⟩ => ((dat1 (ent1 m) c).arrAt_in 0 rfl _).trans ((A_eq1 (ent1 m) c 0).trans (V4_in m c main_v2 (by decide)).symm)
  | ⟨1, _⟩ => ((dat1 (ent1 m) c).arrAt_in 1 rfl _).trans ((A_eq1 (ent1 m) c 1).trans (V4_in m c main_v4 (by decide)).symm)
  | ⟨2, _⟩ => ((dat1 (ent1 m) c).arrAt_in 2 rfl _).trans ((A_eq1 (ent1 m) c 2).trans (V4_in m c main_arg2 (by decide)).symm)
  | ⟨3, _⟩ => ((dat1 (ent1 m) c).arrAt_in 3 rfl _).trans ((A_eq1 (ent1 m) c 3).trans (V4_in m c main_v5 (by decide)).symm)
  | ⟨4, _⟩ => ((dat1 (ent1 m) c).arrAt_in 4 rfl _).trans ((A_eq1 (ent1 m) c 4).trans (V4_in m c main_arg4 (by decide)).symm)
  | ⟨5, _⟩ => ((dat1 (ent1 m) c).arrAt_in 5 rfl _).trans ((A_eq1 (ent1 m) c 5).trans (V4_in m c main_v6 (by decide)).symm)
  | ⟨6, _⟩ => (outs_out m c).symm.trans (by
      show _ = Function.update (Gen.V3 m (outs m) c) main_v7 (outs m 4 main_v7 c) main_v7
      rw [Function.update_self])

/-- Every buffer that is no array of the second launch is as entered. -/
theorem hrest1 (c : Dev nD) (b : Ref sig .tc) (hb : b ∉ Finset.univ.image (Pipeline.arrRef spec1)) :
    Gen.V4 m (outs m) c b = Gen.V3 m (outsA m) c b :=
  V4_in m c b (by
    intro h
    simp only [List.mem_cons, List.mem_nil_iff, or_false] at h
    subst h
    exact hb (Finset.mem_image.mpr ⟨6, Finset.mem_univ _, rfl⟩))

set_option backward.isDefEq.respectTransparency.types false in
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (Gen.V3 m (outs m) c) ∗ Rr c)
  post c := iprop(StableHlo.held (c : Thread nD τ) (Pipeline.ucRefs τ sig) (Gen.V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none, V3_outs m c]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (ent1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
theorem hpre1 (c : Dev nD) : iprop(StableHlo.held (c : Thread nD τ) (Pipeline.ucRefs τ sig) (Gen.V3 m (outs m) c) ∗ E (F := F) 1 c) ⊢ (reg1 m).pre c := by
  exact .rfl
theorem hpost1 (c : Dev nD) : (reg1 m).post c ⊢ iprop(StableHlo.held (c : Thread nD τ) (Pipeline.ucRefs τ sig) (Gen.V4 m (outs m) c) ∗ E (F := F) 2 c) := by
  exact .rfl

/-! ## The frame and the value run -/

/-- The launch element: the staging cells' and the launch tokens' of both launches. -/
abbrev u₀ : UR sig nD τ := initOf (Pipeline.cells cfgs cellOf_inj) (Pipeline.launchToks cfgs cellOf_inj)

/-- Owning the launch element is owning it as the staging cells' ghost state; no core gets a ghost resource beside. -/
theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu
  imodintro
  isplitl [Hu]
  · rw [← ownU_emb₁]; iexact Hu
  rw [BI.bigSep_emp_const]
  iempintro

/-- What the launch deals a core makes what rides beside its buffers: the generator register (at its launch state)
    and the core owing nothing are kept; the unscoped semaphores, the launch credit are let go. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (BI.emp : sProp 𝕄)) c)) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]
  · iexists _; iexact Hp
  iexists ∅; iexact HO

/-- At the end the register is let go: the core owes nothing. -/
theorem hE2 (c : Dev nD) : E (F := F) 2 c ⊢ (iprop(∃ W, owes (c : Thread nD τ) (0 : CellTallies nD τ sig Unit) W) : sProp 𝕄) := by
  iintro ⟨-, HO⟩
  iexact HO

/-- The launch makes the first thread state on every core by itself: the unscoped buffers are held at the launch
    memory; the register and the core owing nothing ride beside, the rest of what is dealt is let go. -/
theorem hinit (ρ : Dev nD → PrngReg) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (fun _ : Dev nD => (BI.emp : sProp 𝕄)) c)) ∗ levAts L lv)
      ⊢ (|={Set.univ}=> bigSep Finset.univ fun c : Dev nD =>
          iprop(StableHlo.held (c : Thread nD τ) (Pipeline.ucRefs τ sig) (Gen.V0 m c) ∗ E (F := F) 0 c) : sProp 𝕄) := by
  refine Pipeline.initEach L lv fun c => ?_
  rw [show unscopedBufs c (fun b => m ((c : Thread nD τ).loc b)) = StableHlo.held (c : Thread nD τ) (Pipeline.ucRefs τ sig) (Gen.V0 m c)
    from Pipeline.unscopedBufs_held c (Gen.V0 m c)]
  iintro ⟨⟨Hh, -, HO, -, Hp, -⟩, -⟩
  imodintro
  isplitl [Hh]
  · iexact Hh
  isplitl [Hp]
  · iexists _; iexact Hp
  iexists ∅; iexact HO

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution terminates, nothing faulting, the six argument arrays unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () Variants.none L lv (fun _ _ => rfl) ρ (outs m) (pdats m) 0 (fun _ => BI.emp) u₀ hu₀ E (hE0 ρ) hE2
    (reg0 m) (hpre0 m) (hpost0 m) (reg1 m) (hpre1 m) (hpost1 m)

set_option backward.isDefEq.respectTransparency.types false in
/-- The same run read at the result array too: it ends at the last boundary's contents. -/
theorem run_value (ρ : Dev nD → PrngReg) :
    θ_run defs (onTc (τ := τ) (main (F := F))) ⟨m, fun _ => 0, ρ⟩ (fun r => ∀ c : Dev nD,
      r.2.mem ((c.tc : Thread nD τ).loc main_v7) = Gen.V4 m (outs m) c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m))
    (fun c Q => by
      rewrite [main_chain c, Pipeline.Seg.run_eq_chain,
        show (Gen.segs m (outs m) Variants.none L lv E () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    0 (fun _ _ => rfl) (fun _ => BI.emp) u₀ hu₀
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V4 m (outs m) c))
    (hch := fun c => ⟨.rfl, hpre0 m c, hpost0 m c, hpre1 m c, (hpost1 m c).trans (sep_mono .rfl (hE2 c))⟩)
    (hinit := hinit m ρ)
    (QY := fun c s => s.mem ((c.tc : Thread nD τ).loc main_v7) = Gen.V4 m (outs m) c main_v7
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  -- the end: every unscoped buffer read off the last contents, the result array's among them
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨h (Proc.devRef .tc main_v7) (mem_uc main_v7 (by decide)),
      (h (Proc.devRef .tc main_arg0) (mem_uc main_arg0 (by decide))).trans (Gen.V4_main_arg0 m (outs m) c),
      (h (Proc.devRef .tc main_arg1) (mem_uc main_arg1 (by decide))).trans (Gen.V4_main_arg1 m (outs m) c),
      (h (Proc.devRef .tc main_arg2) (mem_uc main_arg2 (by decide))).trans (Gen.V4_main_arg2 m (outs m) c),
      (h (Proc.devRef .tc main_arg3) (mem_uc main_arg3 (by decide))).trans (Gen.V4_main_arg3 m (outs m) c),
      (h (Proc.devRef .tc main_arg4) (mem_uc main_arg4 (by decide))).trans (Gen.V4_main_arg4 m (outs m) c),
      (h (Proc.devRef .tc main_arg5) (mem_uc main_arg5 (by decide))).trans (Gen.V4_main_arg5 m (outs m) c)⟩
  · iexact HSI

end Cert.KernelIdeal.Hand

end
-- ==== Proof.Spec.lean ====
/-
  The function both programs compute, on the extended reals.

  Rows `r < 2000000` carry a feature vector `x r : Fin 128 → EReal` and a segment word `b r`. Segment `g < 256`
  collects the rows whose word IS the word of `g`; a row whose word is the word of no `g < 256` (a negative
  number, or one from 256 on) belongs to no segment. `segSum` adds the rows of a segment feature by feature,
  `segCnt` counts them, and `head` is the two-layer perceptron applied to the segment's mean:
  `relu (mean · W1 + b1) · W2 + b2`, the mean being the quotient of the sum by the count (whatever that
  quotient is when the count is zero: both programs form the same quotient of the same two numbers).
-/
import Idealize.ShloMosaic.PureOps.Ideal
import Idealize.ShloMosaic.Lib.ValueIdx

noncomputable section

namespace Cert.Spec

open Idealize.ShloMosaic

/-- The sum over segment `g` of feature `d`: every row whose word is `g`'s contributes its entry, every other row zero. -/
def segSum (x : Fin 2000000 → Fin 128 → EReal) (b : Fin 2000000 → BitVec 32) (g : Fin 256) (d : Fin 128) : EReal :=
  ∑ r : Fin 2000000, if b r = BitVec.ofNat 32 g.val then x r d else 0

/-- The number of rows of segment `g`, as an extended real. -/
def segCnt (b : Fin 2000000 → BitVec 32) (g : Fin 256) : EReal :=
  ∑ r : Fin 2000000, if b r = BitVec.ofNat 32 g.val then 1 else 0

/-- The head on segment `g`: the mean `S g k / C g` through `relu (· W1 + b1) · W2 + b2`. -/
def head (S : Fin 256 → Fin 128 → EReal) (C : Fin 256 → EReal) (W1 : Fin 128 → Fin 64 → EReal) (b1 : Fin 64 → EReal)
    (W2 : Fin 64 → EReal) (b2 : EReal) (g : Fin 256) : EReal :=
  (∑ j : Fin 64, max ((∑ k : Fin 128, Ideal.div (S g k) (C g) * W1 k j) + b1 j) 0 * W2 j) + b2

/-- The whole result, over the six argument arrays read at literal shapes. -/
def result (X : (⟨2, ![2000000, 128]⟩ : Shape).Idx → EReal) (B : (⟨1, ![2000000]⟩ : Shape).Idx → BitVec 32)
    (W1 : (⟨2, ![128, 64]⟩ : Shape).Idx → EReal) (B1 : (⟨1, ![64]⟩ : Shape).Idx → EReal)
    (W2 : (⟨2, ![64, 1]⟩ : Shape).Idx → EReal) (B2 : (⟨1, ![1]⟩ : Shape).Idx → EReal) :
    (⟨2, ![256, 1]⟩ : Shape).Idx → EReal :=
  fun i => head (segSum (fun r d => X (ValueIdx.ix2 r d)) (fun r => B (ValueIdx.ix1 r)))
    (segCnt (fun r => B (ValueIdx.ix1 r)))
    (fun k j => W1 (ValueIdx.ix2 k j)) (fun j => B1 (ValueIdx.ix1 j)) (fun j => W2 (ValueIdx.ix2 j (0 : Fin 1)))
    (B2 (ValueIdx.ix1 (0 : Fin 1))) (i 0)

end Cert.Spec

end
-- ==== Proof.KI.TileValue.lean ====
/-
  One tile's arithmetic on the extended reals, index by index. The one-hot entry of row `q` and column `g` is 1
  when the row's word is `g`'s and 0 otherwise; contracting it with the tile's features over the rows gives, at
  `(g, d)`, the sum of feature `d` over the tile's rows of segment `g`; its column sums count those rows. A change
  of float format is the identity, and a sum from a zero accumulator is the sum.
-/
import proofs.«403711_j17686675324958_1_alg».proof.Proof.Gen.KernelIdeal.Skeleton
import proofs.«403711_j17686675324958_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-- A tile's contribution to segment `g`, feature `d`. -/
def tileSum (x : Vec Ideal S8000x128 .f32) (b : Vec Ideal S8000x1 .i32) (g : Fin 256) (d : Fin 128) : EReal :=
  ∑ q : Fin 8000, if b (ix2 q (0 : Fin 1)) = BitVec.ofNat 32 g.val then x (ix2 q d) else 0

/-- A tile's contribution to the count of segment `g`. -/
def tileCnt (b : Vec Ideal S8000x1 .i32) (g : Fin 256) : EReal :=
  ∑ q : Fin 8000, if b (ix2 q (0 : Fin 1)) = BitVec.ofNat 32 g.val then (1 : EReal) else 0

/-- The reset values are zero everywhere. -/
theorem pay1_apply (i : S256x128.Idx) : k0_pay1 (F := Ideal) i = 0 := by
  unfold k0_pay1
  rw [shapeCast_self]
  exact Ideal.ofBits_zero_f32
theorem pay2_apply (i : S1x256.Idx) : k0_pay2 (F := Ideal) i = 0 := by
  unfold k0_pay2
  rw [shapeCast_self]
  exact Ideal.ofBits_zero_f32

/-! ## The one-hot entry

The row's word, carried from a column to a vector and back, is broadcast along the columns and compared with the
column's number; the bit is widened to a word and read as a signed integer, so it is the extended real 1 or 0. -/

/-- Equality of two words as a one-bit word. -/
theorem cmpi_eq_ite (x y : BitVec 32) : IntOp.cmpi .eq x y = if x = y then 1#1 else 0#1 := by
  unfold IntOp.cmpi
  by_cases h : x = y
  · rw [if_pos h, h, beq_self_eq_true]; rfl
  · rw [if_neg h, show (x == y) = false from beq_false_of_ne h]; rfl

/-- The one-hot bit of row `q` and column `g`. -/
theorem onehot_apply (b : Vec Ideal S8000x1 .i32) (q : Fin 8000) (g : Fin 256) :
    k0_pay3 (F := Ideal) b (ix2 q g) = if b (ix2 q (0 : Fin 1)) = BitVec.ofNat 32 g.val then 1#1 else 0#1 := by
  unfold k0_pay3
  rw [shapeCast_shapeCast]
  show IntOp.cmpi .eq (broadcastTo S8000x256 b broadcasts_S8000x1_S8000x256 (ix2 q g))
      (iota .tc S8000x256 32 [1] iota_S8000x256_d1_w32 (ix2 q g)) = _
  rw [iota_single_apply,
    broadcastTo_apply b broadcasts_S8000x1_S8000x256 (ix2 q g) (ix2 q (0 : Fin 1))
      (fun a => match a with | ⟨0, _⟩ => rfl | ⟨1, _⟩ => rfl)]
  exact cmpi_eq_ite _ _

/-- The one-hot entry as an extended real. -/
theorem onehotF_apply (b : Vec Ideal S8000x1 .i32) (q : Fin 8000) (g : Fin 256) :
    (sitofp .f32 (extui 32 (k0_pay3 (F := Ideal) b) natLt_1_32) : FVec Ideal S8000x256 .f32) (ix2 q g)
      = if b (ix2 q (0 : Fin 1)) = BitVec.ofNat 32 g.val then (1 : EReal) else 0 := by
  rw [sitofp_apply, extui_apply, onehot_apply]
  show (((BitVec.setWidth 32 (if b (ix2 q (0 : Fin 1)) = BitVec.ofNat 32 g.val then 1#1 else 0#1)).toInt : ℝ) : EReal) = _
  split
  · simp
  · simp

/-! ## The product of the one-hot entries with the features

Both operands are contracted over their rows: at `(g, d)` and row `q` the product reads the one-hot entry `(q, g)` and
the feature `(q, d)`. -/

theorem lhs_tile_0 (i : S256x128.Idx) (q : dot_S8000x256_S8000x128_S256x128_0_0_1_1_n_n.contr.Idx) :
    (dot_S8000x256_S8000x128_S256x128_0_0_1_1_n_n.lhsIdx i q 0).val = (q ⟨0, by decide⟩).val :=
  dot_S8000x256_S8000x128_S256x128_0_0_1_1_n_n.lhsIdx_val_of_single rfl i q
theorem lhs_tile_1 (i : S256x128.Idx) (q : dot_S8000x256_S8000x128_S256x128_0_0_1_1_n_n.contr.Idx) :
    (dot_S8000x256_S8000x128_S256x128_0_0_1_1_n_n.lhsIdx i q 1).val = (i 0).val := by
  unfold DotDims.lhsIdx
  rw [dif_neg (show ¬(1 : Fin S8000x256.rank) ∈ dot_S8000x256_S8000x128_S256x128_0_0_1_1_n_n.lhsBatch by decide), dif_pos (show (1 : Fin S8000x256.rank) ∈ dot_S8000x256_S8000x128_S256x128_0_0_1_1_n_n.lhsNonContracting by decide)]
  rfl
theorem rhs_tile_0 (i : S256x128.Idx) (q : dot_S8000x256_S8000x128_S256x128_0_0_1_1_n_n.contr.Idx) :
    (dot_S8000x256_S8000x128_S256x128_0_0_1_1_n_n.rhsIdx i q 0).val = (q ⟨0, by decide⟩).val :=
  dot_S8000x256_S8000x128_S256x128_0_0_1_1_n_n.rhsIdx_val_of_single rfl i q
theorem rhs_tile_1 (i : S256x128.Idx) (q : dot_S8000x256_S8000x128_S256x128_0_0_1_1_n_n.contr.Idx) :
    (dot_S8000x256_S8000x128_S256x128_0_0_1_1_n_n.rhsIdx i q 1).val = (i 1).val := by
  unfold DotDims.rhsIdx
  rw [dif_neg (show ¬(1 : Fin S8000x128.rank) ∈ dot_S8000x256_S8000x128_S256x128_0_0_1_1_n_n.rhsBatch by decide), dif_pos (show (1 : Fin S8000x128.rank) ∈ dot_S8000x256_S8000x128_S256x128_0_0_1_1_n_n.rhsNonContracting by decide)]
  rfl

/-- The product from a zero accumulator, at `(g, d)`: the sum over the tile's rows. -/
theorem tileMatmul_apply (l : FVec Ideal S8000x256 .bf16) (r : FVec Ideal S8000x128 .bf16) (g : Fin 256) (d : Fin 128) :
    matmul dot_S8000x256_S8000x128_S256x128_0_0_1_1_n_n none l r (constant (F := Ideal) S256x128 .f32 0x00000000#32) (ix2 g d)
      = ∑ q : Fin 8000, l (ix2 q g) * r (ix2 q d) := by
  simp only [matmul]
  rw [Ideal.matmul_constant_zero_apply, ← Equiv.sum_comp (contrEquiv1 dot_S8000x256_S8000x128_S256x128_0_0_1_1_n_n 8000 rfl rfl).symm]
  refine Finset.sum_congr rfl fun k _ => ?_
  have hk := contrEquiv1_symm_val dot_S8000x256_S8000x128_S256x128_0_0_1_1_n_n 8000 rfl rfl k
  have el : dot_S8000x256_S8000x128_S256x128_0_0_1_1_n_n.lhsIdx (ix2 g d) ((contrEquiv1 dot_S8000x256_S8000x128_S256x128_0_0_1_1_n_n 8000 rfl rfl).symm k) = ix2 k g := funext fun a => Fin.ext (by
    match a with
    | ⟨0, _⟩ => exact (lhs_tile_0 _ _).trans hk
    | ⟨1, _⟩ => exact lhs_tile_1 _ _)
  have er : dot_S8000x256_S8000x128_S256x128_0_0_1_1_n_n.rhsIdx (ix2 g d) ((contrEquiv1 dot_S8000x256_S8000x128_S256x128_0_0_1_1_n_n 8000 rfl rfl).symm k) = ix2 k d := funext fun a => Fin.ext (by
    match a with
    | ⟨0, _⟩ => exact (rhs_tile_0 _ _).trans hk
    | ⟨1, _⟩ => exact rhs_tile_1 _ _)
  rw [el, er]

/-- The sums accumulator after a tile: what it held plus the tile's contribution. -/
theorem pay4_apply (x : Vec Ideal S8000x128 .f32) (b : Vec Ideal S8000x1 .i32) (s : Vec Ideal S256x128 .f32)
    (g : Fin 256) (d : Fin 128) :
    k0_pay4 (F := Ideal) x b s (ix2 g d) = s (ix2 g d) + tileSum x b g d := by
  unfold k0_pay4
  rw [shapeCast_self, addf_apply]
  refine congrArg (s (ix2 g d) + ·) ?_
  refine (tileMatmul_apply _ _ g d).trans ?_
  unfold tileSum
  refine Finset.sum_congr rfl fun q _ => ?_
  rw [truncf_apply, truncf_apply, onehotF_apply]
  split
  · exact one_mul _
  · exact zero_mul _

/-! ## The column sums of the one-hot entries -/

/-- The source index over column `g` with row `k` inserted. -/
theorem lift_col (g : Fin 256) (k : Fin 8000) :
    reduces_S8000x256_S256.lift (ix1 g) k = ix2 k g :=
  funext fun a => Fin.ext (by match a with | ⟨0, _⟩ => rfl | ⟨1, _⟩ => rfl)

/-- The column sums of the one-hot entries count the tile's rows of each segment. -/
theorem colsum_apply (b : Vec Ideal S8000x1 .i32) (hφ : FKind.Formats .f32)
    (hacc : (0x00000000#32 : BitVec 32) = 0x00000000#32) (g : Fin 256) :
    multiReduction (F := Ideal) .add [0] S256 (sitofp .f32 (extui 32 (k0_pay3 (F := Ideal) b) natLt_1_32)) 0x00000000#32
        reduces_S8000x256_S256 hφ hacc (ix1 g) = tileCnt b g := by
  refine (Ideal.multiReduction_add_single _ 0x00000000#32 reduces_S8000x256_S256 hφ hacc (ix1 g)).trans ?_
  show ∑ k : Fin 8000, _ = _
  unfold tileCnt
  refine Finset.sum_congr rfl fun k _ => ?_
  rw [lift_col]
  exact onehotF_apply b k g

/-- The counts accumulator after a tile: what it held plus the tile's count. -/
theorem pay5_apply (b : Vec Ideal S8000x1 .i32) (s : Vec Ideal S1x256 .f32) (g : Fin 256) :
    k0_pay5 (F := Ideal) b s (ix2 (0 : Fin 1) g) = s (ix2 (0 : Fin 1) g) + tileCnt b g := by
  unfold k0_pay5
  rw [shapeCast_self, addf_apply, shapeCast_a_1a_apply]
  exact congrArg (s (ix2 (0 : Fin 1) g) + ·) (colsum_apply b _ _ g)

/-- The copies to the result blocks only re-lay the accumulators. -/
theorem pay6_apply (s : Vec Ideal S256x128 .f32) (g : Fin 256) (d : Fin 128) :
    k0_pay6 (F := Ideal) s (ix3 (0 : Fin 1) g d) = s (ix2 g d) := by
  unfold k0_pay6
  exact shapeCast_ab_1ab_apply s _ 0 g d
theorem pay7_apply (s : Vec Ideal S1x256 .f32) (g : Fin 256) :
    k0_pay7 (F := Ideal) s (ix3 (0 : Fin 1) (0 : Fin 1) g) = s (ix2 (0 : Fin 1) g) := by
  unfold k0_pay7
  exact shapeCast_ab_1ab_apply s _ 0 0 g

end Cert.KernelIdeal.Hand

end
-- ==== Proof.SumSplit.lean ====
/-
  Two million rows are 2 halves × 125 tiles × 8000 rows: a sum over all rows is the iterated sum over half, tile
  and row within the tile, the row number being `8000·(125·p + j) + q`.
-/
import proofs.«403711_j17686675324958_1_alg».proof.Proof.Spec
import Mathlib.Algebra.BigOperators.Group.Finset.Defs
import Mathlib.Data.Fintype.BigOperators

noncomputable section

namespace Cert.Spec

/-- Row `q` of tile `j` of half `p`. -/
def rowOf (p : Fin 2) (j : Fin 125) (q : Fin 8000) : Fin 2000000 :=
  ⟨8000 * (125 * p.val + j.val) + q.val, by have := p.isLt; have := j.isLt; have := q.isLt; omega⟩

theorem rowOf_val (p : Fin 2) (j : Fin 125) (q : Fin 8000) : (rowOf p j q).val = 8000 * (125 * p.val + j.val) + q.val := rfl

/-- The rows are the triples (half, tile, row within the tile): `rowOf` is a bijection, its inverse sending row
`r` to `(r / 1000000, r / 8000 % 125, r % 8000)`. -/
def rowEquiv : Fin 2 × Fin 125 × Fin 8000 ≃ Fin 2000000 where
  toFun t := rowOf t.1 t.2.1 t.2.2
  invFun r := (⟨r.val / 1000000, by have := r.isLt; omega⟩, ⟨r.val / 8000 % 125, by omega⟩, ⟨r.val % 8000, by omega⟩)
  left_inv t := by
    obtain ⟨p, j, q⟩ := t
    have := p.isLt; have := j.isLt; have := q.isLt
    refine Prod.ext (Fin.ext ?_) (Prod.ext (Fin.ext ?_) (Fin.ext ?_)) <;> simp only [rowOf] <;> omega
  right_inv r := by
    have := r.isLt
    apply Fin.ext
    simp only [rowOf]
    omega

/-- A sum over the two million rows, regrouped by half, tile and row within the tile. -/
theorem sum_rows {M : Type*} [AddCommMonoid M] (f : Fin 2000000 → M) :
    ∑ r : Fin 2000000, f r = ∑ p : Fin 2, ∑ j : Fin 125, ∑ q : Fin 8000, f (rowOf p j q) := by
  -- reindex along the bijection, then split the sum over the product type one factor at a time
  rw [← Equiv.sum_comp rowEquiv f, Fintype.sum_prod_type]
  refine Finset.sum_congr rfl fun p _ => ?_
  rw [Fintype.sum_prod_type]
  rfl

/-- The segment sum, regrouped. -/
theorem segSum_tiles (x : Fin 2000000 → Fin 128 → EReal) (b : Fin 2000000 → BitVec 32) (g : Fin 256) (d : Fin 128) :
    segSum x b g d = ∑ p : Fin 2, ∑ j : Fin 125, ∑ q : Fin 8000,
      if b (rowOf p j q) = BitVec.ofNat 32 g.val then x (rowOf p j q) d else 0 := by
  unfold segSum; exact sum_rows _

/-- The segment count, regrouped. -/
theorem segCnt_tiles (b : Fin 2000000 → BitVec 32) (g : Fin 256) :
    segCnt b g = ∑ p : Fin 2, ∑ j : Fin 125, ∑ q : Fin 8000,
      if b (rowOf p j q) = BitVec.ofNat 32 g.val then (1 : EReal) else 0 := by
  unfold segCnt; exact sum_rows _

end Cert.Spec

end
-- ==== Proof.KI.AccValue.lean ====
/-
  The accumulators in closed form. Tile `j` of half `p` holds rows `8000·(125·p + j) … + 7999`; by induction on `j`
  the sums accumulator after point `125·p + j` holds, at `(g, d)`, the sum over the tiles `0 … j` of the half and
  over each tile's rows of feature `d` of the rows of segment `g` (the reset at `j = 0` starts it from zero), and the
  counts accumulator the number of those rows. At `j = 124` that is the whole half.
-/
import proofs.«403711_j17686675324958_1_alg».proof.Proof.KI.SegAcc
import proofs.«403711_j17686675324958_1_alg».proof.Proof.KI.TileValue
import proofs.«403711_j17686675324958_1_alg».proof.Proof.SumSplit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Spec (rowOf)

variable (V : (c : Dev nD) → (b : Ref sig .tc) → Buf (Elt Ideal) ((c : Thread nD τ).loc b))

/-- The feature array and the column of segment words as the launch finds them, at their literal types. -/
abbrev featsOf (c : Dev nD) : Vec Ideal S2000000x128 .f32 := V c main_arg0
abbrev wordsOf (c : Dev nD) : Vec Ideal S2000000x1 .i32 := V c main_v0

/-- The feature window's block number at point `t` is `t` on the rows and `0` on the columns. -/
theorem featIndex : ∀ t : Fin grid0.N, win0_0.index t (0 : Fin 2) = t.val ∧ win0_0.index t (1 : Fin 2) = 0 := by
  decide +kernel

/-- The word window's block number at point `t` is `t` on the rows and `0` on the single column. -/
theorem wordIndex : ∀ t : Fin grid0.N, win0_1.index t (0 : Fin 2) = t.val ∧ win0_1.index t (1 : Fin 2) = 0 := by
  decide +kernel

/-- Entry `(q, d)` of the feature tile at point `125·p + j` is row `rowOf p j q` of the feature array. -/
theorem xrows_apply (c : Dev nD) (p : Fin 2) (j : Fin 125) (h : 125 * p.val + j.val < cfg0.N) (q : Fin 8000) (d : Fin 128) :
    xrows V c ⟨125 * p.val + j.val, h⟩ (ix2 q d) = featsOf V c (ix2 (rowOf p j q) d) := by
  have hi : win0_0.index ⟨125 * p.val + j.val, h⟩ (0 : Fin 2) = 125 * p.val + j.val
      ∧ win0_0.index ⟨125 * p.val + j.val, h⟩ (1 : Fin 2) = 0 := featIndex ⟨125 * p.val + j.val, h⟩
  unfold xrows iblk0
  rw [View.read_apply]
  show V c main_arg0 _ = V c main_arg0 _
  congr 1
  funext a
  apply Fin.ext
  -- on each axis the array coordinate is block number × block size + 1 × the coordinate inside the block
  match a with
  | ⟨0, _⟩ =>
    show win0_0.index ⟨125 * p.val + j.val, h⟩ 0 * 8000 + 1 * q.val = (rowOf p j q).val
    rw [hi.1, Cert.Spec.rowOf_val]; omega
  | ⟨1, _⟩ =>
    show win0_0.index ⟨125 * p.val + j.val, h⟩ 1 * 128 + 1 * d.val = d.val
    rw [hi.2]; omega

/-- Entry `q` of the word tile at point `125·p + j` is the word of row `rowOf p j q`. -/
theorem segids_apply (c : Dev nD) (p : Fin 2) (j : Fin 125) (h : 125 * p.val + j.val < cfg0.N) (q : Fin 8000) :
    segids V c ⟨125 * p.val + j.val, h⟩ (ix2 q (0 : Fin 1)) = wordsOf V c (ix2 (rowOf p j q) (0 : Fin 1)) := by
  have hi : win0_1.index ⟨125 * p.val + j.val, h⟩ (0 : Fin 2) = 125 * p.val + j.val
      ∧ win0_1.index ⟨125 * p.val + j.val, h⟩ (1 : Fin 2) = 0 := wordIndex ⟨125 * p.val + j.val, h⟩
  unfold segids iblk0
  rw [View.read_apply]
  show V c main_v0 _ = V c main_v0 _
  congr 1
  funext a
  apply Fin.ext
  match a with
  | ⟨0, _⟩ =>
    show win0_1.index ⟨125 * p.val + j.val, h⟩ 0 * 8000 + 1 * q.val = (rowOf p j q).val
    rw [hi.1, Cert.Spec.rowOf_val]; omega
  | ⟨1, _⟩ =>
    show win0_1.index ⟨125 * p.val + j.val, h⟩ 1 * 1 + 1 * (0 : Fin 1).val = (0 : Fin 1).val
    rw [hi.2]; omega

/-! ## The accumulators tile by tile -/

/-- The accumulators at two equal point numbers are the same. -/
theorem accAt_congr (c : Dev nD) {n m : ℕ} (e : n = m) (hn : n < cfg0.N) (hm : m < cfg0.N) :
    accAt V c n hn = accAt V c m hm := by
  subst e; rfl

/-- Tile `j` of half `p` contributes this much to the sum of segment `g`, feature `d` (nothing past the grid). -/
def tileSumAt (c : Dev nD) (p : Fin 2) (g : Fin 256) (d : Fin 128) (j : ℕ) : EReal :=
  if hj : 125 * p.val + j < cfg0.N then
    tileSum (xrows V c ⟨125 * p.val + j, hj⟩) (segids V c ⟨125 * p.val + j, hj⟩) g d
  else 0

/-- Tile `j` of half `p` contributes this much to the count of segment `g` (nothing past the grid). -/
def tileCntAt (c : Dev nD) (p : Fin 2) (g : Fin 256) (j : ℕ) : EReal :=
  if hj : 125 * p.val + j < cfg0.N then tileCnt (segids V c ⟨125 * p.val + j, hj⟩) g else 0

/-- After point `125·p + j` (`j < 125`) the sums accumulator holds the contributions of tiles `0 … j` of half `p`:
    tile `0` resets, every later tile adds onto what the tile before left. -/
theorem acc_sums_upto (c : Dev nD) (p : Fin 2) (g : Fin 256) (d : Fin 128) :
    ∀ (j : ℕ) (h : 125 * p.val + j < cfg0.N), j < 125 →
      (accAt V c (125 * p.val + j) h).1 (ix2 g d) = ∑ j' ∈ Finset.range (j + 1), tileSumAt V c p g d j' := by
  intro j
  induction j with
  | zero =>
    intro h _
    have e : accAt V c (125 * p.val + 0) h = _ :=
      accAt_reset V c ⟨125 * p.val + 0, h⟩ (by show (125 * p.val + 0) % 125 = 0; omega)
    rw [e]
    show k0_pay4 _ _ k0_pay1 (ix2 g d) = _
    rw [pay4_apply, pay1_apply, zero_add, Finset.sum_range_one, tileSumAt, dif_pos h]
  | succ j ih =>
    intro h hj
    have hprev : 125 * p.val + j < cfg0.N := by omega
    have e : accAt V c (125 * p.val + (j + 1)) h = _ :=
      accAt_step V c ⟨125 * p.val + (j + 1), h⟩ (by show ¬(125 * p.val + (j + 1)) % 125 = 0; omega)
    rw [e]
    show k0_pay4 _ _ (accAt V c (125 * p.val + (j + 1) - 1) _).1 (ix2 g d) = _
    rw [pay4_apply, accAt_congr V c (show 125 * p.val + (j + 1) - 1 = 125 * p.val + j by omega) _ hprev,
      ih hprev (by omega), Finset.sum_range_succ _ (j + 1)]
    congr 1
    rw [tileSumAt, dif_pos h]

/-- After point `125·p + j` (`j < 125`) the counts accumulator holds the counts of tiles `0 … j` of half `p`. -/
theorem acc_cnts_upto (c : Dev nD) (p : Fin 2) (g : Fin 256) :
    ∀ (j : ℕ) (h : 125 * p.val + j < cfg0.N), j < 125 →
      (accAt V c (125 * p.val + j) h).2 (ix2 (0 : Fin 1) g) = ∑ j' ∈ Finset.range (j + 1), tileCntAt V c p g j' := by
  intro j
  induction j with
  | zero =>
    intro h _
    have e : accAt V c (125 * p.val + 0) h = _ :=
      accAt_reset V c ⟨125 * p.val + 0, h⟩ (by show (125 * p.val + 0) % 125 = 0; omega)
    rw [e]
    show k0_pay5 _ k0_pay2 (ix2 (0 : Fin 1) g) = _
    rw [pay5_apply, pay2_apply, zero_add, Finset.sum_range_one, tileCntAt, dif_pos h]
  | succ j ih =>
    intro h hj
    have hprev : 125 * p.val + j < cfg0.N := by omega
    have e : accAt V c (125 * p.val + (j + 1)) h = _ :=
      accAt_step V c ⟨125 * p.val + (j + 1), h⟩ (by show ¬(125 * p.val + (j + 1)) % 125 = 0; omega)
    rw [e]
    show k0_pay5 _ (accAt V c (125 * p.val + (j + 1) - 1) _).2 (ix2 (0 : Fin 1) g) = _
    rw [pay5_apply, accAt_congr V c (show 125 * p.val + (j + 1) - 1 = 125 * p.val + j by omega) _ hprev,
      ih hprev (by omega), Finset.sum_range_succ _ (j + 1)]
    congr 1
    rw [tileCntAt, dif_pos h]

/-! ## The whole half -/

/-- The grid has 250 points. -/
theorem gridPoints : cfg0.N = 250 := by decide +kernel

/-- After the last tile of half `p` the sums accumulator holds the half's segment sums. -/
theorem acc_sums_last (c : Dev nD) (p : Fin 2) (h : 125 * p.val + 124 < cfg0.N) (g : Fin 256) (d : Fin 128) :
    (accAt V c (125 * p.val + 124) h).1 (ix2 g d)
      = ∑ j : Fin 125, ∑ q : Fin 8000,
          if wordsOf V c (ix2 (rowOf p j q) (0 : Fin 1)) = BitVec.ofNat 32 g.val
          then featsOf V c (ix2 (rowOf p j q) d) else (0 : EReal) := by
  rw [acc_sums_upto V c p g d 124 h (by omega), Finset.sum_range]
  refine Finset.sum_congr rfl fun j _ => ?_
  have hj : 125 * p.val + j.val < cfg0.N := by
    have := p.isLt; have := j.isLt; rw [gridPoints]; omega
  rw [tileSumAt, dif_pos hj, tileSum]
  refine Finset.sum_congr rfl fun q _ => ?_
  rw [xrows_apply V c p j hj q d, segids_apply V c p j hj q]

/-- After the last tile of half `p` the counts accumulator holds the half's segment counts. -/
theorem acc_cnts_last (c : Dev nD) (p : Fin 2) (h : 125 * p.val + 124 < cfg0.N) (g : Fin 256) :
    (accAt V c (125 * p.val + 124) h).2 (ix2 (0 : Fin 1) g)
      = ∑ j : Fin 125, ∑ q : Fin 8000,
          if wordsOf V c (ix2 (rowOf p j q) (0 : Fin 1)) = BitVec.ofNat 32 g.val
          then (1 : EReal) else 0 := by
  rw [acc_cnts_upto V c p g 124 h (by omega), Finset.sum_range]
  refine Finset.sum_congr rfl fun j _ => ?_
  have hj : 125 * p.val + j.val < cfg0.N := by
    have := p.isLt; have := j.isLt; rw [gridPoints]; omega
  rw [tileCntAt, dif_pos hj, tileCnt]
  refine Finset.sum_congr rfl fun q _ => ?_
  rw [segids_apply V c p j hj q]

end Cert.KernelIdeal.Hand

end
-- ==== Proof.KI.SumsArray.lean ====
/-
  The two result arrays of the first launch, read off its write-backs. Window 2's block at point `t` is block
  `t / 125` of the [2, 256, 128] array and is written back only at the points `125·p + 124`, with the sums
  accumulator re-laid as one block; the two write-backs cover the array. Likewise the counts into [2, 1, 256].
-/
import proofs.«403711_j17686675324958_1_alg».proof.Proof.KI.SegAcc
import proofs.«403711_j17686675324958_1_alg».proof.Proof.KI.TileValue
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- The accumulators depend on the point, not on the proof of its bound. -/
theorem accAt_of_eq (c : Dev nD) {n n' : ℕ} (e : n = n') (h : n < cfg0.N) (h' : n' < cfg0.N) :
    accAt V c n h = accAt V c n' h' := by
  subst e; rfl

/-- The printed index maps of the two result windows over the grid: block `t / 125` on the first axis, block 0 on the others. -/
theorem sumsWin_index : ∀ t : Fin cfg0.N, win0_2.index t (0 : Fin 3) = t.val / 125 ∧ win0_2.index t (1 : Fin 3) = 0 ∧ win0_2.index t (2 : Fin 3) = 0 :=
  (by decide +kernel : ∀ t : Fin grid0.N, win0_2.index t (0 : Fin 3) = t.val / 125 ∧ win0_2.index t (1 : Fin 3) = 0 ∧ win0_2.index t (2 : Fin 3) = 0)

theorem cntsWin_index : ∀ t : Fin cfg0.N, win0_3.index t (0 : Fin 3) = t.val / 125 ∧ win0_3.index t (1 : Fin 3) = 0 ∧ win0_3.index t (2 : Fin 3) = 0 :=
  (by decide +kernel : ∀ t : Fin grid0.N, win0_3.index t (0 : Fin 3) = t.val / 125 ∧ win0_3.index t (1 : Fin 3) = 0 ∧ win0_3.index t (2 : Fin 3) = 0)

theorem lastTile_lt (a : Fin 2) : 125 * a.val + 124 < cfg0.N := by
  have := a.isLt
  rw [show cfg0.N = 250 from N_0]; omega

/-- The sums array as one function of its index: at `(p, g, d)` the sums accumulator after the last tile of half `p`, at `(g, d)`. -/
def sumsArr (c : Dev nD) : S2x256x128.Idx → EReal := fun i =>
  (accAt V c (125 * (i 0).val + 124) (lastTile_lt (i 0))).1 (ix2 (i 1 : Fin 256) (i 2 : Fin 128))

/-- The sums' copy to the result block at an index of the block. -/
theorem pay6_block (s : Vec Ideal S256x128 .f32) (j : S1x256x128.Idx) : k0_pay6 (F := Ideal) s j = s (ix2 (j 1 : Fin 256) (j 2 : Fin 128)) := by
  obtain ⟨a, g, d, rfl⟩ : ∃ (a : Fin 1) (g : Fin 256) (d : Fin 128), j = ix3 a g d := ⟨_, _, _, eq_ix3 j⟩
  obtain rfl : a = 0 := Subsingleton.elim _ _
  exact pay6_apply s g d

/-- `sumsArr` at an index of the block a point of remainder 124 writes back. -/
theorem sumsArr_at (c : Dev nD) (t : Fin cfg0.N) (hm : t.val % 125 = 124) (i : S2x256x128.Idx) (g : Fin 256) (d : Fin 128)
    (h0 : (i 0).val = t.val / 125) (h1 : (i 1).val = g.val) (h2 : (i 2).val = d.val) :
    sumsArr V c i = (accAt V c t.val t.isLt).1 (ix2 g d) := by
  obtain ⟨a, g', d', rfl⟩ : ∃ (a : Fin 2) (g' : Fin 256) (d' : Fin 128), i = ix3 a g' d' := ⟨_, _, _, eq_ix3 i⟩
  obtain rfl : g' = g := Fin.ext h1
  obtain rfl : d' = d := Fin.ext h2
  have h0' : a.val = t.val / 125 := h0
  show (accAt V c (125 * a.val + 124) _).1 (ix2 g' d') = _
  rw [accAt_of_eq V c (by omega : 125 * a.val + 124 = t.val) _ t.isLt]

/-- What a point that writes window 2's block back writes is its block of `sumsArr`. -/
theorem sumsWin_flushed (c : Dev nD) (t : Fin cfg0.N) (hf : (cfg0.win 2).flush t = true) :
    (dat0 V c).flushed 2 t = ((cfg0.win 2).blk t).view.read (Elt Ideal) (sumsArr V c) := by
  have hm : t.val % 125 = 124 := (flush0_2 t).mp hf
  obtain ⟨e0, e1, e2⟩ := sumsWin_index t
  show (cfg0.win 2).cut (grid0.coords t) ((dat0 V c).after 2 t) = _
  rw [after0_2]
  funext y
  rw [View.read_apply]
  have y0 : (y 0).val < 1 := (y 0).isLt
  have y1 : (y 1).val < 256 := (y 1).isLt
  have y2 : (y 2).val < 128 := (y 2).isLt
  refine (pay6_block (accAt V c t.val t.isLt).1 ((cfg0.win 2).xinj (grid0.coords t) y)).trans ?_
  refine (sumsArr_at V c t hm _ _ _ ?_ ?_ ?_).symm
  · show win0_2.index t (0 : Fin 3) * 1 + 1 * (y 0).val = t.val / 125
    omega
  · show win0_2.index t (1 : Fin 3) * 256 + 1 * (y 1).val = (y 1).val
    omega
  · show win0_2.index t (2 : Fin 3) * 128 + 1 * (y 2).val = (y 2).val
    omega

/-- An index of the sums array is in point `t`'s block iff each coordinate is in the block's range on its axis. -/
theorem mem_sumsWin_blk (t : Fin cfg0.N) (i : S2x256x128.Idx) :
    i ∈ ((cfg0.win 2).blk t).view.set ↔ ∀ a : Fin 3, win0_2.index t a * S1x256x128.size a ≤ (i a).val ∧ (i a).val < win0_2.index t a * S1x256x128.size a + S1x256x128.size a := by
  show i ∈ ((View.whole main_v1_0).slice (win0_2.rect t)).set ↔ _
  rw [View.set_slice_whole, Rect.mem_set_unit]
  exact Iff.rfl

/-- The two blocks written back cover the sums array: index `(p, g, d)` is in the block of point `125·p + 124`. -/
theorem sumsWin_cover (i : S2x256x128.Idx) :
    ∃ t : Fin cfg0.N, (cfg0.win 2).flush t = true ∧ i ∈ ((cfg0.win 2).blk t).view.set := by
  have i0 : (i 0).val < 2 := (i 0).isLt
  have i1 : (i 1).val < 256 := (i 1).isLt
  have i2 : (i 2).val < 128 := (i 2).isLt
  have ht : (⟨125 * (i 0).val + 124, lastTile_lt (i 0)⟩ : Fin cfg0.N).val = 125 * (i 0).val + 124 := rfl
  generalize (⟨125 * (i 0).val + 124, lastTile_lt (i 0)⟩ : Fin cfg0.N) = t at ht
  obtain ⟨e0, e1, e2⟩ := sumsWin_index t
  refine ⟨t, (flush0_2 t).mpr (by omega), ?_⟩
  rw [mem_sumsWin_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 128 ≤ (i 2).val ∧ (i 2).val < win0_2.index t (2 : Fin 3) * 128 + 128; omega

/-- The sums array after the launch is `sumsArr`. -/
theorem sumsWin_final (c : Dev nD) : (dat0 V c).arrAt 2 cfg0.N = sumsArr V c :=
  (dat0 V c).arrAt_eq_of_cover 2 (sumsArr V c) (sumsWin_flushed V c) sumsWin_cover

/-- Block `p` of the sums array after the launch is the sums accumulator after the last tile of half `p`. -/
theorem arr_sums (c : Dev nD) (p : Fin 2) (h : 125 * p.val + 124 < cfg0.N) (g : Fin 256) (d : Fin 128) :
    ((dat0 V c).arrAt 2 cfg0.N : S2x256x128.Idx → EReal) (ix3 p g d) = (accAt V c (125 * p.val + 124) h).1 (ix2 g d) := by
  rw [sumsWin_final V c]
  rfl

/-- The counts array as one function of its index: at `(p, 0, g)` the counts accumulator after the last tile of half `p`, at `(0, g)`. -/
def cntsArr (c : Dev nD) : S2x1x256.Idx → EReal := fun i =>
  (accAt V c (125 * (i 0).val + 124) (lastTile_lt (i 0))).2 (ix2 (0 : Fin 1) (i 2 : Fin 256))

/-- The counts' copy to the result block at an index of the block. -/
theorem pay7_block (s : Vec Ideal S1x256 .f32) (j : S1x1x256.Idx) : k0_pay7 (F := Ideal) s j = s (ix2 (0 : Fin 1) (j 2 : Fin 256)) := by
  obtain ⟨a, b, g, rfl⟩ : ∃ (a : Fin 1) (b : Fin 1) (g : Fin 256), j = ix3 a b g := ⟨_, _, _, eq_ix3 j⟩
  obtain rfl : a = 0 := Subsingleton.elim _ _
  obtain rfl : b = 0 := Subsingleton.elim _ _
  exact pay7_apply s g

/-- `cntsArr` at an index of the block a point of remainder 124 writes back. -/
theorem cntsArr_at (c : Dev nD) (t : Fin cfg0.N) (hm : t.val % 125 = 124) (i : S2x1x256.Idx) (g : Fin 256)
    (h0 : (i 0).val = t.val / 125) (h2 : (i 2).val = g.val) :
    cntsArr V c i = (accAt V c t.val t.isLt).2 (ix2 (0 : Fin 1) g) := by
  obtain ⟨a, b, g', rfl⟩ : ∃ (a : Fin 2) (b : Fin 1) (g' : Fin 256), i = ix3 a b g' := ⟨_, _, _, eq_ix3 i⟩
  obtain rfl : g' = g := Fin.ext h2
  have h0' : a.val = t.val / 125 := h0
  show (accAt V c (125 * a.val + 124) _).2 (ix2 (0 : Fin 1) g') = _
  rw [accAt_of_eq V c (by omega : 125 * a.val + 124 = t.val) _ t.isLt]

/-- What a point that writes window 3's block back writes is its block of `cntsArr`. -/
theorem cntsWin_flushed (c : Dev nD) (t : Fin cfg0.N) (hf : (cfg0.win 3).flush t = true) :
    (dat0 V c).flushed 3 t = ((cfg0.win 3).blk t).view.read (Elt Ideal) (cntsArr V c) := by
  have hm : t.val % 125 = 124 := (flush0_3 t).mp hf
  obtain ⟨e0, e1, e2⟩ := cntsWin_index t
  show (cfg0.win 3).cut (grid0.coords t) ((dat0 V c).after 3 t) = _
  rw [after0_3]
  funext y
  rw [View.read_apply]
  have y0 : (y 0).val < 1 := (y 0).isLt
  have y2 : (y 2).val < 256 := (y 2).isLt
  refine (pay7_block (accAt V c t.val t.isLt).2 ((cfg0.win 3).xinj (grid0.coords t) y)).trans ?_
  refine (cntsArr_at V c t hm _ _ ?_ ?_).symm
  · show win0_3.index t (0 : Fin 3) * 1 + 1 * (y 0).val = t.val / 125
    omega
  · show win0_3.index t (2 : Fin 3) * 256 + 1 * (y 2).val = (y 2).val
    omega

/-- An index of the counts array is in point `t`'s block iff each coordinate is in the block's range on its axis. -/
theorem mem_cntsWin_blk (t : Fin cfg0.N) (i : S2x1x256.Idx) :
    i ∈ ((cfg0.win 3).blk t).view.set ↔ ∀ a : Fin 3, win0_3.index t a * S1x1x256.size a ≤ (i a).val ∧ (i a).val < win0_3.index t a * S1x1x256.size a + S1x1x256.size a := by
  show i ∈ ((View.whole main_v1_1).slice (win0_3.rect t)).set ↔ _
  rw [View.set_slice_whole, Rect.mem_set_unit]
  exact Iff.rfl

/-- The two blocks written back cover the counts array: index `(p, 0, g)` is in the block of point `125·p + 124`. -/
theorem cntsWin_cover (i : S2x1x256.Idx) :
    ∃ t : Fin cfg0.N, (cfg0.win 3).flush t = true ∧ i ∈ ((cfg0.win 3).blk t).view.set := by
  have i0 : (i 0).val < 2 := (i 0).isLt
  have i1 : (i 1).val < 1 := (i 1).isLt
  have i2 : (i 2).val < 256 := (i 2).isLt
  have ht : (⟨125 * (i 0).val + 124, lastTile_lt (i 0)⟩ : Fin cfg0.N).val = 125 * (i 0).val + 124 := rfl
  generalize (⟨125 * (i 0).val + 124, lastTile_lt (i 0)⟩ : Fin cfg0.N) = t at ht
  obtain ⟨e0, e1, e2⟩ := cntsWin_index t
  refine ⟨t, (flush0_3 t).mpr (by omega), ?_⟩
  rw [mem_cntsWin_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 256 ≤ (i 2).val ∧ (i 2).val < win0_3.index t (2 : Fin 3) * 256 + 256; omega

/-- The counts array after the launch is `cntsArr`. -/
theorem cntsWin_final (c : Dev nD) : (dat0 V c).arrAt 3 cfg0.N = cntsArr V c :=
  (dat0 V c).arrAt_eq_of_cover 3 (cntsArr V c) (cntsWin_flushed V c) cntsWin_cover

/-- Block `p` of the counts array after the launch is the counts accumulator after the last tile of half `p`. -/
theorem arr_cnts (c : Dev nD) (p : Fin 2) (h : 125 * p.val + 124 < cfg0.N) (g : Fin 256) :
    ((dat0 V c).arrAt 3 cfg0.N : S2x1x256.Idx → EReal) (ix3 p (0 : Fin 1) g) = (accAt V c (125 * p.val + 124) h).2 (ix2 (0 : Fin 1) g) := by
  rw [cntsWin_final V c]
  rfl

end Cert.KernelIdeal.Hand

end
-- ==== Proof.KI.HeadValue.lean ====
/-
  The head's arithmetic on the extended reals, index by index: the quotient of each sum by its segment's count,
  contracted with the first weight matrix, plus the first bias, clamped below at zero, contracted with the second
  weight column, plus the second bias. Each contraction from a zero accumulator is the plain sum of products.
-/
import proofs.«403711_j17686675324958_1_alg».proof.Proof.Gen.KernelIdeal.Skeleton
import proofs.«403711_j17686675324958_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first contraction, `[256, 128] · [128, 64]`: its operand indices axis by axis -/

/-- The left operand's row is the output's row. -/
theorem lhs_mean_0 (i : S256x64.Idx) (q : dot_S256x128_S128x64_S256x64_1_0_0_1_n_n.contr.Idx) :
    (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide), dif_pos (show (0 : Fin S256x128.rank) ∈ dot_S256x128_S128x64_S256x64_1_0_0_1_n_n.lhsNonContracting by decide)]
  rfl
/-- The left operand's column is the contracted coordinate. -/
theorem lhs_mean_1 (i : S256x64.Idx) (q : dot_S256x128_S128x64_S256x64_1_0_0_1_n_n.contr.Idx) :
    (dot_S256x128_S128x64_S256x64_1_0_0_1_n_n.lhsIdx i q 1).val = (q ⟨0, by decide⟩).val :=
  dot_S256x128_S128x64_S256x64_1_0_0_1_n_n.lhsIdx_val_of_single rfl i q
/-- The right operand's row is the contracted coordinate. -/
theorem rhs_mean_0 (i : S256x64.Idx) (q : dot_S256x128_S128x64_S256x64_1_0_0_1_n_n.contr.Idx) :
    (dot_S256x128_S128x64_S256x64_1_0_0_1_n_n.rhsIdx i q 0).val = (q ⟨0, by decide⟩).val :=
  dot_S256x128_S128x64_S256x64_1_0_0_1_n_n.rhsIdx_val_of_single rfl i q
/-- The right operand's column is the output's column. -/
theorem rhs_mean_1 (i : S256x64.Idx) (q : dot_S256x128_S128x64_S256x64_1_0_0_1_n_n.contr.Idx) :
    (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide), dif_pos (show (1 : Fin S128x64.rank) ∈ dot_S256x128_S128x64_S256x64_1_0_0_1_n_n.rhsNonContracting by decide)]
  rfl

/-- From a zero accumulator the first contraction at `(g, j)` is `∑ k, A (g, k) * B (k, j)`. -/
theorem matmul_mean_apply (A : FVec Ideal S256x128 .f32) (B : FVec Ideal S128x64 .f32) (g : Fin 256) (j : Fin 64) :
    matmul dot_S256x128_S128x64_S256x64_1_0_0_1_n_n none A B (constant (F := Ideal) S256x64 .f32 0x00000000#32) (ix2 g j)
      = ∑ k : Fin 128, A (ix2 g k) * B (ix2 k j) := by
  simp only [matmul]
  rw [Ideal.matmul_constant_zero_apply, ← Equiv.sum_comp (contrEquiv1 dot_S256x128_S128x64_S256x64_1_0_0_1_n_n 128 rfl rfl).symm]
  refine Finset.sum_congr rfl fun k _ => ?_
  have hk := contrEquiv1_symm_val dot_S256x128_S128x64_S256x64_1_0_0_1_n_n 128 rfl rfl k
  have el : dot_S256x128_S128x64_S256x64_1_0_0_1_n_n.lhsIdx (ix2 g j) ((contrEquiv1 dot_S256x128_S128x64_S256x64_1_0_0_1_n_n 128 rfl rfl).symm k) = ix2 g k := funext fun a => Fin.ext (by
    match a with
    | ⟨0, _⟩ => exact lhs_mean_0 _ _
    | ⟨1, _⟩ => exact (lhs_mean_1 _ _).trans hk)
  have er : dot_S256x128_S128x64_S256x64_1_0_0_1_n_n.rhsIdx (ix2 g j) ((contrEquiv1 dot_S256x128_S128x64_S256x64_1_0_0_1_n_n 128 rfl rfl).symm k) = ix2 k j := funext fun a => Fin.ext (by
    match a with
    | ⟨0, _⟩ => exact (rhs_mean_0 _ _).trans hk
    | ⟨1, _⟩ => exact rhs_mean_1 _ _)
  rw [el, er]

/-! ## The second contraction, `[256, 64] · [64, 1]`: its operand indices axis by axis -/

/-- The left operand's row is the output's row. -/
theorem lhs_out_0 (i : S256x1.Idx) (q : dot_S256x64_S64x1_S256x1_1_0_0_1_n_n.contr.Idx) :
    (dot_S256x64_S64x1_S256x1_1_0_0_1_n_n.lhsIdx i q 0).val = (i 0).val := by
  unfold DotDims.lhsIdx
  rw [dif_neg (show ¬(0 : Fin S256x64.rank) ∈ dot_S256x64_S64x1_S256x1_1_0_0_1_n_n.lhsBatch by decide), dif_pos (show (0 : Fin S256x64.rank) ∈ dot_S256x64_S64x1_S256x1_1_0_0_1_n_n.lhsNonContracting by decide)]
  rfl
/-- The left operand's column is the contracted coordinate. -/
theorem lhs_out_1 (i : S256x1.Idx) (q : dot_S256x64_S64x1_S256x1_1_0_0_1_n_n.contr.Idx) :
    (dot_S256x64_S64x1_S256x1_1_0_0_1_n_n.lhsIdx i q 1).val = (q ⟨0, by decide⟩).val :=
  dot_S256x64_S64x1_S256x1_1_0_0_1_n_n.lhsIdx_val_of_single rfl i q
/-- The right operand's row is the contracted coordinate. -/
theorem rhs_out_0 (i : S256x1.Idx) (q : dot_S256x64_S64x1_S256x1_1_0_0_1_n_n.contr.Idx) :
    (dot_S256x64_S64x1_S256x1_1_0_0_1_n_n.rhsIdx i q 0).val = (q ⟨0, by decide⟩).val :=
  dot_S256x64_S64x1_S256x1_1_0_0_1_n_n.rhsIdx_val_of_single rfl i q
/-- The right operand's column is the output's column. -/
theorem rhs_out_1 (i : S256x1.Idx) (q : dot_S256x64_S64x1_S256x1_1_0_0_1_n_n.contr.Idx) :
    (dot_S256x64_S64x1_S256x1_1_0_0_1_n_n.rhsIdx i q 1).val = (i 1).val := by
  unfold DotDims.rhsIdx
  rw [dif_neg (show ¬(1 : Fin S64x1.rank) ∈ dot_S256x64_S64x1_S256x1_1_0_0_1_n_n.rhsBatch by decide), dif_pos (show (1 : Fin S64x1.rank) ∈ dot_S256x64_S64x1_S256x1_1_0_0_1_n_n.rhsNonContracting by decide)]
  rfl

/-- From a zero accumulator the second contraction at `(g, 0)` is `∑ j, A (g, j) * B (j, 0)`. -/
theorem matmul_out_apply (A : FVec Ideal S256x64 .f32) (B : FVec Ideal S64x1 .f32) (g : Fin 256) (c : Fin 1) :
    matmul dot_S256x64_S64x1_S256x1_1_0_0_1_n_n none A B (constant (F := Ideal) S256x1 .f32 0x00000000#32) (ix2 g c)
      = ∑ j : Fin 64, A (ix2 g j) * B (ix2 j c) := by
  simp only [matmul]
  rw [Ideal.matmul_constant_zero_apply, ← Equiv.sum_comp (contrEquiv1 dot_S256x64_S64x1_S256x1_1_0_0_1_n_n 64 rfl rfl).symm]
  refine Finset.sum_congr rfl fun k _ => ?_
  have hk := contrEquiv1_symm_val dot_S256x64_S64x1_S256x1_1_0_0_1_n_n 64 rfl rfl k
  have el : dot_S256x64_S64x1_S256x1_1_0_0_1_n_n.lhsIdx (ix2 g c) ((contrEquiv1 dot_S256x64_S64x1_S256x1_1_0_0_1_n_n 64 rfl rfl).symm k) = ix2 g k := funext fun a => Fin.ext (by
    match a with
    | ⟨0, _⟩ => exact lhs_out_0 _ _
    | ⟨1, _⟩ => exact (lhs_out_1 _ _).trans hk)
  have er : dot_S256x64_S64x1_S256x1_1_0_0_1_n_n.rhsIdx (ix2 g c) ((contrEquiv1 dot_S256x64_S64x1_S256x1_1_0_0_1_n_n 64 rfl rfl).symm k) = ix2 k c := funext fun a => Fin.ext (by
    match a with
    | ⟨0, _⟩ => exact (rhs_out_0 _ _).trans hk
    | ⟨1, _⟩ => exact rhs_out_1 _ _)
  rw [el, er]

/-! ## The head at a row -/

/-- The head's stored value at row `g` is `Spec.head` of its six inputs read entry by entry. -/
theorem pay_head_apply (S : Vec Ideal S256x128 .f32) (C : Vec Ideal S256x1 .f32) (W1 : Vec Ideal S128x64 .f32)
    (B1 : Vec Ideal S1x64 .f32) (W2 : Vec Ideal S64x1 .f32) (B2 : Vec Ideal S1x1 .f32) (g : Fin 256) :
    k1_pay1 (F := Ideal) S C W1 B1 W2 B2 (ix2 g (0 : Fin 1))
      = Cert.Spec.head (fun g k => S (ix2 g k)) (fun g => C (ix2 g (0 : Fin 1))) (fun k j => W1 (ix2 k j))
          (fun j => B1 (ix2 (0 : Fin 1) j)) (fun j => W2 (ix2 j (0 : Fin 1))) (B2 (ix2 (0 : Fin 1) (0 : Fin 1))) g := by
  unfold k1_pay1 Cert.Spec.head
  simp only [shapeCast_self]
  rw [addf_apply, matmul_out_apply, broadcastTo_1b_ab_apply]
  simp only [maximumf_apply, addf_apply, matmul_mean_apply, divf_apply, broadcastTo_a1_ab_apply, broadcastTo_1b_ab_apply,
    broadcast_apply]
  show _ = (∑ j : Fin 64, max ((∑ k : Fin 128, Ideal.div (S (ix2 g k)) (C (ix2 g (0 : Fin 1))) * W1 (ix2 k j))
    + B1 (ix2 (0 : Fin 1) j)) 0 * W2 (ix2 j (0 : Fin 1))) + B2 (ix2 (0 : Fin 1) (0 : Fin 1))
  have hz : (Scalar.ofBits .f32 0x00000000#32 : Ideal .f32) = 0 := Ideal.ofBits_zero_f32
  rw [hz]

end Cert.KernelIdeal.Hand

end
-- ==== Proof.KI.KernelValue.lean ====
/-
  The kernel's result array on the extended reals. After the second launch the result array holds the head's stored
  value (its one block covers the array); the head's inputs are the arrays the second launch was entered from: the
  host's sum over the two halves of the first launch's sums array, the same for the counts re-laid as a column, the
  weights, and the biases re-laid as rows. The first launch's arrays are the accumulators after each half's last
  tile, in closed form the half's segment sums and counts; the two halves together are all the rows.
-/
import proofs.«403711_j17686675324958_1_alg».proof.Proof.KI.Launch
import proofs.«403711_j17686675324958_1_alg».proof.Proof.KI.AccValue
import proofs.«403711_j17686675324958_1_alg».proof.Proof.KI.SumsArray
import proofs.«403711_j17686675324958_1_alg».proof.Proof.KI.HeadValue
import proofs.«403711_j17686675324958_1_alg».proof.Proof.SumSplit
import Idealize.ShloMosaic.PureOps.Ideal.Laws
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Spec (rowOf)

variable (m : (ℓ : Loc nD τ sig) → Buf (Elt Ideal) ℓ)

/-! ## What the first launch is entered from -/

/-- The features as the first launch finds them: the argument. -/
theorem ent0_feats (c : Dev nD) : ent0 m c main_arg0 = m ((c.tc : Thread nD τ).loc main_arg0) :=
  (Gen.V1_of m c main_arg0 (by decide)).trans rfl

/-- The segment words as the first launch finds them: the argument re-laid as a column. -/
theorem ent0_words_eq (c : Dev nD) :
    (ent0 m c main_v0 : Vec Ideal S2000000x1 .i32)
      = shapeCast S2000000x1 (m ((c.tc : Thread nD τ).loc main_arg1) : Vec Ideal S2000000 .i32) shapeCasts_S2000000_S2000000x1 := by
  show StableHlo.after Gen.hostOps0 (fun b => m (c, b)) (Proc.devRef .tc main_v0) = _
  after_results
  rfl

/-! ## The first launch's two result arrays, at their literal types -/

abbrev sumsOut (c : Dev nD) : Vec Ideal S2x256x128 .f32 := (dat0 (ent0 m) c).arrAt 2 cfg0.N
abbrev cntsOut (c : Dev nD) : Vec Ideal S2x1x256 .f32 := (dat0 (ent0 m) c).arrAt 3 cfg0.N

theorem exit0_sums (c : Dev nD) : exit0 m c main_v1_0 = sumsOut m c := by
  unfold exit0; exact Pipeline.withArrays_arr spec0 launch0.win.arr_inj c _ _ 2
theorem exit0_cnts (c : Dev nD) : exit0 m c main_v1_1 = cntsOut m c := by
  unfold exit0; exact Pipeline.withArrays_arr spec0 launch0.win.arr_inj c _ _ 3

theorem V2_sums (c : Dev nD) : Gen.V2 m (outsA m) c main_v1_0 = sumsOut m c := by
  show Function.update (Function.update (Gen.V1 m c) main_v1_0 (outsA m 2 main_v1_0 c)) main_v1_1 (outsA m 2 main_v1_1 c) main_v1_0 = _
  rw [Function.update_of_ne (StableHlo.devRef_ne_of_ne (by decide) : (Proc.devRef .tc main_v1_0 : DevRef τ sig) ≠ Proc.devRef .tc main_v1_1),
    Function.update_self]
  exact exit0_sums m c
theorem V2_cnts (c : Dev nD) : Gen.V2 m (outsA m) c main_v1_1 = cntsOut m c := by
  show Function.update (Function.update (Gen.V1 m c) main_v1_0 (outsA m 2 main_v1_0 c)) main_v1_1 (outsA m 2 main_v1_1 c) main_v1_1 = _
  rw [Function.update_self]
  exact exit0_cnts m c

/-! ## What the second launch is entered from -/

theorem ent1_sums_eq (c : Dev nD) :
    (ent1 m c main_v2 : Vec Ideal S256x128 .f32)
      = Host.reduceAdd (F := Ideal) (sumsOut m c) (constant S_ .f32 0x00000000#32) reducesTo_S2x256x128_S256x128_d0 h_S_ := by
  show StableHlo.after Gen.hostOps1 (Gen.V2 m (outsA m) c) (Proc.devRef .tc main_v2) = _
  after_results
  rw [V2_sums]

theorem ent1_cnts_eq (c : Dev nD) :
    (ent1 m c main_v4 : Vec Ideal S256x1 .f32)
      = shapeCast S256x1 (Host.reduceAdd (F := Ideal) (cntsOut m c) (constant S_ .f32 0x00000000#32) reducesTo_S2x1x256_S1x256_d0 h_S_ : Vec Ideal S1x256 .f32) shapeCasts_S1x256_S256x1 := by
  show StableHlo.after Gen.hostOps1 (Gen.V2 m (outsA m) c) (Proc.devRef .tc main_v4) = _
  after_results
  rw [V2_cnts]
  rfl

theorem ent1_W1 (c : Dev nD) : ent1 m c main_arg2 = m ((c.tc : Thread nD τ).loc main_arg2) :=
  (Gen.V3_of m (outsA m) c main_arg2 (by decide)).trans <| (Gen.V2_of m (outsA m) c main_arg2 (by decide)).trans <| (Gen.V1_of m c main_arg2 (by decide)).trans rfl
theorem ent1_W2 (c : Dev nD) : ent1 m c main_arg4 = m ((c.tc : Thread nD τ).loc main_arg4) :=
  (Gen.V3_of m (outsA m) c main_arg4 (by decide)).trans <| (Gen.V2_of m (outsA m) c main_arg4 (by decide)).trans <| (Gen.V1_of m c main_arg4 (by decide)).trans rfl

theorem ent1_B1_eq (c : Dev nD) :
    (ent1 m c main_v5 : Vec Ideal S1x64 .f32)
      = shapeCast S1x64 (m ((c.tc : Thread nD τ).loc main_arg3) : Vec Ideal S64 .f32) shapeCasts_S64_S1x64 := by
  show StableHlo.after Gen.hostOps1 (Gen.V2 m (outsA m) c) (Proc.devRef .tc main_v5) = _
  after_results
  rw [show Gen.V2 m (outsA m) c main_arg3 = m ((c.tc : Thread nD τ).loc main_arg3) from
    (Gen.V2_of m (outsA m) c main_arg3 (by decide)).trans ((Gen.V1_of m c main_arg3 (by decide)).trans rfl)]
  rfl
theorem ent1_B2_eq (c : Dev nD) :
    (ent1 m c main_v6 : Vec Ideal S1x1 .f32)
      = shapeCast S1x1 (m ((c.tc : Thread nD τ).loc main_arg5) : Vec Ideal S1 .f32) shapeCasts_S1_S1x1 := by
  show StableHlo.after Gen.hostOps1 (Gen.V2 m (outsA m) c) (Proc.devRef .tc main_v6) = _
  after_results
  rw [show Gen.V2 m (outsA m) c main_arg5 = m ((c.tc : Thread nD τ).loc main_arg5) from
    (Gen.V2_of m (outsA m) c main_arg5 (by decide)).trans ((Gen.V1_of m c main_arg5 (by decide)).trans rfl)]
  rfl

/-! ## Read at an index -/

theorem ent0_words (c : Dev nD) (r : Fin 2000000) :
    wordsOf (ent0 m) c (ix2 r (0 : Fin 1)) = (m ((c.tc : Thread nD τ).loc main_arg1) : Vec Ideal S2000000 .i32) (ix1 r) := by
  show (ent0 m c main_v0 : Vec Ideal S2000000x1 .i32) (ix2 r (0 : Fin 1)) = _
  rw [ent0_words_eq]
  exact shapeCast_apply _ _ _ _ (by
    show (S2000000.rowMajor (ix1 r)).val = (S2000000x1.rowMajor (ix2 r (0 : Fin 1))).val
    rw [Shape.rowMajor_val_one, Shape.rowMajor_val_two]
    show r.val = r.val * 1 + 0; omega)

theorem ent1_B1 (c : Dev nD) (j : Fin 64) :
    (ent1 m c main_v5 : Vec Ideal S1x64 .f32) (ix2 (0 : Fin 1) j) = (m ((c.tc : Thread nD τ).loc main_arg3) : Vec Ideal S64 .f32) (ix1 j) := by
  rw [ent1_B1_eq]; exact shapeCast_a_1a_apply _ _ _ _

theorem ent1_B2 (c : Dev nD) :
    (ent1 m c main_v6 : Vec Ideal S1x1 .f32) (ix2 (0 : Fin 1) (0 : Fin 1)) = (m ((c.tc : Thread nD τ).loc main_arg5) : Vec Ideal S1 .f32) (ix1 (0 : Fin 1)) := by
  rw [ent1_B2_eq]; exact shapeCast_a_1a_apply _ _ _ _

theorem pt_lt (p : Fin 2) : 125 * p.val + 124 < cfg0.N := by
  show 125 * p.val + 124 < grid0.N
  rw [N_0]; have := p.isLt; omega

/-- The host's sum of the two halves of the sums array, at `(g, k)`: the segment sum. -/
theorem ent1_sums (c : Dev nD) (g : Fin 256) (k : Fin 128) :
    (ent1 m c main_v2 : Vec Ideal S256x128 .f32) (ix2 g k)
      = Cert.Spec.segSum (fun r d => (m ((c.tc : Thread nD τ).loc main_arg0) : Vec Ideal S2000000x128 .f32) (ix2 r d))
          (fun r => (m ((c.tc : Thread nD τ).loc main_arg1) : Vec Ideal S2000000 .i32) (ix1 r)) g k := by
  rw [ent1_sums_eq, Cert.Spec.segSum_tiles]
  show Ideal.hostReduceAdd reducesTo_S2x256x128_S256x128_d0 (sumsOut m c) (Ideal.ofBits .f32 0x00000000#32) (ix2 g k) = _
  rw [Ideal.hostReduceAdd_single reducesTo_S2x256x128_S256x128_d0 (by decide : S2x256x128.Reduces [0] S256x128), Ideal.ofBits_zero_f32, zero_add]
  refine Finset.sum_congr rfl fun p _ => ?_
  have hl : (Shape.Reduces.lift (by decide : S2x256x128.Reduces [0] S256x128) (ix2 g k) p) = ix3 (p : Fin 2) g k := by
    funext a
    match a with
    | ⟨0, _⟩ => rfl
    | ⟨1, _⟩ => rfl
    | ⟨2, _⟩ => rfl
  rw [hl]
  show ((dat0 (ent0 m) c).arrAt 2 cfg0.N : S2x256x128.Idx → EReal) (ix3 (p : Fin 2) g k) = _
  rewrite [arr_sums (ent0 m) c p (pt_lt p) g k, acc_sums_last (ent0 m) c p (pt_lt p) g k]
  show @Eq EReal _ _
  refine Finset.sum_congr rfl fun j _ => Finset.sum_congr rfl fun q _ => ?_
  rw [ent0_words]
  rfl

/-- The host's sum of the two halves of the counts array, re-laid as a column, at `(g, 0)`: the segment count. -/
theorem ent1_cnts (c : Dev nD) (g : Fin 256) :
    (ent1 m c main_v4 : Vec Ideal S256x1 .f32) (ix2 g (0 : Fin 1))
      = Cert.Spec.segCnt (fun r => (m ((c.tc : Thread nD τ).loc main_arg1) : Vec Ideal S2000000 .i32) (ix1 r)) g := by
  rw [ent1_cnts_eq, Cert.Spec.segCnt_tiles]
  rw [shapeCast_apply _ _ (ix2 g (0 : Fin 1)) (ix2 (0 : Fin 1) g) (by
    rw [Shape.rowMajor_val_two, Shape.rowMajor_val_two]
    show (0 : ℕ) * 256 + g.val = g.val * 1 + 0; omega)]
  show Ideal.hostReduceAdd reducesTo_S2x1x256_S1x256_d0 (cntsOut m c) (Ideal.ofBits .f32 0x00000000#32) (ix2 (0 : Fin 1) g) = _
  rw [Ideal.hostReduceAdd_single reducesTo_S2x1x256_S1x256_d0 (by decide : S2x1x256.Reduces [0] S1x256), Ideal.ofBits_zero_f32, zero_add]
  refine Finset.sum_congr rfl fun p _ => ?_
  have hl : (Shape.Reduces.lift (by decide : S2x1x256.Reduces [0] S1x256) (ix2 (0 : Fin 1) g) p) = ix3 (p : Fin 2) (0 : Fin 1) g := by
    funext a
    match a with
    | ⟨0, _⟩ => rfl
    | ⟨1, _⟩ => rfl
    | ⟨2, _⟩ => rfl
  rw [hl]
  show ((dat0 (ent0 m) c).arrAt 3 cfg0.N : S2x1x256.Idx → EReal) (ix3 (p : Fin 2) (0 : Fin 1) g) = _
  rewrite [arr_cnts (ent0 m) c p (pt_lt p) g, acc_cnts_last (ent0 m) c p (pt_lt p) g]
  show @Eq EReal _ _
  refine Finset.sum_congr rfl fun j _ => Finset.sum_congr rfl fun q _ => ?_
  rw [ent0_words]

/-! ## The second launch: each window's block is its whole array -/

/-- At the one point every block index is zero. -/
theorem idx1 : ∀ t : Fin cfg1.N,
    (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

theorem hSums_eq (c : Dev nD) (t : Fin cfg1.N) : hSums (ent1 m) c t = (ent1 m c main_v2 : Vec Ideal S256x128 .f32) := by
  funext j
  show (ent1 m c main_v2 : Vec Ideal S256x128 .f32) (((cfg1.win 0).blk t).view.emb j) = (ent1 m c main_v2 : Vec Ideal S256x128 .f32) j
  congr 1; funext a; apply Fin.ext
  obtain ⟨⟨e0, e1⟩, -⟩ := idx1 t
  match a with
  | ⟨0, _⟩ => show win1_0.index t (0 : Fin 2) * 256 + 1 * (j 0).val = (j 0).val; rw [e0]; omega
  | ⟨1, _⟩ => show win1_0.index t (1 : Fin 2) * 128 + 1 * (j 1).val = (j 1).val; rw [e1]; omega

theorem hCnts_eq (c : Dev nD) (t : Fin cfg1.N) : hCnts (ent1 m) c t = (ent1 m c main_v4 : Vec Ideal S256x1 .f32) := by
  funext j
  show (ent1 m c main_v4 : Vec Ideal S256x1 .f32) (((cfg1.win 1).blk t).view.emb j) = (ent1 m c main_v4 : Vec Ideal S256x1 .f32) j
  congr 1; funext a; apply Fin.ext
  obtain ⟨-, ⟨e0, e1⟩, -⟩ := idx1 t
  match a with
  | ⟨0, _⟩ => show win1_1.index t (0 : Fin 2) * 256 + 1 * (j 0).val = (j 0).val; rw [e0]; omega
  | ⟨1, _⟩ => show win1_1.index t (1 : Fin 2) * 1 + 1 * (j 1).val = (j 1).val; rw [e1]; omega

theorem hW1_eq (c : Dev nD) (t : Fin cfg1.N) : hW1 (ent1 m) c t = (ent1 m c main_arg2 : Vec Ideal S128x64 .f32) := by
  funext j
  show (ent1 m c main_arg2 : Vec Ideal S128x64 .f32) (((cfg1.win 2).blk t).view.emb j) = (ent1 m c main_arg2 : Vec Ideal S128x64 .f32) j
  congr 1; funext a; apply Fin.ext
  obtain ⟨-, -, ⟨e0, e1⟩, -⟩ := idx1 t
  match a with
  | ⟨0, _⟩ => show win1_2.index t (0 : Fin 2) * 128 + 1 * (j 0).val = (j 0).val; rw [e0]; omega
  | ⟨1, _⟩ => show win1_2.index t (1 : Fin 2) * 64 + 1 * (j 1).val = (j 1).val; rw [e1]; omega

theorem hB1_eq (c : Dev nD) (t : Fin cfg1.N) : hB1 (ent1 m) c t = (ent1 m c main_v5 : Vec Ideal S1x64 .f32) := by
  funext j
  show (ent1 m c main_v5 : Vec Ideal S1x64 .f32) (((cfg1.win 3).blk t).view.emb j) = (ent1 m c main_v5 : Vec Ideal S1x64 .f32) j
  congr 1; funext a; apply Fin.ext
  obtain ⟨-, -, -, ⟨e0, e1⟩, -⟩ := idx1 t
  match a with
  | ⟨0, _⟩ => show win1_3.index t (0 : Fin 2) * 1 + 1 * (j 0).val = (j 0).val; rw [e0]; omega
  | ⟨1, _⟩ => show win1_3.index t (1 : Fin 2) * 64 + 1 * (j 1).val = (j 1).val; rw [e1]; omega

theorem hW2_eq (c : Dev nD) (t : Fin cfg1.N) : hW2 (ent1 m) c t = (ent1 m c main_arg4 : Vec Ideal S64x1 .f32) := by
  funext j
  show (ent1 m c main_arg4 : Vec Ideal S64x1 .f32) (((cfg1.win 4).blk t).view.emb j) = (ent1 m c main_arg4 : Vec Ideal S64x1 .f32) j
  congr 1; funext a; apply Fin.ext
  obtain ⟨-, -, -, -, ⟨e0, e1⟩, -⟩ := idx1 t
  match a with
  | ⟨0, _⟩ => show win1_4.index t (0 : Fin 2) * 64 + 1 * (j 0).val = (j 0).val; rw [e0]; omega
  | ⟨1, _⟩ => show win1_4.index t (1 : Fin 2) * 1 + 1 * (j 1).val = (j 1).val; rw [e1]; omega

theorem hB2_eq (c : Dev nD) (t : Fin cfg1.N) : hB2 (ent1 m) c t = (ent1 m c main_v6 : Vec Ideal S1x1 .f32) := by
  funext j
  show (ent1 m c main_v6 : Vec Ideal S1x1 .f32) (((cfg1.win 5).blk t).view.emb j) = (ent1 m c main_v6 : Vec Ideal S1x1 .f32) j
  congr 1; funext a; apply Fin.ext
  obtain ⟨-, -, -, -, -, ⟨e0, e1⟩, -⟩ := idx1 t
  match a with
  | ⟨0, _⟩ => show win1_5.index t (0 : Fin 2) * 1 + 1 * (j 0).val = (j 0).val; rw [e0]; omega
  | ⟨1, _⟩ => show win1_5.index t (1 : Fin 2) * 1 + 1 * (j 1).val = (j 1).val; rw [e1]; omega

/-- The head's stored value of the arrays the second launch was entered from. -/
abbrev headOut (c : Dev nD) : Vec Ideal S256x1 .f32 :=
  k1_pay1 (F := Ideal) (ent1 m c main_v2 : Vec Ideal S256x128 .f32) (ent1 m c main_v4 : Vec Ideal S256x1 .f32)
    (ent1 m c main_arg2 : Vec Ideal S128x64 .f32) (ent1 m c main_v5 : Vec Ideal S1x64 .f32)
    (ent1 m c main_arg4 : Vec Ideal S64x1 .f32) (ent1 m c main_v6 : Vec Ideal S1x1 .f32)

/-- The result array after the second launch: its one write-back is the whole array. -/
theorem out_eq_head (c : Dev nD) : (dat1 (ent1 m) c).arrAt 6 cfg1.N = headOut m c := by
  refine (dat1 (ent1 m) c).arrAt_eq_of_cover 6 (headOut m c) (fun t _ => ?_) (fun i => ⟨t1_0, flush1_6 t1_0, ?_⟩)
  · show (cfg1.win 6).cut (grid1.coords t) ((dat1 (ent1 m) c).after 6 t) = _
    rw [after1_6, hSums_eq, hCnts_eq, hW1_eq, hB1_eq, hW2_eq, hB2_eq]
    funext j
    show headOut m c j = headOut m c (((cfg1.win 6).blk t).view.emb j)
    congr 1; funext a; apply Fin.ext
    obtain ⟨-, -, -, -, -, -, e0, e1⟩ := idx1 t
    match a with
    | ⟨0, _⟩ => show (j 0).val = win1_6.index t (0 : Fin 2) * 256 + 1 * (j 0).val; rw [e0]; omega
    | ⟨1, _⟩ => show (j 1).val = win1_6.index t (1 : Fin 2) * 1 + 1 * (j 1).val; rw [e1]; omega
  · show i ∈ ((View.whole main_v7).slice (win1_6.rect t1_0)).set
    rw [View.set_slice_whole, Rect.mem_set_unit]
    obtain ⟨-, -, -, -, -, -, e0, e1⟩ := idx1 t1_0
    intro a
    match a with
    | ⟨0, _⟩ =>
      show win1_6.index t1_0 (0 : Fin 2) * 256 ≤ (i 0).val ∧ (i 0).val < win1_6.index t1_0 (0 : Fin 2) * 256 + 256
      rw [e0]; have : (i 0).val < 256 := (i 0).isLt; omega
    | ⟨1, _⟩ =>
      show win1_6.index t1_0 (1 : Fin 2) * 1 ≤ (i 1).val ∧ (i 1).val < win1_6.index t1_0 (1 : Fin 2) * 1 + 1
      rw [e1]; have : (i 1).val < 1 := (i 1).isLt; omega

/-! ## The kernel's value -/

/-- `Spec.head` depends on its six arguments only through their values. -/
theorem head_congr {S S' : Fin 256 → Fin 128 → EReal} {C C' : Fin 256 → EReal} {W1 W1' : Fin 128 → Fin 64 → EReal}
    {B1 B1' : Fin 64 → EReal} {W2 W2' : Fin 64 → EReal} {b2 b2' : EReal}
    (hS : S = S') (hC : C = C') (hW1 : W1 = W1') (hB1 : B1 = B1') (hW2 : W2 = W2') (hb2 : b2 = b2') (g : Fin 256) :
    Cert.Spec.head S C W1 B1 W2 b2 g = Cert.Spec.head S' C' W1' B1' W2' b2' g := by
  subst hS hC hW1 hB1 hW2 hb2; rfl

/-- THE KERNEL'S VALUE: the result array the run ends at is `Spec.result` of the six arguments. -/
theorem kernel_value (c : Dev nD) :
    Gen.V4 m (outs m) c main_v7
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  have e1 : Gen.V4 m (outs m) c main_v7 = (dat1 (ent1 m) c).arrAt 6 cfg1.N := by
    show Function.update (Gen.V3 m (outs m) c) main_v7 (outs m 4 main_v7 c) main_v7 = _
    rw [Function.update_self]; exact outs_out m c
  rw [e1, out_eq_head]
  funext i
  obtain ⟨g, rfl⟩ : ∃ g : Fin 256, i = ix2 g (0 : Fin 1) :=
    ⟨i 0, by
      rw [eq_ix2 i]; congr 1; apply Fin.ext
      have h : (i 1).val < 1 := (i 1).isLt
      show (i 1).val = 0; omega⟩
  refine (pay_head_apply _ _ _ _ _ _ g).trans ?_
  unfold Cert.Spec.result
  exact head_congr (funext fun g => funext fun k => ent1_sums m c g k) (funext fun g => ent1_cnts m c g)
    (funext fun k => funext fun j => by
      show (ent1 m c main_arg2 : Vec Ideal S128x64 .f32) (ix2 k j) = _; rw [ent1_W1])
    (funext fun j => ent1_B1 m c j)
    (funext fun j => by
      show (ent1 m c main_arg4 : Vec Ideal S64x1 .f32) (ix2 j (0 : Fin 1)) = _; rw [ent1_W2])
    (ent1_B2 m c) g

end Cert.KernelIdeal.Hand

end
-- ==== Proof.RefValue.lean ====
/-
  The reference on the extended reals. Its two scatter-adds start from zero arrays and add, at element `(g, d)`
  (at `g` for the counts), every update whose start index — row `r`'s segment word read SIGNED and not clamped — is
  `g`; a row whose word is negative or at least 256 lands outside and adds nothing. So the first is the segment sum
  and the second, whose updates are all 1, the segment count. The rest of the program is the head, read operation
  by operation.
-/
import proofs.«403711_j17686675324958_1_alg».proof.Proof.Gen.ReferenceIdeal.Run
import proofs.«403711_j17686675324958_1_alg».proof.Proof.Gen.ReferenceIdeal.Read
import proofs.«403711_j17686675324958_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx

/-! ## A scatter's result index, and a word read signed -/

/-- An update lands on element `i` exactly when, on every axis, its start plus its window coordinate is `i`'s
    coordinate: the sum is then inside the operand, and outside it the update is dropped. -/
theorem resultIdx?_eq_some_iff {s si u : Shape} (D : ScatterDims s si u) {w : Nat} (j : u.Idx) (idx : IVec si w) (i : s.Idx) :
    D.resultIdx? j idx = some i ↔ ∀ a, D.start j idx a + (D.window j a : Int) = ((i a).val : Int) := by
  unfold ScatterDims.resultIdx?
  constructor
  · intro h
    split at h
    · rename_i hb
      have h1 := Option.some.inj h
      intro a
      have ha := congrArg Fin.val (congrFun h1 a)
      have := hb a
      simp only at ha
      omega
    · exact absurd h (by simp)
  · intro h
    have hb : ∀ a, 0 ≤ D.start j idx a + D.window j a ∧ D.start j idx a + D.window j a < s.size a := by
      intro a; have := h a; have := (i a).isLt; omega
    rw [dif_pos hb]
    congr 1
    funext a; apply Fin.ext; simp only; have := h a; omega

/-- A 32-bit word read signed is the number `g < 256` exactly when it is the word of `g`. -/
theorem toInt_eq_iff (w : BitVec 32) (g : Nat) (hg : g < 256) : w.toInt = (g : Int) ↔ w = BitVec.ofNat 32 g := by
  constructor
  · intro h
    apply BitVec.eq_of_toNat_eq
    rw [BitVec.toNat_ofNat]
    rw [BitVec.toInt_eq_toNat_cond] at h
    have := w.isLt
    split at h <;> omega
  · rintro rfl
    rw [BitVec.toInt_eq_toNat_cond, BitVec.toNat_ofNat]
    have : g % 2^32 = g := Nat.mod_eq_of_lt (by omega)
    rw [this]; split <;> omega

/-- The word of 1.0 is the extended real 1. -/
theorem ofBits_one_f32 : Ideal.ofBits .f32 0x3F800000#32 = 1 := IdealRules.sign_bit.ideal_onePat .f32

/-- The accumulating scatter at an index, on the extended reals: the operand's element plus the updates landing there. -/
theorem scatterAdd_apply {s si u : Shape} {φ : FTy} {w : Nat} (D : ScatterDims s si u) (x : FVec Ideal s φ) (idx : IVec si w)
    (upd : FVec Ideal u φ) (i : s.Idx) :
    Host.scatterAdd D x idx upd i = x i + ∑ j ∈ Finset.univ.filter (fun j => D.resultIdx? j idx = some i), upd j := rfl

/-! ## Filtered sums over an index set, by coordinates -/

/-- A filtered sum over a rank-2 index set is the double sum over the coordinates of the terms the filter keeps. -/
theorem sum_filter_idx2 {M : Type*} [AddCommMonoid M] {n0 n1 : Nat} (p : (⟨2, ![n0, n1]⟩ : Shape).Idx → Prop) [DecidablePred p]
    (f : (⟨2, ![n0, n1]⟩ : Shape).Idx → M) :
    ∑ j ∈ Finset.univ.filter p, f j = ∑ a : Fin n0, ∑ b : Fin n1, if p (ix2 a b) then f (ix2 a b) else 0 := by
  rw [Finset.sum_filter, sum_idx2]

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A filtered sum over a rank-1 index set is the sum over the coordinate of the terms the filter keeps. -/
theorem sum_filter_idx1 {M : Type*} [AddCommMonoid M] {n : Nat} (p : (⟨1, ![n]⟩ : Shape).Idx → Prop) [DecidablePred p]
    (f : (⟨1, ![n]⟩ : Shape).Idx → M) :
    ∑ j ∈ Finset.univ.filter p, f j = ∑ a : Fin n, if p (ix1 a) then f (ix1 a) else 0 := by
  rw [Finset.sum_filter, sum_idx1]

/-! ## The two scatters' dimension numbers at an update index -/

/-- The sums' scatter: updates `[2000000, 128]` into `[256, 128]`, row `r` of the updates starting at the row its word names. -/
abbrev D₁ := scatter_S256x128_S2000000x1_S2000000x128_1_0_0_1
/-- The counts' scatter: updates `[2000000]` into `[256]`. -/
abbrev D₂ := scatter_S256_S2000000x1_S2000000_n_0_0_1

theorem start1_0 (idx : IVec S2000000x1 32) (r : Fin 2000000) (d' : Fin 128) :
    D₁.start (ix2 r d') idx 0 = (idx (ix2 r (0 : Fin 1))).toInt := by
  unfold ScatterDims.start
  rw [dif_pos (show (0 : Fin S256x128.rank) ∈ D₁.scatterDimsToOperandDims by decide)]
  congr 2
  funext b
  match b with
  | ⟨0, _⟩ => rfl
  | ⟨1, _⟩ => rfl

theorem start1_1 (idx : IVec S2000000x1 32) (r : Fin 2000000) (d' : Fin 128) :
    D₁.start (ix2 r d') idx 1 = 0 := by
  unfold ScatterDims.start
  rw [dif_neg (show ¬ (1 : Fin S256x128.rank) ∈ D₁.scatterDimsToOperandDims by decide)]

theorem window1_0 (r : Fin 2000000) (d' : Fin 128) :
    D₁.window (ix2 r d') 0 = 0 := by
  unfold ScatterDims.window
  rw [dif_neg (show ¬ (0 : Fin S256x128.rank) ∈ D₁.sKept by decide)]

theorem window1_1 (r : Fin 2000000) (d' : Fin 128) :
    D₁.window (ix2 r d') 1 = d'.val := by
  unfold ScatterDims.window
  rw [dif_pos (show (1 : Fin S256x128.rank) ∈ D₁.sKept by decide)]
  rfl

/-- Update `(r, d')` of the sums' scatter lands on `(g, d)` exactly when row `r`'s word is `g`'s and `d' = d`. -/
theorem res1_iff (idx : IVec S2000000x1 32) (r : Fin 2000000) (d' : Fin 128) (g : Fin 256) (d : Fin 128) :
    D₁.resultIdx? (ix2 r d') idx = some (ix2 g d) ↔ idx (ix2 r (0 : Fin 1)) = BitVec.ofNat 32 g.val ∧ d' = d := by
  rw [resultIdx?_eq_some_iff, ← toInt_eq_iff _ _ g.isLt]
  constructor
  · intro h
    have h0 : D₁.start (ix2 r d') idx 0 + (D₁.window (ix2 r d') 0 : Int) = (g.val : Int) := h 0
    have h1 : D₁.start (ix2 r d') idx 1 + (D₁.window (ix2 r d') 1 : Int) = (d.val : Int) := h 1
    rw [start1_0, window1_0] at h0
    rw [start1_1, window1_1] at h1
    exact ⟨by omega, Fin.ext (by omega)⟩
  · rintro ⟨h0, rfl⟩ a
    match a with
    | ⟨0, _⟩ =>
      show D₁.start (ix2 r d') idx 0 + (D₁.window (ix2 r d') 0 : Int) = (g.val : Int)
      rw [start1_0, window1_0]; omega
    | ⟨1, _⟩ =>
      show D₁.start (ix2 r d') idx 1 + (D₁.window (ix2 r d') 1 : Int) = (d'.val : Int)
      rw [start1_1, window1_1]; omega

theorem start2_0 (idx : IVec S2000000x1 32) (r : Fin 2000000) :
    D₂.start (ix1 r) idx 0 = (idx (ix2 r (0 : Fin 1))).toInt := by
  unfold ScatterDims.start
  rw [dif_pos (show (0 : Fin S256.rank) ∈ D₂.scatterDimsToOperandDims by decide)]
  congr 2
  funext b
  match b with
  | ⟨0, _⟩ => rfl
  | ⟨1, _⟩ => rfl

theorem window2_0 (r : Fin 2000000) : D₂.window (ix1 r) 0 = 0 := by
  unfold ScatterDims.window
  rw [dif_neg (show ¬ (0 : Fin S256.rank) ∈ D₂.sKept by decide)]

/-- Update `r` of the counts' scatter lands on `g` exactly when row `r`'s word is `g`'s. -/
theorem res2_iff (idx : IVec S2000000x1 32) (r : Fin 2000000) (g : Fin 256) :
    D₂.resultIdx? (ix1 r) idx = some (ix1 g) ↔ idx (ix2 r (0 : Fin 1)) = BitVec.ofNat 32 g.val := by
  rw [resultIdx?_eq_some_iff, ← toInt_eq_iff _ _ g.isLt]
  constructor
  · intro h
    have h0 : D₂.start (ix1 r) idx 0 + (D₂.window (ix1 r) 0 : Int) = (g.val : Int) := h 0
    rw [start2_0, window2_0] at h0
    omega
  · intro h0 a
    match a with
    | ⟨0, _⟩ =>
      show D₂.start (ix1 r) idx 0 + (D₂.window (ix1 r) 0 : Int) = (g.val : Int)
      rw [start2_0, window2_0]; omega

/-! ## The two scatter-adds -/

/-- The first scatter-add at `(g, d)`: the segment sum. -/
theorem sums_apply (X : (⟨S2000000x128, .f32⟩ : BufTy).Contents (Elt Ideal)) (B : (⟨S2000000, .i32⟩ : BufTy).Contents (Elt Ideal))
    (g : Fin 256) (d : Fin 128) :
    val_main_v2 (F := Ideal) X B (ix2 g d) = Cert.Spec.segSum (fun r d => X (ix2 r d)) (fun r => B (ix1 r)) g d := by
  unfold val_main_v2
  rw [scatterAdd_apply]
  rw [val_main_v0_apply, val_main_cst_apply, Ideal.ofBits_def, Ideal.ofBits_zero_f32, zero_add]
  rw [sum_filter_idx2]
  unfold Cert.Spec.segSum
  refine Finset.sum_congr rfl fun r _ => ?_
  have hB : val_main_v1 (F := Ideal) B (ix2 r (0 : Fin 1)) = B (ix1 r) := by
    rw [val_main_v1_apply]; congr 1; funext a; match a with | ⟨0, _⟩ => rfl
  simp only [res1_iff, hB]
  by_cases h : B (ix1 r) = BitVec.ofNat 32 g.val
  · simp only [h, true_and, Finset.sum_ite_eq', Finset.mem_univ, if_true]
  · simp only [h, false_and, if_false, Finset.sum_const_zero]

/-- The second scatter-add at `g`: the segment count. -/
theorem cnts_apply (B : (⟨S2000000, .i32⟩ : BufTy).Contents (Elt Ideal)) (g : Fin 256) :
    val_main_v6 (F := Ideal) B (ix1 g) = Cert.Spec.segCnt (fun r => B (ix1 r)) g := by
  unfold val_main_v6
  rw [scatterAdd_apply]
  rw [val_main_v4_apply, val_main_cst_1_apply, Ideal.ofBits_def, Ideal.ofBits_zero_f32, zero_add]
  rw [sum_filter_idx1]
  unfold Cert.Spec.segCnt
  refine Finset.sum_congr rfl fun r _ => ?_
  have hB : val_main_v5 (F := Ideal) B (ix2 r (0 : Fin 1)) = B (ix1 r) := by
    rw [val_main_v5_apply]; congr 1; funext a; match a with | ⟨0, _⟩ => rfl
  rw [val_main_v3_apply, val_main_cst_0_apply, Ideal.ofBits_def, ofBits_one_f32]
  simp only [res2_iff, hB]

/-! ## The head, stage by stage, each read at an explicit index -/

section Stages

variable (X : (⟨S2000000x128, .f32⟩ : BufTy).Contents (Elt Ideal)) (B : (⟨S2000000, .i32⟩ : BufTy).Contents (Elt Ideal))
  (W1 : (⟨S128x64, .f32⟩ : BufTy).Contents (Elt Ideal)) (B1 : (⟨S64, .f32⟩ : BufTy).Contents (Elt Ideal))
  (W2 : (⟨S64x1, .f32⟩ : BufTy).Contents (Elt Ideal)) (B2 : (⟨S1, .f32⟩ : BufTy).Contents (Elt Ideal))

/-- The segment sums and counts of the arguments. -/
abbrev sumsOf : Fin 256 → Fin 128 → EReal := Cert.Spec.segSum (fun r d => X (ix2 r d)) (fun r => B (ix1 r))
abbrev cntsOf : Fin 256 → EReal := Cert.Spec.segCnt (fun r => B (ix1 r))

/-- The quotient: each segment sum by its segment's count. -/
theorem mean_at (g : Fin 256) (k : Fin 128) :
    val_main_v9 (F := Ideal) X B (ix2 g k) = Ideal.div (sumsOf X B g k) (cntsOf B g) := by
  have e : idx_main_v7 (idx_main_v8 (ix2 g k)) = ix1 g := funext fun a => Fin.ext (by match a with | ⟨0, _⟩ => rfl)
  rw [val_main_v9_apply, val_main_v8_apply, val_main_v7_apply, e, sums_apply, cnts_apply]
  rfl

/-- The first contraction. -/
theorem proj_at (g : Fin 256) (j : Fin 64) :
    val_main_v10 (F := Ideal) X B W1 (ix2 g j) = ∑ k : Fin 128, Ideal.div (sumsOf X B g k) (cntsOf B g) * W1 (ix2 k j) := by
  rw [val_main_v10_apply]
  refine Finset.sum_congr rfl fun k _ => ?_
  have el : lidx_main_v10 (ix2 g j) k = ix2 g k := funext fun a => Fin.ext (by match a with | ⟨0, _⟩ => rfl | ⟨1, _⟩ => rfl)
  have er : ridx_main_v10 (ix2 g j) k = ix2 k j := funext fun a => Fin.ext (by match a with | ⟨0, _⟩ => rfl | ⟨1, _⟩ => rfl)
  rw [el, er, mean_at]

/-- The first bias, re-laid as a row and repeated down the rows. -/
theorem bias1_at (g : Fin 256) (j : Fin 64) : val_main_v12 (F := Ideal) B1 (ix2 g j) = B1 (ix1 j) := by
  have e : idx_main_v11 (idx_main_v12 (ix2 g j)) = ix1 j := funext fun a => Fin.ext (by match a with | ⟨0, _⟩ => rfl)
  rw [val_main_v12_apply, val_main_v11_apply, e]

/-- The clamp at zero of the first layer. -/
theorem relu_at (g : Fin 256) (j : Fin 64) :
    val_main_v14 (F := Ideal) X B W1 B1 (ix2 g j)
      = max ((∑ k : Fin 128, Ideal.div (sumsOf X B g k) (cntsOf B g) * W1 (ix2 k j)) + B1 (ix1 j)) 0 := by
  rw [val_main_v14_apply, val_main_v13_apply, proj_at, bias1_at, val_main_call0_v0_apply, val_main_call0_cst_apply]
  exact congrArg (max _) Ideal.ofBits_zero_f32

/-- The second bias, re-laid and repeated. -/
theorem bias2_at (g : Fin 256) : val_main_v17 (F := Ideal) B2 (ix2 g (0 : Fin 1)) = B2 (ix1 (0 : Fin 1)) := by
  have e : idx_main_v16 (idx_main_v17 (ix2 g (0 : Fin 1))) = ix1 (0 : Fin 1) := funext fun a => Fin.ext (by match a with | ⟨0, _⟩ => rfl)
  rw [val_main_v17_apply, val_main_v16_apply, e]

/-- The second contraction. -/
theorem out_at (g : Fin 256) :
    val_main_v15 (F := Ideal) X B W1 B1 W2 (ix2 g (0 : Fin 1))
      = ∑ j : Fin 64, max ((∑ k : Fin 128, Ideal.div (sumsOf X B g k) (cntsOf B g) * W1 (ix2 k j)) + B1 (ix1 j)) 0 * W2 (ix2 j (0 : Fin 1)) := by
  rw [val_main_v15_apply]
  refine Finset.sum_congr rfl fun j _ => ?_
  have el : lidx_main_v15 (ix2 g (0 : Fin 1)) j = ix2 g j := funext fun a => Fin.ext (by match a with | ⟨0, _⟩ => rfl | ⟨1, _⟩ => rfl)
  have er : ridx_main_v15 (ix2 g (0 : Fin 1)) j = ix2 j (0 : Fin 1) := funext fun a => Fin.ext (by match a with | ⟨0, _⟩ => rfl | ⟨1, _⟩ => rfl)
  rw [el, er, relu_at]

end Stages

/-- The reference's result is `Spec.result` of the six arguments. -/
theorem ref_value (X : (⟨S2000000x128, .f32⟩ : BufTy).Contents (Elt Ideal)) (B : (⟨S2000000, .i32⟩ : BufTy).Contents (Elt Ideal))
    (W1 : (⟨S128x64, .f32⟩ : BufTy).Contents (Elt Ideal)) (B1 : (⟨S64, .f32⟩ : BufTy).Contents (Elt Ideal))
    (W2 : (⟨S64x1, .f32⟩ : BufTy).Contents (Elt Ideal)) (B2 : (⟨S1, .f32⟩ : BufTy).Contents (Elt Ideal)) :
    val_main_v18 (F := Ideal) X B W1 B1 W2 B2 = Cert.Spec.result X B W1 B1 W2 B2 := by
  funext i
  obtain ⟨g, rfl⟩ : ∃ g : Fin 256, i = ix2 g (0 : Fin 1) :=
    ⟨i 0, by
      rw [eq_ix2 i]; congr 1; apply Fin.ext
      have h : (i 1).val < 1 := (i 1).isLt
      show (i 1).val = 0; omega⟩
  rw [val_main_v18_apply, out_at, bias2_at]
  rfl

end Cert.ReferenceIdeal.RefValue

end
-- ==== Proof.lean ====
/-
  The claim: the kernel (a one-hot contraction accumulated tile by tile on two core halves, the halves added on the
  host, then a small perceptron head) and the reference (two scatter-adds, then the same head) compute, on the
  extended reals, one function of the six arguments — `Cert.Spec.result`: per segment the sum and the count of its
  rows, their quotient through `relu (· W1 + b1) · W2 + b2`. A row whose segment word is the word of no segment below
  256 is dropped by both: the kernel's one-hot row is then zero, the reference's update lands outside its operand.
  No law beyond commutativity and associativity of the extended reals' sum, `0·x = 0` and `1·x = x` is used, so the
  precondition (finite inputs) is never opened.
  The three frames: both kernel programs by the conditional frame over the two launches' records (Proof/KI, and its
  layout at the word-level instance Proof/K); the reference by its run. `preserves` is `True`: the idealization
  rewrote nothing.
-/
import proofs.«403711_j17686675324958_1_alg».proof.Defs
import proofs.«403711_j17686675324958_1_alg».proof.Proof.Gen.Kernel
import proofs.«403711_j17686675324958_1_alg».proof.Proof.Gen.KernelIdeal
import proofs.«403711_j17686675324958_1_alg».proof.Proof.Gen.ReferenceIdeal
import proofs.«403711_j17686675324958_1_alg».proof.Proof.Gen.Pre_finite_inputs
import proofs.«403711_j17686675324958_1_alg».proof.Proof.Gen.ReferenceIdeal.Run
import proofs.«403711_j17686675324958_1_alg».proof.Proof.Gen.ReferenceIdeal.Read
import proofs.«403711_j17686675324958_1_alg».proof.Proof.K.Launch
import proofs.«403711_j17686675324958_1_alg».proof.Proof.KI.Launch
import proofs.«403711_j17686675324958_1_alg».proof.Proof.KI.KernelValue
import proofs.«403711_j17686675324958_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `Spec.result` of the (agreeing) arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.kernel_value m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.ReferenceIdeal.RefValue.ref_value,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
